-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000x64 : Shape := ⟨2, ![1200000, 64]⟩
abbrev S2x1200000 : Shape := ⟨2, ![2, 1200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S1x1200000 : Shape := ⟨2, ![1, 1200000]⟩
abbrev S1200000 : Shape := ⟨1, ![1200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part2 {F : FTy → Type} [FloatOps F] (main_arg2 : IVec S2x1200000 32) (main_v28 : IVec S_ 1) (main_v33 : IVec S_ 1) : IVec S_ 1 :=
  let main_v34 : IVec S_ 1 := andi main_v28 main_v33
  let main_v35 : IVec S1x1200000 32 := (extractStridedSlice S1x1200000 ![0, 0] · slices_S2x1200000_S1x1200000_0_0) main_arg2
  let main_v36 : IVec S1200000 32 := shapeCast S1200000 main_v35 shapeCasts_S1x1200000_S1200000
  let main_c_12 : IVec S_ 32 := constantI S_ 32 100000#32
  let main_v37 : IVec S1200000 32 := broadcastInDim S1200000 ![] bcast_S_S1200000 main_c_12
  let main_v38 : IVec S1200000 1 := cmpi .slt main_v36 main_v37
  let main_c_13 : IVec S_ 1 := constantI S_ 1 1#1
  let main_v39 : IVec S_ 1 := (fun x v => Host.reduce IntOp.andi x v reducesTo_S1200000_S_d0 h_S_) main_v38 main_c_13
  let main_v40 : IVec S_ 1 := andi main_v34 main_v39
  main_v40

def fn_part1 {F : FTy → Type} [FloatOps F] (main_arg2 : IVec S2x1200000 32) (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x1200000 32 := (extractStridedSlice S1x1200000 ![0, 0] · slices_S2x1200000_S1x1200000_0_0) main_arg2
  let main_v30 : IVec S1200000 32 := shapeCast S1200000 main_v29 shapeCasts_S1x1200000_S1200000
  let main_c_10 : IVec S_ 32 := constantI S_ 32 0#32
  let main_v31 : IVec S1200000 32 := broadcastInDim S1200000 ![] bcast_S_S1200000 main_c_10
  let main_v32 : IVec S1200000 1 := cmpi .sge main_v30 main_v31
  let main_c_11 : IVec S_ 1 := constantI S_ 1 1#1
  let main_v33 : IVec S_ 1 := (fun x v => Host.reduce IntOp.andi x v reducesTo_S1200000_S_d0 h_S_) main_v32 main_c_11
  fn_part2 (F := F) main_arg2 main_v28 main_v33

def fn {F : FTy → Type} [FloatOps F] (main_arg0 : FVec F S100000x64 .f32) (main_arg1 : FVec F S1200000x64 .f32) (main_arg2 : IVec S2x1200000 32) (main_arg3 : FVec F S64x128 .f32) (main_arg4 : FVec F S128 .f32) (main_arg5 : FVec F S128x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg1
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_v13 main_v16
-- ==== Kernel.lean ====
abbrev S100000x64 : Shape := ⟨2, ![100000, 64]⟩
abbrev S1200000x64 : Shape := ⟨2, ![1200000, 64]⟩
abbrev S2x1200000 : Shape := ⟨2, ![2, 1200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200128 : Shape := ⟨1, ![1200128]⟩
abbrev S1200128x64 : Shape := ⟨2, ![1200128, 64]⟩
abbrev S352x64 : Shape := ⟨2, ![352, 64]⟩
abbrev S100352x64 : Shape := ⟨2, ![100352, 64]⟩
abbrev S64x100352 : Shape := ⟨2, ![64, 100352]⟩
abbrev S64x1200128 : Shape := ⟨2, ![64, 1200128]⟩
abbrev S1x1200128 : Shape := ⟨2, ![1, 1200128]⟩
abbrev S1x4096 : Shape := ⟨2, ![1, 4096]⟩
abbrev S64x4096 : Shape := ⟨2, ![64, 4096]⟩
abbrev S64x1024 : Shape := ⟨2, ![64, 1024]⟩
abbrev S1024x4096 : Shape := ⟨2, ![1024, 4096]⟩
abbrev S1024x64 : Shape := ⟨2, ![1024, 64]⟩
abbrev S1024x128 : Shape := ⟨2, ![1024, 128]⟩
abbrev S1x128 : Shape := ⟨2, ![1, 128]⟩
abbrev S1x64 : Shape := ⟨2, ![1, 64]⟩

abbrev nBuf : Space → Nat
  | .hbm => 28
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S2x1200000, .i32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .i32⟩
  | .hbm, ⟨12, _⟩ => ⟨S128, .i32⟩
  | .hbm, ⟨13, _⟩ => ⟨S1200128, .i32⟩
  | .hbm, ⟨14, _⟩ => ⟨S1200128, .i32⟩
  | .hbm, ⟨15, _⟩ => ⟨S_, .f32⟩
  | .hbm, ⟨16, _⟩ => ⟨S128x64, .f32⟩
  | .hbm, ⟨17, _⟩ => ⟨S1200128x64, .f32⟩
  | .hbm, ⟨18, _⟩ => ⟨S_, .f32⟩
  | .hbm, ⟨19, _⟩ => ⟨S352x64, .f32⟩
  | .hbm, ⟨20, _⟩ => ⟨S100352x64, .f32⟩
  | .hbm, ⟨21, _⟩ => ⟨S64x100352, .f32⟩
  | .hbm, ⟨22, _⟩ => ⟨S64x1200128, .f32⟩
  | .hbm, ⟨23, _⟩ => ⟨S1x1200128, .i32⟩
  | .hbm, ⟨24, _⟩ => ⟨S1x1200128, .i32⟩
  | .hbm, ⟨25, _⟩ => ⟨S64x1200128, .f32⟩
  | .hbm, ⟨26, _⟩ => ⟨S100352x64, .f32⟩
  | .hbm, ⟨27, _⟩ => ⟨S100000x64, .f32⟩
  | .local _ .vmem, ⟨0, _⟩ => ⟨S1x4096, .i32⟩
  | .local _ .vmem, ⟨1, _⟩ => ⟨S1x4096, .i32⟩
  | .local _ .vmem, ⟨2, _⟩ => ⟨S64x4096, .f32⟩
  | .local _ .vmem, ⟨3, _⟩ => ⟨S64x4096, .f32⟩
  | .local _ .vmem, ⟨4, _⟩ => ⟨S64x1024, .f32⟩
  | .local _ .vmem, ⟨5, _⟩ => ⟨S64x1024, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S1x4096, .i32⟩
  | .local _ .vmem, ⟨10, _⟩ => ⟨S1x4096, .i32⟩
  | .local _ .vmem, ⟨11, _⟩ => ⟨S64x4096, .f32⟩
  | .local _ .vmem, ⟨12, _⟩ => ⟨S64x4096, .f32⟩
  | .local _ .vmem, ⟨13, _⟩ => ⟨S64x128, .f32⟩
  | .local _ .vmem, ⟨14, _⟩ => ⟨S128, .f32⟩
  | .local _ .vmem, ⟨15, _⟩ => ⟨S128x64, .f32⟩
  | .local _ .vmem, ⟨16, _⟩ => ⟨S64, .f32⟩
  | .local _ .vmem, ⟨17, _⟩ => ⟨S1024x64, .f32⟩
  | .local _ .vmem, ⟨18, _⟩ => ⟨S1024x64, .f32⟩
  | .local _ .vmem, ⟨19, _⟩ => ⟨S64x1024, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![293, 98], ![false, false]⟩

def k0_cond2 (i : grid0.Coords) : BitVec 1 :=
  let arg1 : BitVec 32 := BitVec.ofNat 32 (i 1).val
  let c97_i32 : BitVec 32 := 97#32
  let v23 : BitVec 1 := Scalar.cmpi .eq arg1 c97_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![98, 293], ![false, false]⟩

def k1_cond2 (i : grid1.Coords) : BitVec 1 :=
  let arg1 : BitVec 32 := BitVec.ofNat 32 (i 1).val
  let c292_i32 : BitVec 32 := 292#32
  let v23 : BitVec 1 := Scalar.cmpi .eq arg1 c292_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S128 : S_.BroadcastsInDim S128 (![] : Fin 0 → Fin S128.rank)
  concatenates_S1200000_S128_S1200128_d0 : Shape.Concatenates [S1200000, S128] S1200128 0
  bcast_S_S128x64 : S_.BroadcastsInDim S128x64 (![] : Fin 0 → Fin S128x64.rank)
  concatenates_S1200000x64_S128x64_S1200128x64_d0 : Shape.Concatenates [S1200000x64, S128x64] S1200128x64 0
  bcast_S_S352x64 : S_.BroadcastsInDim S352x64 (![] : Fin 0 → Fin S352x64.rank)
  concatenates_S100000x64_S352x64_S100352x64_d0 : Shape.Concatenates [S100000x64, S352x64] S100352x64 0
  transposes_S100352x64_S64x100352_1_0 : S100352x64.Transposes [1, 0] S64x100352
  transposes_S1200128x64_S64x1200128_1_0 : S1200128x64.Transposes [1, 0] S64x1200128
  shapeCasts_S1200128_S1x1200128 : S1200128.ShapeCasts S1x1200128
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  iota_S1024x4096_d0_w32 : S1024x4096.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  natLt_1_32 : 1 < 32
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  transposes_S64x1024_p1_0_S1024x64 : S64x1024.Transposes [1, 0] S1024x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  slices_S100352x64_S100000x64_0_0 : S100352x64.Slices ![0, 0] S100000x64
  dot_S64x1024_S1024x4096_S64x4096_1_0_0_1_n_n_wf : DotDims.WF S64x1024 S1024x4096 S64x4096 [1] [0] [0] [1] [] []
  dot_S64x4096_S1024x4096_S64x1024_1_1_0_0_n_n_wf : DotDims.WF S64x4096 S1024x4096 S64x1024 [1] [1] [0] [0] [] []
  dot_S1024x64_S64x128_S1024x128_1_0_0_1_n_n_wf : DotDims.WF S1024x64 S64x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x1200128.size a
  hwx0_0 : ∀ i : grid0.Coords, EltTy.bits .i32 = 32 ∨ (Rect.block (s := S1x1200128) S1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x1200128.size a
  hwx0_1 : ∀ i : grid0.Coords, EltTy.bits .f32 = 32 ∨ (Rect.block (s := S64x1200128) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x100352.size a
  hwx0_2 : ∀ i : grid0.Coords, EltTy.bits .f32 = 32 ∨ (Rect.block (s := S64x100352) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x1200128.size a
  hwx0_3 : ∀ i : grid0.Coords, EltTy.bits .f32 = 32 ∨ (Rect.block (s := S64x1200128) S64x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x1200128.size a
  hwx1_0 : ∀ i : grid1.Coords, EltTy.bits .i32 = 32 ∨ (Rect.block (s := S1x1200128) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S64x1200128.size a
  hwx1_1 : ∀ i : grid1.Coords, EltTy.bits .f32 = 32 ∨ (Rect.block (s := S64x1200128) S64x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x64.size a ≤ S100352x64.size a
  hwx1_6 : ∀ i : grid1.Coords, EltTy.bits .f32 = 32 ∨ (Rect.block (s := S100352x64) S1024x64.size (cc1_transform_6 i) (hinb1_6 i)).WholeWords (EltTy.packing .f32)

variable [Facts₀]

def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def dot_S64x4096_S1024x4096_S64x1024_1_1_0_0_n_n : DotDims S64x4096 S1024x4096 S64x1024 where
  lhsContracting := [1]
  rhsContracting := [1]
  lhsNonContracting := [0]
  rhsNonContracting := [0]
  lhsBatch := []
  rhsBatch := []
  wf := dot_S64x4096_S1024x4096_S64x1024_1_1_0_0_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_v13) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v14) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1024x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S1200000x64 : Shape := ⟨2, ![1200000, 64]⟩
abbrev S2x1200000 : Shape := ⟨2, ![2, 1200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x128 : Shape := ⟨2, ![100000, 128]⟩
abbrev S1x128 : Shape := ⟨2, ![1, 128]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S2x1200000, .i32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelReg0.lean ====
/-
  Kernel region 0 of the program, at a parameter V (the buffer contents when the region is entered): the three ways
  through the body's two conditionals on the last grid coordinate (reset the accumulator; neither; hand it to the output),
  each run once with the stores it leaves found by the run; what the output's staging buffer and the accumulator hold after
  every grid point, by recursion on the point; the region invariant that carries the accumulator from point to point; the
  proof data and the body obligation.
-/
import proofs.«425251_j55370718380132_2_alg».proof.Proof.Gen.Kernel.Launch
import proofs.«425251_j55370718380132_2_alg».proof.Proof.Gen.Kernel.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the kernel body's three ways through its two conditionals, the contents it leaves, the proof data -/

/-- The body's first conditional (the accumulator is reset): the last grid coordinate is 0. -/
abbrev cond0_0 (i : grid0.Coords) : Prop := (Scalar.cmpi .ne (Scalar.extui (Scalar.cmpi .eq (BitVec.ofNat 32 (i 1).val) 0#32)) 0#32) = 1#1
/-- The body's second conditional (the accumulator is handed to the output): the last grid coordinate is 97. -/
abbrev cond0_1 (i : grid0.Coords) : Prop := k0_cond2 i = 1#1

/-- The last coordinate of point `t` is `t` modulo 98. -/
theorem coord0_1 (t : Fin cfg0.N) : ((grid0.coords t) 1).val = t.val % 98 := by
  show t.val / grid0.stride 1 % 98 = t.val % 98
  rw [show grid0.stride 1 = 1 from by decide, Nat.div_one]
theorem word0_0 : ∀ k : Fin 98, ((Scalar.cmpi .ne (Scalar.extui (Scalar.cmpi .eq (BitVec.ofNat 32 k.val) 0#32)) 0#32) = 1#1) ↔ k.val = 0 := by decide +kernel
theorem word0_1 : ∀ k : Fin 98, ((Scalar.cmpi .ne (Scalar.extui (Scalar.cmpi .eq (BitVec.ofNat 32 k.val) 97#32)) 0#32) = 1#1) ↔ k.val = 97 := by decide +kernel
theorem hcond0_0 (t : Fin cfg0.N) : cond0_0 (grid0.coords t) ↔ t.val % 98 = 0 := by
  rw [← coord0_1 t]; exact word0_0 ((grid0.coords t) 1)
theorem hcond0_1 (t : Fin cfg0.N) : cond0_1 (grid0.coords t) ↔ t.val % 98 = 97 := by
  rw [← coord0_1 t]; exact word0_1 ((grid0.coords t) 1)

/-- One staging buffer of the output window and the scratch accumulator, as views through which contents are stated. -/
abbrev VO0 : View sig .tc .vmem S64x4096 .f32 := (Memref.whole cc0_stg3_0 : Memref sig .tc .vmem S64x4096 .f32).view
abbrev scM0 : Memref sig .tc .vmem S64x4096 .f32 := Memref.whole cc0_scratch0
abbrev VS0 : View sig .tc .vmem S64x4096 .f32 := (scM0).view
abbrev ms0_0 (t : Fin cfg0.N) : Memref sig .tc .vmem S1x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x4096 .f32 := win0_3.stage (cfg0.slots t 3)
abbrev hs0_3 (t : Fin cfg0.N) : (ms0_3 t).IsWhole := hstage0_3 ((cfg0.slots t 3).cast nbuf0_3)

/-- The kernel body at point `t`, on what the pipeline calls it with. -/
abbrev bodyAt0 (t : Fin cfg0.N) : Prog (TpuEff nD τ sig (Elt F) Λ₀ .tc) PUnit :=
  cc0__gather_add_kernel (grid0.coords t) (ms0_0 t) (hs0_0 t) (ms0_1 t) (hs0_1 t) (ms0_2 t) (hs0_2 t) (ms0_3 t) (hs0_3 t) scM0 (Memref.isWhole_whole _)
/-- The first coordinate of point `t` is `t / 98` (modulo the axis's bound 293). -/
theorem coord0_0 (t : Fin cfg0.N) : ((grid0.coords t) 0).val = t.val / 98 % 293 := by
  show t.val / grid0.stride 0 % 293 = t.val / 98 % 293
  rw [show grid0.stride 0 = 98 from by decide]
/-- The output window's block index at a point, from the point's first coordinate. -/
theorem outIndex0 (i : grid0.Coords) : win0_3.indexMap i = ![(0#32 : BitVec 32).toNat, (BitVec.ofNat 32 (i 0).val).toNat] := rfl
/-- The output window is written back exactly at the points whose last coordinate is 97: there the next point's first
    coordinate is one more (or the grid ends), elsewhere it is the same. -/
theorem flushOut0 (t : Fin cfg0.N) : (cfg0.win 3).flush t = true ↔ t.val % 98 = 97 := by
  have hN : grid0.N = 28714 := N_0
  have ht : t.val < 28714 := lt_of_lt_of_eq t.isLt hN
  rw [show (cfg0.win 3).flush t = Pipeline.Window.flushOf grid0 win0_3.isOut win0_3.indexMap t from rfl]
  unfold Pipeline.Window.flushOf
  rw [show win0_3.isOut = true from rfl, Bool.true_and, Bool.or_eq_true, decide_eq_true_eq, decide_eq_true_eq]
  constructor
  · rintro (h | ⟨h', hne⟩)
    · omega
    · by_contra hc
      apply hne
      rw [outIndex0, outIndex0]
      have e : (grid0.coords ⟨t.val + 1, h'⟩) 0 = (grid0.coords t) 0 := Fin.ext (by rw [coord0_0, coord0_0]; show (t.val + 1) / 98 % 293 = t.val / 98 % 293; omega)
      rw [e]
  · intro h
    by_cases hl : t.val + 1 = grid0.N
    · exact Or.inl hl
    · refine Or.inr ⟨by omega, fun heq => ?_⟩
      rw [outIndex0, outIndex0] at heq
      have h1 := congrFun heq (1 : Fin 2)
      have e1 : (BitVec.ofNat 32 ((grid0.coords ⟨t.val + 1, by omega⟩) 0).val).toNat = (t.val + 1) / 98 % 293 := by
        rw [coord0_0, BitVec.toNat_ofNat]; show (t.val + 1) / 98 % 293 % 2 ^ 32 = _; omega
      have e2 : (BitVec.ofNat 32 ((grid0.coords t) 0).val).toNat = t.val / 98 % 293 := by
        rw [coord0_0, BitVec.toNat_ofNat]; omega
      have h2 : (BitVec.ofNat 32 ((grid0.coords ⟨t.val + 1, by omega⟩) 0).val).toNat = (BitVec.ofNat 32 ((grid0.coords t) 0).val).toNat := h1
      rw [e1, e2] at h2
      omega

/-- The core's scoped buffers other than this kernel's staging buffers and its accumulator, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class's region invariant with the accumulator's buffer set apart: one way, -/
theorem PhiA0_split (c : Dev nD) :
    (Pipeline.ΦA spec0 c : sProp 𝕄)
      ⊢ iprop(iprop((∃ d, owns (c : Thread nD τ) scM0 fullShare d) ∗ others0 c) ∗ (∃ r, prngReg c r)) := by
  unfold Pipeline.ΦA others0; rw [scopedRest0_eq]; simp only [scM0, owns_whole]
  iintro ⟨⟨HS, H1, H2, H3, H4, H5, H6, H7, H8, H9, H10, H11⟩, Hg⟩
  isplitl [HS H1 H2 H3 H4 H5 H6 H7 H8 H9 H10 H11]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- and back. -/
theorem PhiA0_join (c : Dev nD) :
    (iprop(iprop((∃ d, owns (c : Thread nD τ) scM0 fullShare d) ∗ others0 c) ∗ (∃ r, prngReg c r)) : sProp 𝕄)
      ⊢ Pipeline.ΦA spec0 c := by
  unfold Pipeline.ΦA others0; rw [scopedRest0_eq]; simp only [scM0, owns_whole]
  iintro ⟨⟨HS, H1, H2, H3, H4, H5, H6, H7, H8, H9, H10, H11⟩, Hg⟩
  isplitl [HS H1 H2 H3 H4 H5 H6 H7 H8 H9 H10 H11]
  ·
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

set_option maxHeartbeats 1000000 in
/-- The accumulator is reset and not handed out (the first of an output block's points): on whole memrefs, the inputs at
    their contents, the output at contents handed back untouched, the accumulator at anything, the body runs to the
    continuation with the accumulator's stores written (the pieces are found by the run). -/
noncomputable def kernelRun0_A (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : cond0_0 i) (hc1 : ¬cond0_1 i)
    (x0 : Vec F S1x4096 .i32) (x1 : Vec F S64x4096 .f32) (x2 : Vec F S64x1024 .f32) :
    Σ' (L3 : List (View.Piece (Elt F) S64x4096 .f32)), { LS0 : List (View.Piece (Elt F) S64x4096 .f32) //
      ∀ (xi3 : Vec F S64x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_add_kernel i arg2 harg2 arg3 harg3 arg4 harg4 arg5 harg5 arg6 harg6) K } := by
  refine ⟨[], ?_, fun xi3 E K => ?run⟩
  case run =>
    simp only [cc0__gather_add_kernel_eq_skeleton]; unfold cc0__gather_add_kernel_skel
    unfold owns
    iintro ⟨⟨%f0, %hf0, H0⟩, ⟨%f1, %hf1, H1⟩, ⟨%f2, %hf2, H2⟩, ⟨%fo, %hfo, HO⟩, ⟨%ds0, %fs0, -, HS0⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

set_option maxHeartbeats 1000000 in
/-- Neither conditional taken (a middle point): the accumulator at the contents the point before left. -/
noncomputable def kernelRun0_B (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : ¬cond0_1 i)
    (x0 : Vec F S1x4096 .i32) (x1 : Vec F S64x4096 .f32) (x2 : Vec F S64x1024 .f32) (xs0 : Vec F S64x4096 .f32) :
    Σ' (L3 : List (View.Piece (Elt F) S64x4096 .f32)), { LS0 : List (View.Piece (Elt F) S64x4096 .f32) //
      ∀ (xi3 : Vec F S64x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_add_kernel i arg2 harg2 arg3 harg3 arg4 harg4 arg5 harg5 arg6 harg6) K } := by
  refine ⟨[], ?_, fun xi3 E K => ?run⟩
  case run =>
    simp only [cc0__gather_add_kernel_eq_skeleton]; unfold cc0__gather_add_kernel_skel
    unfold owns
    iintro ⟨⟨%f0, %hf0, H0⟩, ⟨%f1, %hf1, H1⟩, ⟨%f2, %hf2, H2⟩, ⟨%fo, %hfo, HO⟩, ⟨%fs0, %hfs0, HS0⟩, Hk⟩
    obtain rfl := harg2.eq_unread hf0; obtain rfl := harg3.eq_unread hf1; obtain rfl := harg4.eq_unread hf2; obtain rfl := harg5.eq_unread hfo; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

set_option maxHeartbeats 1000000 in
/-- The accumulator is handed to the output (the last of an output block's points). -/
noncomputable def kernelRun0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) :
    Σ' (L3 : List (View.Piece (Elt F) S64x4096 .f32)), { LS0 : List (View.Piece (Elt F) S64x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_add_kernel i arg2 harg2 arg3 harg3 arg4 harg4 arg5 harg5 arg6 harg6) K } := by
  refine ⟨?_, ?_, fun E K => ?run⟩
  case run =>
    simp only [cc0__gather_add_kernel_eq_skeleton]; unfold cc0__gather_add_kernel_skel
    unfold owns
    iintro ⟨⟨%f0, %hf0, H0⟩, ⟨%f1, %hf1, H1⟩, ⟨%f2, %hf2, H2⟩, ⟨%dO, %fo, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

section Entry
-- the TensorCore's buffer contents when the region is entered: the parameter this region's half is stated at
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem scover0_A (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : cond0_0 i) (hc1 : ¬cond0_1 i)
    (x0 : Vec F S1x4096 .i32) (x1 : Vec F S64x4096 .f32) (x2 : Vec F S64x1024 .f32) (y : S64x4096.Idx) :
    ∃ pc ∈ (kernelRun0_A (F := F) c i arg2 harg2 arg3 harg3 arg4 harg4 arg5 harg5 arg6 harg6 hc0 hc1 x0 x1 x2).2.1, y ∈ pc.1.set :=
  View.cover_of_tiledL (kernelRun0_A (F := F) c i arg2 harg2 arg3 harg3 arg4 harg4 arg5 harg5 arg6 harg6 hc0 hc1 x0 x1 x2).2.1 S64x4096.size (by sl_kernel_rfl) y

/-- What this way through the body leaves in the accumulator: its stores read back. -/
def sout0_A (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : cond0_0 i) (hc1 : ¬cond0_1 i)
    (x0 : Vec F S1x4096 .i32) (x1 : Vec F S64x4096 .f32) (x2 : Vec F S64x1024 .f32) : Vec F S64x4096 .f32 :=
  VS0.read (Elt F) (VS0.writes (Elt F) VS0.junk (kernelRun0_A (F := F) c i arg2 harg2 arg3 harg3 arg4 harg4 arg5 harg5 arg6 harg6 hc0 hc1 x0 x1 x2).2.1)

theorem scover0_B (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : ¬cond0_1 i)
    (x0 : Vec F S1x4096 .i32) (x1 : Vec F S64x4096 .f32) (x2 : Vec F S64x1024 .f32) (xs0 : Vec F S64x4096 .f32) (y : S64x4096.Idx) :
    ∃ pc ∈ (kernelRun0_B (F := F) c i arg2 harg2 arg3 harg3 arg4 harg4 arg5 harg5 arg6 harg6 hc0 hc1 x0 x1 x2 xs0).2.1, y ∈ pc.1.set :=
  View.cover_of_tiledL (kernelRun0_B (F := F) c i arg2 harg2 arg3 harg3 arg4 harg4 arg5 harg5 arg6 harg6 hc0 hc1 x0 x1 x2 xs0).2.1 S64x4096.size (by sl_kernel_rfl) y

/-- What this way through the body leaves in the accumulator: its stores read back. -/
def sout0_B (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : ¬cond0_1 i)
    (x0 : Vec F S1x4096 .i32) (x1 : Vec F S64x4096 .f32) (x2 : Vec F S64x1024 .f32) (xs0 : Vec F S64x4096 .f32) : Vec F S64x4096 .f32 :=
  VS0.read (Elt F) (VS0.writes (Elt F) VS0.junk (kernelRun0_B (F := F) c i arg2 harg2 arg3 harg3 arg4 harg4 arg5 harg5 arg6 harg6 hc0 hc1 x0 x1 x2 xs0).2.1)

theorem scover0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) (y : S64x4096.Idx) :
    ∃ pc ∈ (kernelRun0_C (F := F) c i arg2 harg2 arg3 harg3 arg4 harg4 arg5 harg5 arg6 harg6 hc0 hc1 x0 x1 x2 xs0).2.1, y ∈ pc.1.set :=
  View.cover_of_tiledL (kernelRun0_C (F := F) c i arg2 harg2 arg3 harg3 arg4 harg4 arg5 harg5 arg6 harg6 hc0 hc1 x0 x1 x2 xs0).2.1 S64x4096.size (by sl_kernel_rfl) y

/-- What this way through the body leaves in the accumulator: its stores read back. -/
def sout0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) : Vec F S64x4096 .f32 :=
  VS0.read (Elt F) (VS0.writes (Elt F) VS0.junk (kernelRun0_C (F := F) c i arg2 harg2 arg3 harg3 arg4 harg4 arg5 harg5 arg6 harg6 hc0 hc1 x0 x1 x2 xs0).2.1)

theorem cover0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) (y : S64x4096.Idx) :
    ∃ pc ∈ (kernelRun0_C (F := F) c i arg2 harg2 arg3 harg3 arg4 harg4 arg5 harg5 arg6 harg6 hc0 hc1 x0 x1 x2 xs0).1, y ∈ pc.1.set :=
  View.cover_of_tiledL (kernelRun0_C (F := F) c i arg2 harg2 arg3 harg3 arg4 harg4 arg5 harg5 arg6 harg6 hc0 hc1 x0 x1 x2 xs0).1 S64x4096.size (by sl_kernel_rfl) y

/-- What the handing-out way leaves in the output's staging buffer: its stores read back. -/
def out0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) : Vec F S64x4096 .f32 :=
  VO0.read (Elt F) (VO0.writes (Elt F) VO0.junk (kernelRun0_C (F := F) c i arg2 harg2 arg3 harg3 arg4 harg4 arg5 harg5 arg6 harg6 hc0 hc1 x0 x1 x2 xs0).1)

/-- A placeholder for the output's staging contents at the points that store nothing into it (nothing reads it). -/
def junkO0 : Vec F S64x4096 .f32 := VO0.read (Elt F) (VO0.junk (Val := Elt F))
/-- The accumulator's contents before the first point: not chosen. -/
def junkS0 : Vec F S64x4096 .f32 := VS0.read (Elt F) (VS0.junk (Val := Elt F))

/-- One point's step: the output's staging contents and the accumulator's after the body at position `n`, from the
    accumulator's contents before it, by the way the point's coordinates select. -/
def stepAt0 (c : Dev nD) (n : ℕ) (hn : n < cfg0.N) (prev : Vec F S64x4096 .f32) : Vec F S64x4096 .f32 × Vec F S64x4096 .f32 :=
  if h0 : cond0_0 (grid0.coords ⟨n, hn⟩) then
    if h1 : cond0_1 (grid0.coords ⟨n, hn⟩) then (junkO0, prev)
    else (junkO0, sout0_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) h0 h1 (iblk0 V c 0 ⟨n, hn⟩) (iblk0 V c 1 ⟨n, hn⟩) (iblk0 V c 2 ⟨n, hn⟩))
  else
    if h1 : cond0_1 (grid0.coords ⟨n, hn⟩) then
      (out0_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) h0 h1 (iblk0 V c 0 ⟨n, hn⟩) (iblk0 V c 1 ⟨n, hn⟩) (iblk0 V c 2 ⟨n, hn⟩) prev, sout0_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) h0 h1 (iblk0 V c 0 ⟨n, hn⟩) (iblk0 V c 1 ⟨n, hn⟩) (iblk0 V c 2 ⟨n, hn⟩) prev)
    else (junkO0, sout0_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) h0 h1 (iblk0 V c 0 ⟨n, hn⟩) (iblk0 V c 1 ⟨n, hn⟩) (iblk0 V c 2 ⟨n, hn⟩) prev)

/-- THE ACCUMULATION: the output's staging contents and the accumulator after the body at every position, by recursion on the position. -/
def outsAt0 (c : Dev nD) : (n : ℕ) → n < cfg0.N → Vec F S64x4096 .f32 × Vec F S64x4096 .f32
  | 0, hn => stepAt0 V c 0 hn junkS0
  | n + 1, hn => stepAt0 V c (n + 1) hn (outsAt0 c n (Nat.lt_of_succ_lt hn)).2

/-- The accumulator's contents before position `n`. -/
def prev0 (c : Dev nD) : (n : ℕ) → n < cfg0.N → Vec F S64x4096 .f32
  | 0, _ => junkS0
  | n + 1, hn => (outsAt0 V c n (Nat.lt_of_succ_lt hn)).2

theorem outsAt0_eq (c : Dev nD) (n : ℕ) (hn : n < cfg0.N) : outsAt0 V c n hn = stepAt0 V c n hn (prev0 V c n hn) := by
  cases n <;> rfl

theorem prev0_pos (c : Dev nD) (n : ℕ) (hn : n < cfg0.N) (hz : n ≠ 0) : prev0 V c n hn = (outsAt0 V c (n - 1) (by omega)).2 := by
  cases n with
  | zero => exact absurd rfl hz
  | succ n => rfl

theorem outsAt0_A (c : Dev nD) (t : Fin cfg0.N) (h0 : cond0_0 (grid0.coords t)) (h1 : ¬cond0_1 (grid0.coords t)) :
    outsAt0 V c t.val t.isLt = (junkO0, sout0_A c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t)) := by
  rw [outsAt0_eq]; unfold stepAt0; exact (dif_pos h0).trans (dif_neg h1)

theorem outsAt0_B (c : Dev nD) (t : Fin cfg0.N) (h0 : ¬cond0_0 (grid0.coords t)) (h1 : ¬cond0_1 (grid0.coords t)) :
    outsAt0 V c t.val t.isLt = (junkO0, sout0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt)) := by
  rw [outsAt0_eq]; unfold stepAt0; exact (dif_neg h0).trans (dif_neg h1)

theorem outsAt0_C (c : Dev nD) (t : Fin cfg0.N) (h0 : ¬cond0_0 (grid0.coords t)) (h1 : cond0_1 (grid0.coords t)) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt), sout0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt)) := by
  rw [outsAt0_eq]; unfold stepAt0; exact (dif_neg h0).trans (dif_pos h1)

/-- The region invariant before position `n`: before the first point the scoped buffers at anything; afterwards the
    accumulator at what the point before left, the other scoped buffers at anything; the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (hn : n < cfg0.N) (h : n ≤ cfg0.N) (hz : n ≠ 0) :
    PhiS0 V c n h = iprop(iprop(owns (c : Thread nD τ) scM0 fullShare (prev0 V c n hn) ∗ others0 c) ∗ (∃ r, prngReg c r)) := by
  cases n with
  | zero => exact absurd rfl hz
  | succ n => rfl

/-- At any position the invariant holds the accumulator at some contents. -/
theorem PhiS0_any (c : Dev nD) (n : ℕ) (h : n ≤ cfg0.N) :
    PhiS0 V c n h ⊢ (iprop(iprop((∃ d, owns (c : Thread nD τ) scM0 fullShare d) ∗ others0 c) ∗ (∃ r, prngReg c r)) : sProp 𝕄) := by
  cases n with
  | zero => exact PhiA0_split c
  | succ n =>
    rw [show PhiS0 V c (n + 1) h = iprop(iprop(owns (c : Thread nD τ) scM0 fullShare ((outsAt0 V c n h).2) ∗ others0 c) ∗ (∃ r, prngReg c r)) from rfl]
    iintro ⟨⟨HS, Ho⟩, Hg⟩
    isplitl [HS Ho]
    · isplitl [HS]; · iexists _; iexact HS
      iexact Ho
    iexact Hg

/-- The proof data of pipeline 0 on core `c`: the arrays as the region finds them; after the body at point `t` each
    input's buffer at its block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem idleAt0 (t : Fin cfg0.N) (h1 : ¬cond0_1 (grid0.coords t)) : cfg0.idle 3 (grid0.coords t) = true := by
  show (!(k0_cond2 (grid0.coords t) == 1#1)) = true
  rw [Bool.not_eq_true', beq_eq_false_iff_ne]; exact h1
theorem liveAt0 (t : Fin cfg0.N) (h1 : cond0_1 (grid0.coords t)) : cfg0.idle 3 (grid0.coords t) = false := by
  show (!(k0_cond2 (grid0.coords t) == 1#1)) = false
  rw [Bool.not_eq_false', beq_iff_eq]; exact h1
theorem noFlush0 (t : Fin cfg0.N) (h1 : ¬cond0_1 (grid0.coords t)) : (cfg0.win 3).flush t = false := by
  rw [Bool.eq_false_iff]; exact fun hf => h1 ((hcond0_1 t).mpr ((flushOut0 t).mp hf))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's coordinates select the way through the body; the
    invariant hands over the accumulator (at what the point before left, when the way reads it) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc V c t]
  have hN : t.val < 28714 := lt_of_lt_of_eq t.isLt (show cfg0.N = 28714 from N_0)
  by_cases h0 : cond0_0 (grid0.coords t)
  · by_cases h1 : cond0_1 (grid0.coords t)
    · exfalso; have := (hcond0_0 t).mp h0; have := (hcond0_1 t).mp h1; omega
    · -- the accumulator is reset
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [Dat.leavesExact_idle (dat0 V c) 3 t (idleAt0 t h1) (noFlush0 t h1)]
      rw [outsAt0_A V c t h0 h1]
      unfold sout0_A; (try dsimp only)
      iintro ⟨HΦ, Ho, ⟨%d0, H0⟩, ⟨%d1, H1⟩, ⟨%d2, H2⟩, ⟨%d3, H3⟩⟩
      ihave HΦ' := (PhiS0_any V c _ _) $$ HΦ
      icases HΦ' with ⟨⟨HS0, Hot⟩, Hg⟩
      iapply ((kernelRun0_A (F := F) c (grid0.coords t) _ _ _ _ _ _ _ _ _ _ h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover0_A c _ _ _ _ _ _ _ _ _ _ _ _ _ _ _ _)
          iexact Hot
        iexact Hg
      isplitl [Ho]; · iexact Ho
      isplitl [H0]; · iexact H0
      isplitl [H1]; · iexact H1
      isplitl [H2]; · iexact H2
      iexists _; iexact H3
  · have hz : t.val ≠ 0 := fun hz => h0 ((hcond0_0 t).mpr (by rw [hz]))
    rw [PhiS0_pos V c t.val t.isLt _ hz]
    by_cases h1 : cond0_1 (grid0.coords t)
    · -- the accumulator is handed to the output
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [show (dat0 V c).leavesExact 3 t = owns (c : Thread nD τ) (ms0_3 t) fullShare ((dat0 V c).after 3 t) from by
        unfold Dat.leavesExact; rw [liveAt0 t h1], after0_3]
      rw [outsAt0_C V c t h0 h1]
      unfold out0_C sout0_C; (try dsimp only)
      iintro ⟨⟨⟨HS0, Hot⟩, Hg⟩, Ho, ⟨%d0, H0⟩, ⟨%d1, H1⟩, ⟨%d2, H2⟩, ⟨%d3, H3⟩⟩
      iapply ((kernelRun0_C (F := F) c (grid0.coords t) _ _ _ _ _ _ _ _ _ _ h0 h1 (iblk0 V c 0 t) (iblk0 V c 1 t) (iblk0 V c 2 t) (prev0 V c t.val t.isLt)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover0_C c _ _ _ _ _ _ _ _ _ _ _ _ _ _ _ _ _)
          iexact Hot
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · -- a middle point
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [Dat.leavesExact_idle (dat0 V c) 3 t (idleAt0 t h1) (noFlush0 t h1)]
      rw [outsAt0_B V c t h0 h1]
      unfold sout0_B; (try dsimp only)
      iintro ⟨⟨⟨HS0, Hot⟩, Hg⟩, Ho, ⟨%d0, H0⟩, ⟨%d1, H1⟩, ⟨%d2, H2⟩, ⟨%d3, H3⟩⟩
      iapply ((kernelRun0_B (F := F) c (grid0.coords t) _ _ _ _ _ _ _ _ _ _ h0 h1 (iblk0 V c 0 t) (iblk0 V c 1 t) (iblk0 V c 2 t) (prev0 V c t.val t.isLt)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover0_B c _ _ _ _ _ _ _ _ _ _ _ _ _ _ _ _ _)
          iexact Hot
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl]
  exact Idealize.SL.BI.Entails.refl _

/-- After the last point the invariant gives the scoped buffers back at some contents: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl]
  exact (PhiS0_any V c _ _).trans (PhiA0_join c)

end Entry

end Cert.Kernel.Gen

end
-- ==== Proof.KernelReg1.lean ====
/-
  Kernel region 1 of the program, at a parameter V (the buffer contents when the region is entered): the three ways
  through the body's two conditionals on the last grid coordinate (reset the accumulator; neither; hand it to the output),
  each run once with the stores it leaves found by the run; what the output's staging buffer and the accumulator hold after
  every grid point, by recursion on the point; the region invariant that carries the accumulator from point to point; the
  proof data and the body obligation.
-/
import proofs.«425251_j55370718380132_2_alg».proof.Proof.Gen.Kernel.Launch
import proofs.«425251_j55370718380132_2_alg».proof.Proof.Gen.Kernel.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body's three ways through its two conditionals, the contents it leaves, the proof data -/

/-- The body's first conditional (the accumulator is reset): the last grid coordinate is 0. -/
abbrev cond1_0 (i : grid1.Coords) : Prop := (Scalar.cmpi .ne (Scalar.extui (Scalar.cmpi .eq (BitVec.ofNat 32 (i 1).val) 0#32)) 0#32) = 1#1
/-- The body's second conditional (the accumulator is handed to the output): the last grid coordinate is 292. -/
abbrev cond1_1 (i : grid1.Coords) : Prop := k1_cond2 i = 1#1

/-- The last coordinate of point `t` is `t` modulo 293. -/
theorem coord1_1 (t : Fin cfg1.N) : ((grid1.coords t) 1).val = t.val % 293 := by
  show t.val / grid1.stride 1 % 293 = t.val % 293
  rw [show grid1.stride 1 = 1 from by decide, Nat.div_one]
theorem word1_0 : ∀ k : Fin 293, ((Scalar.cmpi .ne (Scalar.extui (Scalar.cmpi .eq (BitVec.ofNat 32 k.val) 0#32)) 0#32) = 1#1) ↔ k.val = 0 := by decide +kernel
theorem word1_1 : ∀ k : Fin 293, ((Scalar.cmpi .ne (Scalar.extui (Scalar.cmpi .eq (BitVec.ofNat 32 k.val) 292#32)) 0#32) = 1#1) ↔ k.val = 292 := by decide +kernel
theorem hcond1_0 (t : Fin cfg1.N) : cond1_0 (grid1.coords t) ↔ t.val % 293 = 0 := by
  rw [← coord1_1 t]; exact word1_0 ((grid1.coords t) 1)
theorem hcond1_1 (t : Fin cfg1.N) : cond1_1 (grid1.coords t) ↔ t.val % 293 = 292 := by
  rw [← coord1_1 t]; exact word1_1 ((grid1.coords t) 1)

/-- One staging buffer of the output window and the scratch accumulator, as views through which contents are stated. -/
abbrev VO1 : View sig .tc .vmem S1024x64 .f32 := (Memref.whole cc1_stg6_0 : Memref sig .tc .vmem S1024x64 .f32).view
abbrev scM1 : Memref sig .tc .vmem S64x1024 .f32 := Memref.whole cc1_scratch0
abbrev VS1 : View sig .tc .vmem S64x1024 .f32 := (scM1).view
abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .f32 := win1_6.stage (cfg1.slots t 6)
abbrev hs1_6 (t : Fin cfg1.N) : (ms1_6 t).IsWhole := hstage1_6 ((cfg1.slots t 6).cast nbuf1_6)

/-- The kernel body at point `t`, on what the pipeline calls it with. -/
abbrev bodyAt1 (t : Fin cfg1.N) : Prog (TpuEff nD τ sig (Elt F) Λ₀ .tc) PUnit :=
  cc1__scatter_mlp_kernel (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _)
/-- The first coordinate of point `t` is `t / 293` (modulo the axis's bound 98). -/
theorem coord1_0 (t : Fin cfg1.N) : ((grid1.coords t) 0).val = t.val / 293 % 98 := by
  show t.val / grid1.stride 0 % 98 = t.val / 293 % 98
  rw [show grid1.stride 0 = 293 from by decide]
/-- The output window's block index at a point, from the point's first coordinate. -/
theorem outIndex1 (i : grid1.Coords) : win1_6.indexMap i = ![(BitVec.ofNat 32 (i 0).val).toNat, (0#32 : BitVec 32).toNat] := rfl
/-- The output window is written back exactly at the points whose last coordinate is 292: there the next point's first
    coordinate is one more (or the grid ends), elsewhere it is the same. -/
theorem flushOut1 (t : Fin cfg1.N) : (cfg1.win 6).flush t = true ↔ t.val % 293 = 292 := by
  have hN : grid1.N = 28714 := N_1
  have ht : t.val < 28714 := lt_of_lt_of_eq t.isLt hN
  rw [show (cfg1.win 6).flush t = Pipeline.Window.flushOf grid1 win1_6.isOut win1_6.indexMap t from rfl]
  unfold Pipeline.Window.flushOf
  rw [show win1_6.isOut = true from rfl, Bool.true_and, Bool.or_eq_true, decide_eq_true_eq, decide_eq_true_eq]
  constructor
  · rintro (h | ⟨h', hne⟩)
    · omega
    · by_contra hc
      apply hne
      rw [outIndex1, outIndex1]
      have e : (grid1.coords ⟨t.val + 1, h'⟩) 0 = (grid1.coords t) 0 := Fin.ext (by rw [coord1_0, coord1_0]; show (t.val + 1) / 293 % 98 = t.val / 293 % 98; omega)
      rw [e]
  · intro h
    by_cases hl : t.val + 1 = grid1.N
    · exact Or.inl hl
    · refine Or.inr ⟨by omega, fun heq => ?_⟩
      rw [outIndex1, outIndex1] at heq
      have h1 := congrFun heq (0 : Fin 2)
      have e1 : (BitVec.ofNat 32 ((grid1.coords ⟨t.val + 1, by omega⟩) 0).val).toNat = (t.val + 1) / 293 % 98 := by
        rw [coord1_0, BitVec.toNat_ofNat]; show (t.val + 1) / 293 % 98 % 2 ^ 32 = _; omega
      have e2 : (BitVec.ofNat 32 ((grid1.coords t) 0).val).toNat = t.val / 293 % 98 := by
        rw [coord1_0, BitVec.toNat_ofNat]; omega
      have h2 : (BitVec.ofNat 32 ((grid1.coords ⟨t.val + 1, by omega⟩) 0).val).toNat = (BitVec.ofNat 32 ((grid1.coords t) 0).val).toNat := h1
      rw [e1, e2] at h2
      omega

/-- The core's scoped buffers other than this kernel's staging buffers and its accumulator, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class's region invariant with the accumulator's buffer set apart: one way, -/
theorem PhiA1_split (c : Dev nD) :
    (Pipeline.ΦA spec1 c : sProp 𝕄)
      ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨H0, H1, H2, H3, H4, H5, H6, H7, H8, HS⟩, Hg⟩
  isplitl [H0 H1 H2 H3 H4 H5 H6 H7 H8 HS]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- and back. -/
theorem PhiA1_join (c : Dev nD) :
    (iprop(iprop((∃ d, owns (c : Thread nD τ) scM1 fullShare d) ∗ others1 c) ∗ (∃ r, prngReg c r)) : sProp 𝕄)
      ⊢ Pipeline.ΦA spec1 c := by
  unfold Pipeline.ΦA others1; rw [scopedRest1_eq]; simp only [scM1, owns_whole]
  iintro ⟨⟨HS, H0, H1, H2, H3, H4, H5, H6, H7, H8⟩, Hg⟩
  isplitl [H0 H1 H2 H3 H4 H5 H6 H7 H8 HS]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

set_option maxHeartbeats 1000000 in
/-- The accumulator is reset and not handed out (the first of an output block's points): on whole memrefs, the inputs at
    their contents, the output at contents handed back untouched, the accumulator at anything, the body runs to the
    continuation with the accumulator's stores written (the pieces are found by the run). -/
noncomputable def kernelRun1_A (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) :
    Σ' (L6 : List (View.Piece (Elt F) S1024x64 .f32)), { LS0 : List (View.Piece (Elt F) S64x1024 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_mlp_kernel i arg2 harg2 arg3 harg3 arg4 harg4 arg5 harg5 arg6 harg6 arg7 harg7 arg8 harg8 arg9 harg9) K } := by
  refine ⟨[], ?_, fun xi6 E K => ?run⟩
  case run =>
    simp only [cc1__scatter_mlp_kernel_eq_skeleton]; unfold cc1__scatter_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; isplitr; · ipureintro; exact harg8.read_unread _
      iexact HO
    iexists _; iexact HS0

set_option maxHeartbeats 1000000 in
/-- Neither conditional taken (a middle point): the accumulator at the contents the point before left. -/
noncomputable def kernelRun1_B (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) :
    Σ' (L6 : List (View.Piece (Elt F) S1024x64 .f32)), { LS0 : List (View.Piece (Elt F) S64x1024 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_mlp_kernel i arg2 harg2 arg3 harg3 arg4 harg4 arg5 harg5 arg6 harg6 arg7 harg7 arg8 harg8 arg9 harg9) K } := by
  refine ⟨[], ?_, fun xi6 E K => ?run⟩
  case run =>
    simp only [cc1__scatter_mlp_kernel_eq_skeleton]; unfold cc1__scatter_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; isplitr; · ipureintro; exact harg8.read_unread _
      iexact HO
    iexists _; iexact HS0

set_option maxHeartbeats 1000000 in
/-- The accumulator is handed to the output (the last of an output block's points). -/
noncomputable def kernelRun1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) :
    Σ' (L6 : List (View.Piece (Elt F) S1024x64 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_mlp_kernel i arg2 harg2 arg3 harg3 arg4 harg4 arg5 harg5 arg6 harg6 arg7 harg7 arg8 harg8 arg9 harg9) K } := by
  refine ⟨?_, ?_, fun E K => ?run⟩
  case run =>
    simp only [cc1__scatter_mlp_kernel_eq_skeleton]; unfold cc1__scatter_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fo, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS0

section Entry
-- the TensorCore's buffer contents when the region is entered: the parameter this region's half is stated at
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem scover1_A (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) (y : S64x1024.Idx) :
    ∃ pc ∈ (kernelRun1_A (F := F) c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A (F := F) c i arg2 harg2 arg3 harg3 arg4 harg4 arg5 harg5 arg6 harg6 arg7 harg7 arg8 harg8 arg9 harg9 hc0 hc1 x0 x1 x2 x3 x4 x5).2.1 S64x1024.size (by sl_kernel_rfl) y

/-- What this way through the body leaves in the accumulator: its stores read back. -/
def sout1_A (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) : Vec F S64x1024 .f32 :=
  VS1.read (Elt F) (VS1.writes (Elt F) VS1.junk (kernelRun1_A (F := F) c i arg2 harg2 arg3 harg3 arg4 harg4 arg5 harg5 arg6 harg6 arg7 harg7 arg8 harg8 arg9 harg9 hc0 hc1 x0 x1 x2 x3 x4 x5).2.1)

theorem scover1_B (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) (y : S64x1024.Idx) :
    ∃ pc ∈ (kernelRun1_B (F := F) c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B (F := F) c i arg2 harg2 arg3 harg3 arg4 harg4 arg5 harg5 arg6 harg6 arg7 harg7 arg8 harg8 arg9 harg9 hc0 hc1 x0 x1 x2 x3 x4 x5 xs0).2.1 S64x1024.size (by sl_kernel_rfl) y

/-- What this way through the body leaves in the accumulator: its stores read back. -/
def sout1_B (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) : Vec F S64x1024 .f32 :=
  VS1.read (Elt F) (VS1.writes (Elt F) VS1.junk (kernelRun1_B (F := F) c i arg2 harg2 arg3 harg3 arg4 harg4 arg5 harg5 arg6 harg6 arg7 harg7 arg8 harg8 arg9 harg9 hc0 hc1 x0 x1 x2 x3 x4 x5 xs0).2.1)

theorem scover1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) (y : S64x1024.Idx) :
    ∃ pc ∈ (kernelRun1_C (F := F) c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 x5 xs0).2.1 S64x1024.size (by sl_kernel_rfl) y

/-- What this way through the body leaves in the accumulator: its stores read back. -/
def sout1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) : Vec F S64x1024 .f32 :=
  VS1.read (Elt F) (VS1.writes (Elt F) VS1.junk (kernelRun1_C (F := F) c i arg2 harg2 arg3 harg3 arg4 harg4 arg5 harg5 arg6 harg6 arg7 harg7 arg8 harg8 arg9 harg9 hc0 hc1 x0 x1 x2 x3 x4 x5 xs0).2.1)

theorem cover1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) (y : S1024x64.Idx) :
    ∃ pc ∈ (kernelRun1_C (F := F) c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 x5 xs0).1 S1024x64.size (by sl_kernel_rfl) y

/-- What the handing-out way leaves in the output's staging buffer: its stores read back. -/
def out1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) : Vec F S1024x64 .f32 :=
  VO1.read (Elt F) (VO1.writes (Elt F) VO1.junk (kernelRun1_C (F := F) c i arg2 harg2 arg3 harg3 arg4 harg4 arg5 harg5 arg6 harg6 arg7 harg7 arg8 harg8 arg9 harg9 hc0 hc1 x0 x1 x2 x3 x4 x5 xs0).1)

/-- A placeholder for the output's staging contents at the points that store nothing into it (nothing reads it). -/
def junkO1 : Vec F S1024x64 .f32 := VO1.read (Elt F) (VO1.junk (Val := Elt F))
/-- The accumulator's contents before the first point: not chosen. -/
def junkS1 : Vec F S64x1024 .f32 := VS1.read (Elt F) (VS1.junk (Val := Elt F))

/-- One point's step: the output's staging contents and the accumulator's after the body at position `n`, from the
    accumulator's contents before it, by the way the point's coordinates select. -/
def stepAt1 (c : Dev nD) (n : ℕ) (hn : n < cfg1.N) (prev : Vec F S64x1024 .f32) : Vec F S1024x64 .f32 × Vec F S64x1024 .f32 :=
  if h0 : cond1_0 (grid1.coords ⟨n, hn⟩) then
    if h1 : cond1_1 (grid1.coords ⟨n, hn⟩) then (junkO1, prev)
    else (junkO1, sout1_A c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) h0 h1 (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩))
  else
    if h1 : cond1_1 (grid1.coords ⟨n, hn⟩) then
      (out1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) h0 h1 (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) prev, sout1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) h0 h1 (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) prev)
    else (junkO1, sout1_B c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) h0 h1 (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) prev)

/-- THE ACCUMULATION: the output's staging contents and the accumulator after the body at every position, by recursion on the position. -/
def outsAt1 (c : Dev nD) : (n : ℕ) → n < cfg1.N → Vec F S1024x64 .f32 × Vec F S64x1024 .f32
  | 0, hn => stepAt1 V c 0 hn junkS1
  | n + 1, hn => stepAt1 V c (n + 1) hn (outsAt1 c n (Nat.lt_of_succ_lt hn)).2

/-- The accumulator's contents before position `n`. -/
def prev1 (c : Dev nD) : (n : ℕ) → n < cfg1.N → Vec F S64x1024 .f32
  | 0, _ => junkS1
  | n + 1, hn => (outsAt1 V c n (Nat.lt_of_succ_lt hn)).2

theorem outsAt1_eq (c : Dev nD) (n : ℕ) (hn : n < cfg1.N) : outsAt1 V c n hn = stepAt1 V c n hn (prev1 V c n hn) := by
  cases n <;> rfl

theorem prev1_pos (c : Dev nD) (n : ℕ) (hn : n < cfg1.N) (hz : n ≠ 0) : prev1 V c n hn = (outsAt1 V c (n - 1) (by omega)).2 := by
  cases n with
  | zero => exact absurd rfl hz
  | succ n => rfl

theorem outsAt1_A (c : Dev nD) (t : Fin cfg1.N) (h0 : cond1_0 (grid1.coords t)) (h1 : ¬cond1_1 (grid1.coords t)) :
    outsAt1 V c t.val t.isLt = (junkO1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h0 h1 (iblk1 V c 0 t) (iblk1 V c 1 t) (iblk1 V c 2 t) (iblk1 V c 3 t) (iblk1 V c 4 t) (iblk1 V c 5 t)) := by
  rw [outsAt1_eq]; unfold stepAt1; exact (dif_pos h0).trans (dif_neg h1)

theorem outsAt1_B (c : Dev nD) (t : Fin cfg1.N) (h0 : ¬cond1_0 (grid1.coords t)) (h1 : ¬cond1_1 (grid1.coords t)) :
    outsAt1 V c t.val t.isLt = (junkO1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h0 h1 (iblk1 V c 0 t) (iblk1 V c 1 t) (iblk1 V c 2 t) (iblk1 V c 3 t) (iblk1 V c 4 t) (iblk1 V c 5 t) (prev1 V c t.val t.isLt)) := by
  rw [outsAt1_eq]; unfold stepAt1; exact (dif_neg h0).trans (dif_neg h1)

theorem outsAt1_C (c : Dev nD) (t : Fin cfg1.N) (h0 : ¬cond1_0 (grid1.coords t)) (h1 : cond1_1 (grid1.coords t)) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h0 h1 (iblk1 V c 0 t) (iblk1 V c 1 t) (iblk1 V c 2 t) (iblk1 V c 3 t) (iblk1 V c 4 t) (iblk1 V c 5 t) (prev1 V c t.val t.isLt), sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h0 h1 (iblk1 V c 0 t) (iblk1 V c 1 t) (iblk1 V c 2 t) (iblk1 V c 3 t) (iblk1 V c 4 t) (iblk1 V c 5 t) (prev1 V c t.val t.isLt)) := by
  rw [outsAt1_eq]; unfold stepAt1; exact (dif_neg h0).trans (dif_pos h1)

/-- The region invariant before position `n`: before the first point the scoped buffers at anything; afterwards the
    accumulator at what the point before left, the other scoped buffers at anything; the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl

theorem PhiS1_pos (c : Dev nD) (n : ℕ) (hn : n < cfg1.N) (h : n ≤ cfg1.N) (hz : n ≠ 0) :
    PhiS1 V c n h = iprop(iprop(owns (c : Thread nD τ) scM1 fullShare (prev1 V c n hn) ∗ others1 c) ∗ (∃ r, prngReg c r)) := by
  cases n with
  | zero => exact absurd rfl hz
  | succ n => rfl

/-- At any position the invariant holds the accumulator at some contents. -/
theorem PhiS1_any (c : Dev nD) (n : ℕ) (h : n ≤ cfg1.N) :
    PhiS1 V c n h ⊢ (iprop(iprop((∃ d, owns (c : Thread nD τ) scM1 fullShare d) ∗ others1 c) ∗ (∃ r, prngReg c r)) : sProp 𝕄) := by
  cases n with
  | zero => exact PhiA1_split c
  | succ n =>
    rw [show PhiS1 V c (n + 1) h = iprop(iprop(owns (c : Thread nD τ) scM1 fullShare ((outsAt1 V c n h).2) ∗ others1 c) ∗ (∃ r, prngReg c r)) from rfl]
    iintro ⟨⟨HS, Ho⟩, Hg⟩
    isplitl [HS Ho]
    · isplitl [HS]; · iexists _; iexact HS
      iexact Ho
    iexact Hg

/-- The proof data of pipeline 1 on core `c`: the arrays as the region finds them; after the body at point `t` each
    input's buffer at its block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem idleAt1 (t : Fin cfg1.N) (h1 : ¬cond1_1 (grid1.coords t)) : cfg1.idle 6 (grid1.coords t) = true := by
  show (!(k1_cond2 (grid1.coords t) == 1#1)) = true
  rw [Bool.not_eq_true', beq_eq_false_iff_ne]; exact h1
theorem liveAt1 (t : Fin cfg1.N) (h1 : cond1_1 (grid1.coords t)) : cfg1.idle 6 (grid1.coords t) = false := by
  show (!(k1_cond2 (grid1.coords t) == 1#1)) = false
  rw [Bool.not_eq_false', beq_iff_eq]; exact h1
theorem noFlush1 (t : Fin cfg1.N) (h1 : ¬cond1_1 (grid1.coords t)) : (cfg1.win 6).flush t = false := by
  rw [Bool.eq_false_iff]; exact fun hf => h1 ((hcond1_1 t).mpr ((flushOut1 t).mp hf))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the point's coordinates select the way through the body; the
    invariant hands over the accumulator (at what the point before left, when the way reads it) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ, PhiS1_castSucc V c t]
  have hN : t.val < 28714 := lt_of_lt_of_eq t.isLt (show cfg1.N = 28714 from N_1)
  by_cases h0 : cond1_0 (grid1.coords t)
  · by_cases h1 : cond1_1 (grid1.coords t)
    · exfalso; have := (hcond1_0 t).mp h0; have := (hcond1_1 t).mp h1; omega
    · -- the accumulator is reset
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [Dat.leavesExact_idle (dat1 V c) 6 t (idleAt1 t h1) (noFlush1 t h1)]
      rw [outsAt1_A V c t h0 h1]
      unfold sout1_A; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiS1_any V c _ _) $$ HΦ
      icases HΦ' with ⟨⟨HS0, Hot⟩, Hg⟩
      iapply ((kernelRun1_A (F := F) c (grid1.coords t) _ _ _ _ _ _ _ _ _ _ _ _ _ _ _ _ h0 h1 (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 ((hcond1_0 t).mpr (by rw [hz]))
    rw [PhiS1_pos V c t.val t.isLt _ hz]
    by_cases h1 : cond1_1 (grid1.coords t)
    · -- the accumulator is handed to the output
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [show (dat1 V c).leavesExact 6 t = owns (c : Thread nD τ) (ms1_6 t) fullShare ((dat1 V c).after 6 t) from by
        unfold Dat.leavesExact; rw [liveAt1 t h1], after1_6]
      rw [outsAt1_C V c t h0 h1]
      unfold out1_C sout1_C; (try dsimp only)
      iintro ⟨⟨⟨HS0, Hot⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C (F := F) c (grid1.coords t) _ _ _ _ _ _ _ _ _ _ _ _ _ _ _ _ h0 h1 (iblk1 V c 0 t) (iblk1 V c 1 t) (iblk1 V c 2 t) (iblk1 V c 3 t) (iblk1 V c 4 t) (iblk1 V c 5 t) (prev1 V c t.val t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    · -- a middle point
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [Dat.leavesExact_idle (dat1 V c) 6 t (idleAt1 t h1) (noFlush1 t h1)]
      rw [outsAt1_B V c t h0 h1]
      unfold sout1_B; (try dsimp only)
      iintro ⟨⟨⟨HS0, Hot⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B (F := F) c (grid1.coords t) _ _ _ _ _ _ _ _ _ _ _ _ _ _ _ _ h0 h1 (iblk1 V c 0 t) (iblk1 V c 1 t) (iblk1 V c 2 t) (iblk1 V c 3 t) (iblk1 V c 4 t) (iblk1 V c 5 t) (prev1 V c t.val t.isLt)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl]
  exact Idealize.SL.BI.Entails.refl _

/-- After the last point the invariant gives the scoped buffers back at some contents: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_join c)

end Entry

end Cert.Kernel.Gen

end
-- ==== Proof.KernelRun.lean ====
/-
  THE RUN of @main: a stretch of host operations, the two kernel regions one after the other, one more host operation.
  The buffer contents at each boundary are a fold from the launch memory: a host stretch's operations applied in order; a
  region's arrays at what its write-backs leave, every other buffer as entered. Each region is entered from every unscoped
  buffer held at the boundary's contents, the generator register at some state and nothing owed, and left the same way;
  the launch theorem for a list of segments then says that every execution terminates with every unscoped buffer at the
  last boundary's contents. No host operation and no region writes an argument array, so each ends as launched.
-/
import proofs.«425251_j55370718380132_2_alg».proof.Proof.KernelReg0
import proofs.«425251_j55370718380132_2_alg».proof.Proof.KernelReg1
import proofs.«425251_j55370718380132_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- After the last host operation. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := (W3_arr m ρ c 2).trans (((dat1 (U2 m ρ) c).arrAt_in 2 rfl _).trans (A_eq1 (U2 m ρ) c 2))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := (W3_arr m ρ c 3).trans (((dat1 (U2 m ρ) c).arrAt_in 3 rfl _).trans (A_eq1 (U2 m ρ) c 3))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := (W3_arr m ρ c 4).trans (((dat1 (U2 m ρ) c).arrAt_in 4 rfl _).trans (A_eq1 (U2 m ρ) c 4))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := (W3_arr m ρ c 5).trans (((dat1 (U2 m ρ) c).arrAt_in 5 rfl _).trans (A_eq1 (U2 m ρ) c 5))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: its arrays split out of the unscoped buffers and put back at the exit contents; the generator
    register into the region invariant and out; nothing owed; no semaphore of the kernel's own. -/
def regH0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdatsH m ρ 0 c).Φ (Fin.last _) ⊢ Pipeline.ΦA spec0 c from hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents; the generator
    register into the region invariant and out; nothing owed; no semaphore of the kernel's own. -/
def regH1 : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m ρ 1 c).Φ (Fin.last _) ⊢ Pipeline.ΦA spec1 c from hout1 (U2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (U2 m ρ c) (U3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m ρ) () defs₀ 𝒱H LH lvH) :=
  [ .host (hsegH hostOps0 hostOps0_sub hostOps0_fresh (W0 m ρ)),
    .region (regH0 m ρ),
    .region (regH1 m ρ),
    .host (hsegH hostOps2 hostOps2_sub hostOps2_fresh (W3 m ρ)) ]
theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun c => by
      show (iprop(StableHlo.held (c : Thread nD τ) (Pipeline.ucRefs τ sig) (W4 m ρ c) ∗ RH c) : sProp 𝕄) ⊢ _
      iintro ⟨Hh, Hp, Ho⟩
      isplitl [Hh Hp]
      · isplitl [Hh]; · iexact Hh
        iexact Hp
      iexact Ho⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_ucH main_arg0 (by decide))).trans (W4_main_arg0 m ρ c),
     (h c _ (mem_ucH main_arg1 (by decide))).trans (W4_main_arg1 m ρ c),
     (h c _ (mem_ucH main_arg2 (by decide))).trans (W4_main_arg2 m ρ c),
     (h c _ (mem_ucH main_arg3 (by decide))).trans (W4_main_arg3 m ρ c),
     (h c _ (mem_ucH main_arg4 (by decide))).trans (W4_main_arg4 m ρ c),
     (h c _ (mem_ucH main_arg5 (by decide))).trans (W4_main_arg5 m ρ c),
     (h c _ (mem_ucH main_arg6 (by decide))).trans (W4_main_arg6 m ρ c)⟩) (run_all m ρ)

end Cert.Kernel.Gen

end
-- ==== Proof.KernelIdealReg0.lean ====
/-
  Kernel region 0 of the program, at a parameter V (the buffer contents when the region is entered): the three ways
  through the body's two conditionals on the last grid coordinate (reset the accumulator; neither; hand it to the output),
  each run once with the stores it leaves found by the run; what the output's staging buffer and the accumulator hold after
  every grid point, by recursion on the point; the region invariant that carries the accumulator from point to point; the
  proof data and the body obligation.
-/
import proofs.«425251_j55370718380132_2_alg».proof.Proof.Gen.KernelIdeal.Launch
import proofs.«425251_j55370718380132_2_alg».proof.Proof.Gen.KernelIdeal.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the kernel body's three ways through its two conditionals, the contents it leaves, the proof data -/

/-- The body's first conditional (the accumulator is reset): the last grid coordinate is 0. -/
abbrev cond0_0 (i : grid0.Coords) : Prop := (Scalar.cmpi .ne (Scalar.extui (Scalar.cmpi .eq (BitVec.ofNat 32 (i 1).val) 0#32)) 0#32) = 1#1
/-- The body's second conditional (the accumulator is handed to the output): the last grid coordinate is 97. -/
abbrev cond0_1 (i : grid0.Coords) : Prop := k0_cond2 i = 1#1

/-- The last coordinate of point `t` is `t` modulo 98. -/
theorem coord0_1 (t : Fin cfg0.N) : ((grid0.coords t) 1).val = t.val % 98 := by
  show t.val / grid0.stride 1 % 98 = t.val % 98
  rw [show grid0.stride 1 = 1 from by decide, Nat.div_one]
theorem word0_0 : ∀ k : Fin 98, ((Scalar.cmpi .ne (Scalar.extui (Scalar.cmpi .eq (BitVec.ofNat 32 k.val) 0#32)) 0#32) = 1#1) ↔ k.val = 0 := by decide +kernel
theorem word0_1 : ∀ k : Fin 98, ((Scalar.cmpi .ne (Scalar.extui (Scalar.cmpi .eq (BitVec.ofNat 32 k.val) 97#32)) 0#32) = 1#1) ↔ k.val = 97 := by decide +kernel
theorem hcond0_0 (t : Fin cfg0.N) : cond0_0 (grid0.coords t) ↔ t.val % 98 = 0 := by
  rw [← coord0_1 t]; exact word0_0 ((grid0.coords t) 1)
theorem hcond0_1 (t : Fin cfg0.N) : cond0_1 (grid0.coords t) ↔ t.val % 98 = 97 := by
  rw [← coord0_1 t]; exact word0_1 ((grid0.coords t) 1)

/-- One staging buffer of the output window and the scratch accumulator, as views through which contents are stated. -/
abbrev VO0 : View sig .tc .vmem S64x4096 .f32 := (Memref.whole cc0_stg3_0 : Memref sig .tc .vmem S64x4096 .f32).view
abbrev scM0 : Memref sig .tc .vmem S64x4096 .f32 := Memref.whole cc0_scratch0
abbrev VS0 : View sig .tc .vmem S64x4096 .f32 := (scM0).view
abbrev ms0_0 (t : Fin cfg0.N) : Memref sig .tc .vmem S1x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x4096 .f32 := win0_3.stage (cfg0.slots t 3)
abbrev hs0_3 (t : Fin cfg0.N) : (ms0_3 t).IsWhole := hstage0_3 ((cfg0.slots t 3).cast nbuf0_3)

/-- The kernel body at point `t`, on what the pipeline calls it with. -/
abbrev bodyAt0 (t : Fin cfg0.N) : Prog (TpuEff nD τ sig (Elt F) Λ₀ .tc) PUnit :=
  cc0__gather_add_kernel (grid0.coords t) (ms0_0 t) (hs0_0 t) (ms0_1 t) (hs0_1 t) (ms0_2 t) (hs0_2 t) (ms0_3 t) (hs0_3 t) scM0 (Memref.isWhole_whole _)
/-- The first coordinate of point `t` is `t / 98` (modulo the axis's bound 293). -/
theorem coord0_0 (t : Fin cfg0.N) : ((grid0.coords t) 0).val = t.val / 98 % 293 := by
  show t.val / grid0.stride 0 % 293 = t.val / 98 % 293
  rw [show grid0.stride 0 = 98 from by decide]
/-- The output window's block index at a point, from the point's first coordinate. -/
theorem outIndex0 (i : grid0.Coords) : win0_3.indexMap i = ![(0#32 : BitVec 32).toNat, (BitVec.ofNat 32 (i 0).val).toNat] := rfl
/-- The output window is written back exactly at the points whose last coordinate is 97: there the next point's first
    coordinate is one more (or the grid ends), elsewhere it is the same. -/
theorem flushOut0 (t : Fin cfg0.N) : (cfg0.win 3).flush t = true ↔ t.val % 98 = 97 := by
  have hN : grid0.N = 28714 := N_0
  have ht : t.val < 28714 := lt_of_lt_of_eq t.isLt hN
  rw [show (cfg0.win 3).flush t = Pipeline.Window.flushOf grid0 win0_3.isOut win0_3.indexMap t from rfl]
  unfold Pipeline.Window.flushOf
  rw [show win0_3.isOut = true from rfl, Bool.true_and, Bool.or_eq_true, decide_eq_true_eq, decide_eq_true_eq]
  constructor
  · rintro (h | ⟨h', hne⟩)
    · omega
    · by_contra hc
      apply hne
      rw [outIndex0, outIndex0]
      have e : (grid0.coords ⟨t.val + 1, h'⟩) 0 = (grid0.coords t) 0 := Fin.ext (by rw [coord0_0, coord0_0]; show (t.val + 1) / 98 % 293 = t.val / 98 % 293; omega)
      rw [e]
  · intro h
    by_cases hl : t.val + 1 = grid0.N
    · exact Or.inl hl
    · refine Or.inr ⟨by omega, fun heq => ?_⟩
      rw [outIndex0, outIndex0] at heq
      have h1 := congrFun heq (1 : Fin 2)
      have e1 : (BitVec.ofNat 32 ((grid0.coords ⟨t.val + 1, by omega⟩) 0).val).toNat = (t.val + 1) / 98 % 293 := by
        rw [coord0_0, BitVec.toNat_ofNat]; show (t.val + 1) / 98 % 293 % 2 ^ 32 = _; omega
      have e2 : (BitVec.ofNat 32 ((grid0.coords t) 0).val).toNat = t.val / 98 % 293 := by
        rw [coord0_0, BitVec.toNat_ofNat]; omega
      have h2 : (BitVec.ofNat 32 ((grid0.coords ⟨t.val + 1, by omega⟩) 0).val).toNat = (BitVec.ofNat 32 ((grid0.coords t) 0).val).toNat := h1
      rw [e1, e2] at h2
      omega

/-- The core's scoped buffers other than this kernel's staging buffers and its accumulator, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class's region invariant with the accumulator's buffer set apart: one way, -/
theorem PhiA0_split (c : Dev nD) :
    (Pipeline.ΦA spec0 c : sProp 𝕄)
      ⊢ iprop(iprop((∃ d, owns (c : Thread nD τ) scM0 fullShare d) ∗ others0 c) ∗ (∃ r, prngReg c r)) := by
  unfold Pipeline.ΦA others0; rw [scopedRest0_eq]; simp only [scM0, owns_whole]
  iintro ⟨⟨HS, H1, H2, H3, H4, H5, H6, H7, H8, H9, H10, H11⟩, Hg⟩
  isplitl [HS H1 H2 H3 H4 H5 H6 H7 H8 H9 H10 H11]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- and back. -/
theorem PhiA0_join (c : Dev nD) :
    (iprop(iprop((∃ d, owns (c : Thread nD τ) scM0 fullShare d) ∗ others0 c) ∗ (∃ r, prngReg c r)) : sProp 𝕄)
      ⊢ Pipeline.ΦA spec0 c := by
  unfold Pipeline.ΦA others0; rw [scopedRest0_eq]; simp only [scM0, owns_whole]
  iintro ⟨⟨HS, H1, H2, H3, H4, H5, H6, H7, H8, H9, H10, H11⟩, Hg⟩
  isplitl [HS H1 H2 H3 H4 H5 H6 H7 H8 H9 H10 H11]
  ·
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

set_option maxHeartbeats 1000000 in
/-- The accumulator is reset and not handed out (the first of an output block's points): on whole memrefs, the inputs at
    their contents, the output at contents handed back untouched, the accumulator at anything, the body runs to the
    continuation with the accumulator's stores written (the pieces are found by the run). -/
noncomputable def kernelRun0_A (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : cond0_0 i) (hc1 : ¬cond0_1 i)
    (x0 : Vec F S1x4096 .i32) (x1 : Vec F S64x4096 .f32) (x2 : Vec F S64x1024 .f32) :
    Σ' (L3 : List (View.Piece (Elt F) S64x4096 .f32)), { LS0 : List (View.Piece (Elt F) S64x4096 .f32) //
      ∀ (xi3 : Vec F S64x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_add_kernel i arg2 harg2 arg3 harg3 arg4 harg4 arg5 harg5 arg6 harg6) K } := by
  refine ⟨[], ?_, fun xi3 E K => ?run⟩
  case run =>
    simp only [cc0__gather_add_kernel_eq_skeleton]; unfold cc0__gather_add_kernel_skel
    unfold owns
    iintro ⟨⟨%f0, %hf0, H0⟩, ⟨%f1, %hf1, H1⟩, ⟨%f2, %hf2, H2⟩, ⟨%fo, %hfo, HO⟩, ⟨%ds0, %fs0, -, HS0⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

set_option maxHeartbeats 1000000 in
/-- Neither conditional taken (a middle point): the accumulator at the contents the point before left. -/
noncomputable def kernelRun0_B (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : ¬cond0_1 i)
    (x0 : Vec F S1x4096 .i32) (x1 : Vec F S64x4096 .f32) (x2 : Vec F S64x1024 .f32) (xs0 : Vec F S64x4096 .f32) :
    Σ' (L3 : List (View.Piece (Elt F) S64x4096 .f32)), { LS0 : List (View.Piece (Elt F) S64x4096 .f32) //
      ∀ (xi3 : Vec F S64x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_add_kernel i arg2 harg2 arg3 harg3 arg4 harg4 arg5 harg5 arg6 harg6) K } := by
  refine ⟨[], ?_, fun xi3 E K => ?run⟩
  case run =>
    simp only [cc0__gather_add_kernel_eq_skeleton]; unfold cc0__gather_add_kernel_skel
    unfold owns
    iintro ⟨⟨%f0, %hf0, H0⟩, ⟨%f1, %hf1, H1⟩, ⟨%f2, %hf2, H2⟩, ⟨%fo, %hfo, HO⟩, ⟨%fs0, %hfs0, HS0⟩, Hk⟩
    obtain rfl := harg2.eq_unread hf0; obtain rfl := harg3.eq_unread hf1; obtain rfl := harg4.eq_unread hf2; obtain rfl := harg5.eq_unread hfo; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

set_option maxHeartbeats 1000000 in
/-- The accumulator is handed to the output (the last of an output block's points). -/
noncomputable def kernelRun0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) :
    Σ' (L3 : List (View.Piece (Elt F) S64x4096 .f32)), { LS0 : List (View.Piece (Elt F) S64x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_add_kernel i arg2 harg2 arg3 harg3 arg4 harg4 arg5 harg5 arg6 harg6) K } := by
  refine ⟨?_, ?_, fun E K => ?run⟩
  case run =>
    simp only [cc0__gather_add_kernel_eq_skeleton]; unfold cc0__gather_add_kernel_skel
    unfold owns
    iintro ⟨⟨%f0, %hf0, H0⟩, ⟨%f1, %hf1, H1⟩, ⟨%f2, %hf2, H2⟩, ⟨%dO, %fo, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

section Entry
-- the TensorCore's buffer contents when the region is entered: the parameter this region's half is stated at
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem scover0_A (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : cond0_0 i) (hc1 : ¬cond0_1 i)
    (x0 : Vec F S1x4096 .i32) (x1 : Vec F S64x4096 .f32) (x2 : Vec F S64x1024 .f32) (y : S64x4096.Idx) :
    ∃ pc ∈ (kernelRun0_A (F := F) c i arg2 harg2 arg3 harg3 arg4 harg4 arg5 harg5 arg6 harg6 hc0 hc1 x0 x1 x2).2.1, y ∈ pc.1.set :=
  View.cover_of_tiledL (kernelRun0_A (F := F) c i arg2 harg2 arg3 harg3 arg4 harg4 arg5 harg5 arg6 harg6 hc0 hc1 x0 x1 x2).2.1 S64x4096.size (by sl_kernel_rfl) y

/-- What this way through the body leaves in the accumulator: its stores read back. -/
def sout0_A (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : cond0_0 i) (hc1 : ¬cond0_1 i)
    (x0 : Vec F S1x4096 .i32) (x1 : Vec F S64x4096 .f32) (x2 : Vec F S64x1024 .f32) : Vec F S64x4096 .f32 :=
  VS0.read (Elt F) (VS0.writes (Elt F) VS0.junk (kernelRun0_A (F := F) c i arg2 harg2 arg3 harg3 arg4 harg4 arg5 harg5 arg6 harg6 hc0 hc1 x0 x1 x2).2.1)

theorem scover0_B (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : ¬cond0_1 i)
    (x0 : Vec F S1x4096 .i32) (x1 : Vec F S64x4096 .f32) (x2 : Vec F S64x1024 .f32) (xs0 : Vec F S64x4096 .f32) (y : S64x4096.Idx) :
    ∃ pc ∈ (kernelRun0_B (F := F) c i arg2 harg2 arg3 harg3 arg4 harg4 arg5 harg5 arg6 harg6 hc0 hc1 x0 x1 x2 xs0).2.1, y ∈ pc.1.set :=
  View.cover_of_tiledL (kernelRun0_B (F := F) c i arg2 harg2 arg3 harg3 arg4 harg4 arg5 harg5 arg6 harg6 hc0 hc1 x0 x1 x2 xs0).2.1 S64x4096.size (by sl_kernel_rfl) y

/-- What this way through the body leaves in the accumulator: its stores read back. -/
def sout0_B (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : ¬cond0_1 i)
    (x0 : Vec F S1x4096 .i32) (x1 : Vec F S64x4096 .f32) (x2 : Vec F S64x1024 .f32) (xs0 : Vec F S64x4096 .f32) : Vec F S64x4096 .f32 :=
  VS0.read (Elt F) (VS0.writes (Elt F) VS0.junk (kernelRun0_B (F := F) c i arg2 harg2 arg3 harg3 arg4 harg4 arg5 harg5 arg6 harg6 hc0 hc1 x0 x1 x2 xs0).2.1)

theorem scover0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) (y : S64x4096.Idx) :
    ∃ pc ∈ (kernelRun0_C (F := F) c i arg2 harg2 arg3 harg3 arg4 harg4 arg5 harg5 arg6 harg6 hc0 hc1 x0 x1 x2 xs0).2.1, y ∈ pc.1.set :=
  View.cover_of_tiledL (kernelRun0_C (F := F) c i arg2 harg2 arg3 harg3 arg4 harg4 arg5 harg5 arg6 harg6 hc0 hc1 x0 x1 x2 xs0).2.1 S64x4096.size (by sl_kernel_rfl) y

/-- What this way through the body leaves in the accumulator: its stores read back. -/
def sout0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) : Vec F S64x4096 .f32 :=
  VS0.read (Elt F) (VS0.writes (Elt F) VS0.junk (kernelRun0_C (F := F) c i arg2 harg2 arg3 harg3 arg4 harg4 arg5 harg5 arg6 harg6 hc0 hc1 x0 x1 x2 xs0).2.1)

theorem cover0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) (y : S64x4096.Idx) :
    ∃ pc ∈ (kernelRun0_C (F := F) c i arg2 harg2 arg3 harg3 arg4 harg4 arg5 harg5 arg6 harg6 hc0 hc1 x0 x1 x2 xs0).1, y ∈ pc.1.set :=
  View.cover_of_tiledL (kernelRun0_C (F := F) c i arg2 harg2 arg3 harg3 arg4 harg4 arg5 harg5 arg6 harg6 hc0 hc1 x0 x1 x2 xs0).1 S64x4096.size (by sl_kernel_rfl) y

/-- What the handing-out way leaves in the output's staging buffer: its stores read back. -/
def out0_C (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) : Vec F S64x4096 .f32 :=
  VO0.read (Elt F) (VO0.writes (Elt F) VO0.junk (kernelRun0_C (F := F) c i arg2 harg2 arg3 harg3 arg4 harg4 arg5 harg5 arg6 harg6 hc0 hc1 x0 x1 x2 xs0).1)

/-- A placeholder for the output's staging contents at the points that store nothing into it (nothing reads it). -/
def junkO0 : Vec F S64x4096 .f32 := VO0.read (Elt F) (VO0.junk (Val := Elt F))
/-- The accumulator's contents before the first point: not chosen. -/
def junkS0 : Vec F S64x4096 .f32 := VS0.read (Elt F) (VS0.junk (Val := Elt F))

/-- One point's step: the output's staging contents and the accumulator's after the body at position `n`, from the
    accumulator's contents before it, by the way the point's coordinates select. -/
def stepAt0 (c : Dev nD) (n : ℕ) (hn : n < cfg0.N) (prev : Vec F S64x4096 .f32) : Vec F S64x4096 .f32 × Vec F S64x4096 .f32 :=
  if h0 : cond0_0 (grid0.coords ⟨n, hn⟩) then
    if h1 : cond0_1 (grid0.coords ⟨n, hn⟩) then (junkO0, prev)
    else (junkO0, sout0_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) h0 h1 (iblk0 V c 0 ⟨n, hn⟩) (iblk0 V c 1 ⟨n, hn⟩) (iblk0 V c 2 ⟨n, hn⟩))
  else
    if h1 : cond0_1 (grid0.coords ⟨n, hn⟩) then
      (out0_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) h0 h1 (iblk0 V c 0 ⟨n, hn⟩) (iblk0 V c 1 ⟨n, hn⟩) (iblk0 V c 2 ⟨n, hn⟩) prev, sout0_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) h0 h1 (iblk0 V c 0 ⟨n, hn⟩) (iblk0 V c 1 ⟨n, hn⟩) (iblk0 V c 2 ⟨n, hn⟩) prev)
    else (junkO0, sout0_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) h0 h1 (iblk0 V c 0 ⟨n, hn⟩) (iblk0 V c 1 ⟨n, hn⟩) (iblk0 V c 2 ⟨n, hn⟩) prev)

/-- THE ACCUMULATION: the output's staging contents and the accumulator after the body at every position, by recursion on the position. -/
def outsAt0 (c : Dev nD) : (n : ℕ) → n < cfg0.N → Vec F S64x4096 .f32 × Vec F S64x4096 .f32
  | 0, hn => stepAt0 V c 0 hn junkS0
  | n + 1, hn => stepAt0 V c (n + 1) hn (outsAt0 c n (Nat.lt_of_succ_lt hn)).2

/-- The accumulator's contents before position `n`. -/
def prev0 (c : Dev nD) : (n : ℕ) → n < cfg0.N → Vec F S64x4096 .f32
  | 0, _ => junkS0
  | n + 1, hn => (outsAt0 V c n (Nat.lt_of_succ_lt hn)).2

theorem outsAt0_eq (c : Dev nD) (n : ℕ) (hn : n < cfg0.N) : outsAt0 V c n hn = stepAt0 V c n hn (prev0 V c n hn) := by
  cases n <;> rfl

theorem prev0_pos (c : Dev nD) (n : ℕ) (hn : n < cfg0.N) (hz : n ≠ 0) : prev0 V c n hn = (outsAt0 V c (n - 1) (by omega)).2 := by
  cases n with
  | zero => exact absurd rfl hz
  | succ n => rfl

theorem outsAt0_A (c : Dev nD) (t : Fin cfg0.N) (h0 : cond0_0 (grid0.coords t)) (h1 : ¬cond0_1 (grid0.coords t)) :
    outsAt0 V c t.val t.isLt = (junkO0, sout0_A c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t)) := by
  rw [outsAt0_eq]; unfold stepAt0; exact (dif_pos h0).trans (dif_neg h1)

theorem outsAt0_B (c : Dev nD) (t : Fin cfg0.N) (h0 : ¬cond0_0 (grid0.coords t)) (h1 : ¬cond0_1 (grid0.coords t)) :
    outsAt0 V c t.val t.isLt = (junkO0, sout0_B c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt)) := by
  rw [outsAt0_eq]; unfold stepAt0; exact (dif_neg h0).trans (dif_neg h1)

theorem outsAt0_C (c : Dev nD) (t : Fin cfg0.N) (h0 : ¬cond0_0 (grid0.coords t)) (h1 : cond0_1 (grid0.coords t)) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt), sout0_C c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt)) := by
  rw [outsAt0_eq]; unfold stepAt0; exact (dif_neg h0).trans (dif_pos h1)

/-- The region invariant before position `n`: before the first point the scoped buffers at anything; afterwards the
    accumulator at what the point before left, the other scoped buffers at anything; the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (hn : n < cfg0.N) (h : n ≤ cfg0.N) (hz : n ≠ 0) :
    PhiS0 V c n h = iprop(iprop(owns (c : Thread nD τ) scM0 fullShare (prev0 V c n hn) ∗ others0 c) ∗ (∃ r, prngReg c r)) := by
  cases n with
  | zero => exact absurd rfl hz
  | succ n => rfl

/-- At any position the invariant holds the accumulator at some contents. -/
theorem PhiS0_any (c : Dev nD) (n : ℕ) (h : n ≤ cfg0.N) :
    PhiS0 V c n h ⊢ (iprop(iprop((∃ d, owns (c : Thread nD τ) scM0 fullShare d) ∗ others0 c) ∗ (∃ r, prngReg c r)) : sProp 𝕄) := by
  cases n with
  | zero => exact PhiA0_split c
  | succ n =>
    rw [show PhiS0 V c (n + 1) h = iprop(iprop(owns (c : Thread nD τ) scM0 fullShare ((outsAt0 V c n h).2) ∗ others0 c) ∗ (∃ r, prngReg c r)) from rfl]
    iintro ⟨⟨HS, Ho⟩, Hg⟩
    isplitl [HS Ho]
    · isplitl [HS]; · iexists _; iexact HS
      iexact Ho
    iexact Hg

/-- The proof data of pipeline 0 on core `c`: the arrays as the region finds them; after the body at point `t` each
    input's buffer at its block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem idleAt0 (t : Fin cfg0.N) (h1 : ¬cond0_1 (grid0.coords t)) : cfg0.idle 3 (grid0.coords t) = true := by
  show (!(k0_cond2 (grid0.coords t) == 1#1)) = true
  rw [Bool.not_eq_true', beq_eq_false_iff_ne]; exact h1
theorem liveAt0 (t : Fin cfg0.N) (h1 : cond0_1 (grid0.coords t)) : cfg0.idle 3 (grid0.coords t) = false := by
  show (!(k0_cond2 (grid0.coords t) == 1#1)) = false
  rw [Bool.not_eq_false', beq_iff_eq]; exact h1
theorem noFlush0 (t : Fin cfg0.N) (h1 : ¬cond0_1 (grid0.coords t)) : (cfg0.win 3).flush t = false := by
  rw [Bool.eq_false_iff]; exact fun hf => h1 ((hcond0_1 t).mpr ((flushOut0 t).mp hf))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's coordinates select the way through the body; the
    invariant hands over the accumulator (at what the point before left, when the way reads it) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc V c t]
  have hN : t.val < 28714 := lt_of_lt_of_eq t.isLt (show cfg0.N = 28714 from N_0)
  by_cases h0 : cond0_0 (grid0.coords t)
  · by_cases h1 : cond0_1 (grid0.coords t)
    · exfalso; have := (hcond0_0 t).mp h0; have := (hcond0_1 t).mp h1; omega
    · -- the accumulator is reset
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [Dat.leavesExact_idle (dat0 V c) 3 t (idleAt0 t h1) (noFlush0 t h1)]
      rw [outsAt0_A V c t h0 h1]
      unfold sout0_A; (try dsimp only)
      iintro ⟨HΦ, Ho, ⟨%d0, H0⟩, ⟨%d1, H1⟩, ⟨%d2, H2⟩, ⟨%d3, H3⟩⟩
      ihave HΦ' := (PhiS0_any V c _ _) $$ HΦ
      icases HΦ' with ⟨⟨HS0, Hot⟩, Hg⟩
      iapply ((kernelRun0_A (F := F) c (grid0.coords t) _ _ _ _ _ _ _ _ _ _ h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover0_A c _ _ _ _ _ _ _ _ _ _ _ _ _ _ _ _)
          iexact Hot
        iexact Hg
      isplitl [Ho]; · iexact Ho
      isplitl [H0]; · iexact H0
      isplitl [H1]; · iexact H1
      isplitl [H2]; · iexact H2
      iexists _; iexact H3
  · have hz : t.val ≠ 0 := fun hz => h0 ((hcond0_0 t).mpr (by rw [hz]))
    rw [PhiS0_pos V c t.val t.isLt _ hz]
    by_cases h1 : cond0_1 (grid0.coords t)
    · -- the accumulator is handed to the output
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [show (dat0 V c).leavesExact 3 t = owns (c : Thread nD τ) (ms0_3 t) fullShare ((dat0 V c).after 3 t) from by
        unfold Dat.leavesExact; rw [liveAt0 t h1], after0_3]
      rw [outsAt0_C V c t h0 h1]
      unfold out0_C sout0_C; (try dsimp only)
      iintro ⟨⟨⟨HS0, Hot⟩, Hg⟩, Ho, ⟨%d0, H0⟩, ⟨%d1, H1⟩, ⟨%d2, H2⟩, ⟨%d3, H3⟩⟩
      iapply ((kernelRun0_C (F := F) c (grid0.coords t) _ _ _ _ _ _ _ _ _ _ h0 h1 (iblk0 V c 0 t) (iblk0 V c 1 t) (iblk0 V c 2 t) (prev0 V c t.val t.isLt)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover0_C c _ _ _ _ _ _ _ _ _ _ _ _ _ _ _ _ _)
          iexact Hot
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · -- a middle point
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [Dat.leavesExact_idle (dat0 V c) 3 t (idleAt0 t h1) (noFlush0 t h1)]
      rw [outsAt0_B V c t h0 h1]
      unfold sout0_B; (try dsimp only)
      iintro ⟨⟨⟨HS0, Hot⟩, Hg⟩, Ho, ⟨%d0, H0⟩, ⟨%d1, H1⟩, ⟨%d2, H2⟩, ⟨%d3, H3⟩⟩
      iapply ((kernelRun0_B (F := F) c (grid0.coords t) _ _ _ _ _ _ _ _ _ _ h0 h1 (iblk0 V c 0 t) (iblk0 V c 1 t) (iblk0 V c 2 t) (prev0 V c t.val t.isLt)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover0_B c _ _ _ _ _ _ _ _ _ _ _ _ _ _ _ _ _)
          iexact Hot
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl]
  exact Idealize.SL.BI.Entails.refl _

/-- After the last point the invariant gives the scoped buffers back at some contents: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl]
  exact (PhiS0_any V c _ _).trans (PhiA0_join c)

end Entry

end Cert.KernelIdeal.Gen

end
-- ==== Proof.KernelIdealReg1.lean ====
/-
  Kernel region 1 of the program, at a parameter V (the buffer contents when the region is entered): the three ways
  through the body's two conditionals on the last grid coordinate (reset the accumulator; neither; hand it to the output),
  each run once with the stores it leaves found by the run; what the output's staging buffer and the accumulator hold after
  every grid point, by recursion on the point; the region invariant that carries the accumulator from point to point; the
  proof data and the body obligation.
-/
import proofs.«425251_j55370718380132_2_alg».proof.Proof.Gen.KernelIdeal.Launch
import proofs.«425251_j55370718380132_2_alg».proof.Proof.Gen.KernelIdeal.Skeleton
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body's three ways through its two conditionals, the contents it leaves, the proof data -/

/-- The body's first conditional (the accumulator is reset): the last grid coordinate is 0. -/
abbrev cond1_0 (i : grid1.Coords) : Prop := (Scalar.cmpi .ne (Scalar.extui (Scalar.cmpi .eq (BitVec.ofNat 32 (i 1).val) 0#32)) 0#32) = 1#1
/-- The body's second conditional (the accumulator is handed to the output): the last grid coordinate is 292. -/
abbrev cond1_1 (i : grid1.Coords) : Prop := k1_cond2 i = 1#1

/-- The last coordinate of point `t` is `t` modulo 293. -/
theorem coord1_1 (t : Fin cfg1.N) : ((grid1.coords t) 1).val = t.val % 293 := by
  show t.val / grid1.stride 1 % 293 = t.val % 293
  rw [show grid1.stride 1 = 1 from by decide, Nat.div_one]
theorem word1_0 : ∀ k : Fin 293, ((Scalar.cmpi .ne (Scalar.extui (Scalar.cmpi .eq (BitVec.ofNat 32 k.val) 0#32)) 0#32) = 1#1) ↔ k.val = 0 := by decide +kernel
theorem word1_1 : ∀ k : Fin 293, ((Scalar.cmpi .ne (Scalar.extui (Scalar.cmpi .eq (BitVec.ofNat 32 k.val) 292#32)) 0#32) = 1#1) ↔ k.val = 292 := by decide +kernel
theorem hcond1_0 (t : Fin cfg1.N) : cond1_0 (grid1.coords t) ↔ t.val % 293 = 0 := by
  rw [← coord1_1 t]; exact word1_0 ((grid1.coords t) 1)
theorem hcond1_1 (t : Fin cfg1.N) : cond1_1 (grid1.coords t) ↔ t.val % 293 = 292 := by
  rw [← coord1_1 t]; exact word1_1 ((grid1.coords t) 1)

/-- One staging buffer of the output window and the scratch accumulator, as views through which contents are stated. -/
abbrev VO1 : View sig .tc .vmem S1024x64 .f32 := (Memref.whole cc1_stg6_0 : Memref sig .tc .vmem S1024x64 .f32).view
abbrev scM1 : Memref sig .tc .vmem S64x1024 .f32 := Memref.whole cc1_scratch0
abbrev VS1 : View sig .tc .vmem S64x1024 .f32 := (scM1).view
abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .f32 := win1_6.stage (cfg1.slots t 6)
abbrev hs1_6 (t : Fin cfg1.N) : (ms1_6 t).IsWhole := hstage1_6 ((cfg1.slots t 6).cast nbuf1_6)

/-- The kernel body at point `t`, on what the pipeline calls it with. -/
abbrev bodyAt1 (t : Fin cfg1.N) : Prog (TpuEff nD τ sig (Elt F) Λ₀ .tc) PUnit :=
  cc1__scatter_mlp_kernel (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _)
/-- The first coordinate of point `t` is `t / 293` (modulo the axis's bound 98). -/
theorem coord1_0 (t : Fin cfg1.N) : ((grid1.coords t) 0).val = t.val / 293 % 98 := by
  show t.val / grid1.stride 0 % 98 = t.val / 293 % 98
  rw [show grid1.stride 0 = 293 from by decide]
/-- The output window's block index at a point, from the point's first coordinate. -/
theorem outIndex1 (i : grid1.Coords) : win1_6.indexMap i = ![(BitVec.ofNat 32 (i 0).val).toNat, (0#32 : BitVec 32).toNat] := rfl
/-- The output window is written back exactly at the points whose last coordinate is 292: there the next point's first
    coordinate is one more (or the grid ends), elsewhere it is the same. -/
theorem flushOut1 (t : Fin cfg1.N) : (cfg1.win 6).flush t = true ↔ t.val % 293 = 292 := by
  have hN : grid1.N = 28714 := N_1
  have ht : t.val < 28714 := lt_of_lt_of_eq t.isLt hN
  rw [show (cfg1.win 6).flush t = Pipeline.Window.flushOf grid1 win1_6.isOut win1_6.indexMap t from rfl]
  unfold Pipeline.Window.flushOf
  rw [show win1_6.isOut = true from rfl, Bool.true_and, Bool.or_eq_true, decide_eq_true_eq, decide_eq_true_eq]
  constructor
  · rintro (h | ⟨h', hne⟩)
    · omega
    · by_contra hc
      apply hne
      rw [outIndex1, outIndex1]
      have e : (grid1.coords ⟨t.val + 1, h'⟩) 0 = (grid1.coords t) 0 := Fin.ext (by rw [coord1_0, coord1_0]; show (t.val + 1) / 293 % 98 = t.val / 293 % 98; omega)
      rw [e]
  · intro h
    by_cases hl : t.val + 1 = grid1.N
    · exact Or.inl hl
    · refine Or.inr ⟨by omega, fun heq => ?_⟩
      rw [outIndex1, outIndex1] at heq
      have h1 := congrFun heq (0 : Fin 2)
      have e1 : (BitVec.ofNat 32 ((grid1.coords ⟨t.val + 1, by omega⟩) 0).val).toNat = (t.val + 1) / 293 % 98 := by
        rw [coord1_0, BitVec.toNat_ofNat]; show (t.val + 1) / 293 % 98 % 2 ^ 32 = _; omega
      have e2 : (BitVec.ofNat 32 ((grid1.coords t) 0).val).toNat = t.val / 293 % 98 := by
        rw [coord1_0, BitVec.toNat_ofNat]; omega
      have h2 : (BitVec.ofNat 32 ((grid1.coords ⟨t.val + 1, by omega⟩) 0).val).toNat = (BitVec.ofNat 32 ((grid1.coords t) 0).val).toNat := h1
      rw [e1, e2] at h2
      omega

/-- The core's scoped buffers other than this kernel's staging buffers and its accumulator, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class's region invariant with the accumulator's buffer set apart: one way, -/
theorem PhiA1_split (c : Dev nD) :
    (Pipeline.ΦA spec1 c : sProp 𝕄)
      ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨H0, H1, H2, H3, H4, H5, H6, H7, H8, HS⟩, Hg⟩
  isplitl [H0 H1 H2 H3 H4 H5 H6 H7 H8 HS]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- and back. -/
theorem PhiA1_join (c : Dev nD) :
    (iprop(iprop((∃ d, owns (c : Thread nD τ) scM1 fullShare d) ∗ others1 c) ∗ (∃ r, prngReg c r)) : sProp 𝕄)
      ⊢ Pipeline.ΦA spec1 c := by
  unfold Pipeline.ΦA others1; rw [scopedRest1_eq]; simp only [scM1, owns_whole]
  iintro ⟨⟨HS, H0, H1, H2, H3, H4, H5, H6, H7, H8⟩, Hg⟩
  isplitl [H0 H1 H2 H3 H4 H5 H6 H7 H8 HS]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

set_option maxHeartbeats 1000000 in
/-- The accumulator is reset and not handed out (the first of an output block's points): on whole memrefs, the inputs at
    their contents, the output at contents handed back untouched, the accumulator at anything, the body runs to the
    continuation with the accumulator's stores written (the pieces are found by the run). -/
noncomputable def kernelRun1_A (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) :
    Σ' (L6 : List (View.Piece (Elt F) S1024x64 .f32)), { LS0 : List (View.Piece (Elt F) S64x1024 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_mlp_kernel i arg2 harg2 arg3 harg3 arg4 harg4 arg5 harg5 arg6 harg6 arg7 harg7 arg8 harg8 arg9 harg9) K } := by
  refine ⟨[], ?_, fun xi6 E K => ?run⟩
  case run =>
    simp only [cc1__scatter_mlp_kernel_eq_skeleton]; unfold cc1__scatter_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; isplitr; · ipureintro; exact harg8.read_unread _
      iexact HO
    iexists _; iexact HS0

set_option maxHeartbeats 1000000 in
/-- Neither conditional taken (a middle point): the accumulator at the contents the point before left. -/
noncomputable def kernelRun1_B (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) :
    Σ' (L6 : List (View.Piece (Elt F) S1024x64 .f32)), { LS0 : List (View.Piece (Elt F) S64x1024 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_mlp_kernel i arg2 harg2 arg3 harg3 arg4 harg4 arg5 harg5 arg6 harg6 arg7 harg7 arg8 harg8 arg9 harg9) K } := by
  refine ⟨[], ?_, fun xi6 E K => ?run⟩
  case run =>
    simp only [cc1__scatter_mlp_kernel_eq_skeleton]; unfold cc1__scatter_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; isplitr; · ipureintro; exact harg8.read_unread _
      iexact HO
    iexists _; iexact HS0

set_option maxHeartbeats 1000000 in
/-- The accumulator is handed to the output (the last of an output block's points). -/
noncomputable def kernelRun1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) :
    Σ' (L6 : List (View.Piece (Elt F) S1024x64 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__scatter_mlp_kernel i arg2 harg2 arg3 harg3 arg4 harg4 arg5 harg5 arg6 harg6 arg7 harg7 arg8 harg8 arg9 harg9) K } := by
  refine ⟨?_, ?_, fun E K => ?run⟩
  case run =>
    simp only [cc1__scatter_mlp_kernel_eq_skeleton]; unfold cc1__scatter_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fo, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS0

section Entry
-- the TensorCore's buffer contents when the region is entered: the parameter this region's half is stated at
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem scover1_A (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) (y : S64x1024.Idx) :
    ∃ pc ∈ (kernelRun1_A (F := F) c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A (F := F) c i arg2 harg2 arg3 harg3 arg4 harg4 arg5 harg5 arg6 harg6 arg7 harg7 arg8 harg8 arg9 harg9 hc0 hc1 x0 x1 x2 x3 x4 x5).2.1 S64x1024.size (by sl_kernel_rfl) y

/-- What this way through the body leaves in the accumulator: its stores read back. -/
def sout1_A (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) : Vec F S64x1024 .f32 :=
  VS1.read (Elt F) (VS1.writes (Elt F) VS1.junk (kernelRun1_A (F := F) c i arg2 harg2 arg3 harg3 arg4 harg4 arg5 harg5 arg6 harg6 arg7 harg7 arg8 harg8 arg9 harg9 hc0 hc1 x0 x1 x2 x3 x4 x5).2.1)

theorem scover1_B (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) (y : S64x1024.Idx) :
    ∃ pc ∈ (kernelRun1_B (F := F) c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B (F := F) c i arg2 harg2 arg3 harg3 arg4 harg4 arg5 harg5 arg6 harg6 arg7 harg7 arg8 harg8 arg9 harg9 hc0 hc1 x0 x1 x2 x3 x4 x5 xs0).2.1 S64x1024.size (by sl_kernel_rfl) y

/-- What this way through the body leaves in the accumulator: its stores read back. -/
def sout1_B (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) : Vec F S64x1024 .f32 :=
  VS1.read (Elt F) (VS1.writes (Elt F) VS1.junk (kernelRun1_B (F := F) c i arg2 harg2 arg3 harg3 arg4 harg4 arg5 harg5 arg6 harg6 arg7 harg7 arg8 harg8 arg9 harg9 hc0 hc1 x0 x1 x2 x3 x4 x5 xs0).2.1)

theorem scover1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) (y : S64x1024.Idx) :
    ∃ pc ∈ (kernelRun1_C (F := F) c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 x5 xs0).2.1 S64x1024.size (by sl_kernel_rfl) y

/-- What this way through the body leaves in the accumulator: its stores read back. -/
def sout1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) : Vec F S64x1024 .f32 :=
  VS1.read (Elt F) (VS1.writes (Elt F) VS1.junk (kernelRun1_C (F := F) c i arg2 harg2 arg3 harg3 arg4 harg4 arg5 harg5 arg6 harg6 arg7 harg7 arg8 harg8 arg9 harg9 hc0 hc1 x0 x1 x2 x3 x4 x5 xs0).2.1)

theorem cover1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) (y : S1024x64.Idx) :
    ∃ pc ∈ (kernelRun1_C (F := F) c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 x5 xs0).1 S1024x64.size (by sl_kernel_rfl) y

/-- What the handing-out way leaves in the output's staging buffer: its stores read back. -/
def out1_C (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) : Vec F S1024x64 .f32 :=
  VO1.read (Elt F) (VO1.writes (Elt F) VO1.junk (kernelRun1_C (F := F) c i arg2 harg2 arg3 harg3 arg4 harg4 arg5 harg5 arg6 harg6 arg7 harg7 arg8 harg8 arg9 harg9 hc0 hc1 x0 x1 x2 x3 x4 x5 xs0).1)

/-- A placeholder for the output's staging contents at the points that store nothing into it (nothing reads it). -/
def junkO1 : Vec F S1024x64 .f32 := VO1.read (Elt F) (VO1.junk (Val := Elt F))
/-- The accumulator's contents before the first point: not chosen. -/
def junkS1 : Vec F S64x1024 .f32 := VS1.read (Elt F) (VS1.junk (Val := Elt F))

/-- One point's step: the output's staging contents and the accumulator's after the body at position `n`, from the
    accumulator's contents before it, by the way the point's coordinates select. -/
def stepAt1 (c : Dev nD) (n : ℕ) (hn : n < cfg1.N) (prev : Vec F S64x1024 .f32) : Vec F S1024x64 .f32 × Vec F S64x1024 .f32 :=
  if h0 : cond1_0 (grid1.coords ⟨n, hn⟩) then
    if h1 : cond1_1 (grid1.coords ⟨n, hn⟩) then (junkO1, prev)
    else (junkO1, sout1_A c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) h0 h1 (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩))
  else
    if h1 : cond1_1 (grid1.coords ⟨n, hn⟩) then
      (out1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) h0 h1 (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) prev, sout1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) h0 h1 (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) prev)
    else (junkO1, sout1_B c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) h0 h1 (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) prev)

/-- THE ACCUMULATION: the output's staging contents and the accumulator after the body at every position, by recursion on the position. -/
def outsAt1 (c : Dev nD) : (n : ℕ) → n < cfg1.N → Vec F S1024x64 .f32 × Vec F S64x1024 .f32
  | 0, hn => stepAt1 V c 0 hn junkS1
  | n + 1, hn => stepAt1 V c (n + 1) hn (outsAt1 c n (Nat.lt_of_succ_lt hn)).2

/-- The accumulator's contents before position `n`. -/
def prev1 (c : Dev nD) : (n : ℕ) → n < cfg1.N → Vec F S64x1024 .f32
  | 0, _ => junkS1
  | n + 1, hn => (outsAt1 V c n (Nat.lt_of_succ_lt hn)).2

theorem outsAt1_eq (c : Dev nD) (n : ℕ) (hn : n < cfg1.N) : outsAt1 V c n hn = stepAt1 V c n hn (prev1 V c n hn) := by
  cases n <;> rfl

theorem prev1_pos (c : Dev nD) (n : ℕ) (hn : n < cfg1.N) (hz : n ≠ 0) : prev1 V c n hn = (outsAt1 V c (n - 1) (by omega)).2 := by
  cases n with
  | zero => exact absurd rfl hz
  | succ n => rfl

theorem outsAt1_A (c : Dev nD) (t : Fin cfg1.N) (h0 : cond1_0 (grid1.coords t)) (h1 : ¬cond1_1 (grid1.coords t)) :
    outsAt1 V c t.val t.isLt = (junkO1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h0 h1 (iblk1 V c 0 t) (iblk1 V c 1 t) (iblk1 V c 2 t) (iblk1 V c 3 t) (iblk1 V c 4 t) (iblk1 V c 5 t)) := by
  rw [outsAt1_eq]; unfold stepAt1; exact (dif_pos h0).trans (dif_neg h1)

theorem outsAt1_B (c : Dev nD) (t : Fin cfg1.N) (h0 : ¬cond1_0 (grid1.coords t)) (h1 : ¬cond1_1 (grid1.coords t)) :
    outsAt1 V c t.val t.isLt = (junkO1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h0 h1 (iblk1 V c 0 t) (iblk1 V c 1 t) (iblk1 V c 2 t) (iblk1 V c 3 t) (iblk1 V c 4 t) (iblk1 V c 5 t) (prev1 V c t.val t.isLt)) := by
  rw [outsAt1_eq]; unfold stepAt1; exact (dif_neg h0).trans (dif_neg h1)

theorem outsAt1_C (c : Dev nD) (t : Fin cfg1.N) (h0 : ¬cond1_0 (grid1.coords t)) (h1 : cond1_1 (grid1.coords t)) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h0 h1 (iblk1 V c 0 t) (iblk1 V c 1 t) (iblk1 V c 2 t) (iblk1 V c 3 t) (iblk1 V c 4 t) (iblk1 V c 5 t) (prev1 V c t.val t.isLt), sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h0 h1 (iblk1 V c 0 t) (iblk1 V c 1 t) (iblk1 V c 2 t) (iblk1 V c 3 t) (iblk1 V c 4 t) (iblk1 V c 5 t) (prev1 V c t.val t.isLt)) := by
  rw [outsAt1_eq]; unfold stepAt1; exact (dif_neg h0).trans (dif_pos h1)

/-- The region invariant before position `n`: before the first point the scoped buffers at anything; afterwards the
    accumulator at what the point before left, the other scoped buffers at anything; the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl

theorem PhiS1_pos (c : Dev nD) (n : ℕ) (hn : n < cfg1.N) (h : n ≤ cfg1.N) (hz : n ≠ 0) :
    PhiS1 V c n h = iprop(iprop(owns (c : Thread nD τ) scM1 fullShare (prev1 V c n hn) ∗ others1 c) ∗ (∃ r, prngReg c r)) := by
  cases n with
  | zero => exact absurd rfl hz
  | succ n => rfl

/-- At any position the invariant holds the accumulator at some contents. -/
theorem PhiS1_any (c : Dev nD) (n : ℕ) (h : n ≤ cfg1.N) :
    PhiS1 V c n h ⊢ (iprop(iprop((∃ d, owns (c : Thread nD τ) scM1 fullShare d) ∗ others1 c) ∗ (∃ r, prngReg c r)) : sProp 𝕄) := by
  cases n with
  | zero => exact PhiA1_split c
  | succ n =>
    rw [show PhiS1 V c (n + 1) h = iprop(iprop(owns (c : Thread nD τ) scM1 fullShare ((outsAt1 V c n h).2) ∗ others1 c) ∗ (∃ r, prngReg c r)) from rfl]
    iintro ⟨⟨HS, Ho⟩, Hg⟩
    isplitl [HS Ho]
    · isplitl [HS]; · iexists _; iexact HS
      iexact Ho
    iexact Hg

/-- The proof data of pipeline 1 on core `c`: the arrays as the region finds them; after the body at point `t` each
    input's buffer at its block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem idleAt1 (t : Fin cfg1.N) (h1 : ¬cond1_1 (grid1.coords t)) : cfg1.idle 6 (grid1.coords t) = true := by
  show (!(k1_cond2 (grid1.coords t) == 1#1)) = true
  rw [Bool.not_eq_true', beq_eq_false_iff_ne]; exact h1
theorem liveAt1 (t : Fin cfg1.N) (h1 : cond1_1 (grid1.coords t)) : cfg1.idle 6 (grid1.coords t) = false := by
  show (!(k1_cond2 (grid1.coords t) == 1#1)) = false
  rw [Bool.not_eq_false', beq_iff_eq]; exact h1
theorem noFlush1 (t : Fin cfg1.N) (h1 : ¬cond1_1 (grid1.coords t)) : (cfg1.win 6).flush t = false := by
  rw [Bool.eq_false_iff]; exact fun hf => h1 ((hcond1_1 t).mpr ((flushOut1 t).mp hf))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the point's coordinates select the way through the body; the
    invariant hands over the accumulator (at what the point before left, when the way reads it) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ, PhiS1_castSucc V c t]
  have hN : t.val < 28714 := lt_of_lt_of_eq t.isLt (show cfg1.N = 28714 from N_1)
  by_cases h0 : cond1_0 (grid1.coords t)
  · by_cases h1 : cond1_1 (grid1.coords t)
    · exfalso; have := (hcond1_0 t).mp h0; have := (hcond1_1 t).mp h1; omega
    · -- the accumulator is reset
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [Dat.leavesExact_idle (dat1 V c) 6 t (idleAt1 t h1) (noFlush1 t h1)]
      rw [outsAt1_A V c t h0 h1]
      unfold sout1_A; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiS1_any V c _ _) $$ HΦ
      icases HΦ' with ⟨⟨HS0, Hot⟩, Hg⟩
      iapply ((kernelRun1_A (F := F) c (grid1.coords t) _ _ _ _ _ _ _ _ _ _ _ _ _ _ _ _ h0 h1 (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 ((hcond1_0 t).mpr (by rw [hz]))
    rw [PhiS1_pos V c t.val t.isLt _ hz]
    by_cases h1 : cond1_1 (grid1.coords t)
    · -- the accumulator is handed to the output
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [show (dat1 V c).leavesExact 6 t = owns (c : Thread nD τ) (ms1_6 t) fullShare ((dat1 V c).after 6 t) from by
        unfold Dat.leavesExact; rw [liveAt1 t h1], after1_6]
      rw [outsAt1_C V c t h0 h1]
      unfold out1_C sout1_C; (try dsimp only)
      iintro ⟨⟨⟨HS0, Hot⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C (F := F) c (grid1.coords t) _ _ _ _ _ _ _ _ _ _ _ _ _ _ _ _ h0 h1 (iblk1 V c 0 t) (iblk1 V c 1 t) (iblk1 V c 2 t) (iblk1 V c 3 t) (iblk1 V c 4 t) (iblk1 V c 5 t) (prev1 V c t.val t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    · -- a middle point
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [Dat.leavesExact_idle (dat1 V c) 6 t (idleAt1 t h1) (noFlush1 t h1)]
      rw [outsAt1_B V c t h0 h1]
      unfold sout1_B; (try dsimp only)
      iintro ⟨⟨⟨HS0, Hot⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B (F := F) c (grid1.coords t) _ _ _ _ _ _ _ _ _ _ _ _ _ _ _ _ h0 h1 (iblk1 V c 0 t) (iblk1 V c 1 t) (iblk1 V c 2 t) (iblk1 V c 3 t) (iblk1 V c 4 t) (iblk1 V c 5 t) (prev1 V c t.val t.isLt)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hot Hg]
      · isplitl [HS0 Hot]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl]
  exact Idealize.SL.BI.Entails.refl _

/-- After the last point the invariant gives the scoped buffers back at some contents: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_join c)

end Entry

end Cert.KernelIdeal.Gen

end
-- ==== Proof.KernelIdealRun.lean ====
/-
  THE RUN of @main: a stretch of host operations, the two kernel regions one after the other, one more host operation.
  The buffer contents at each boundary are a fold from the launch memory: a host stretch's operations applied in order; a
  region's arrays at what its write-backs leave, every other buffer as entered. Each region is entered from every unscoped
  buffer held at the boundary's contents, the generator register at some state and nothing owed, and left the same way;
  the launch theorem for a list of segments then says that every execution terminates with every unscoped buffer at the
  last boundary's contents. No host operation and no region writes an argument array, so each ends as launched.
-/
import proofs.«425251_j55370718380132_2_alg».proof.Proof.KernelIdealReg0
import proofs.«425251_j55370718380132_2_alg».proof.Proof.KernelIdealReg1
import proofs.«425251_j55370718380132_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- After the last host operation. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := (W3_arr m ρ c 2).trans (((dat1 (U2 m ρ) c).arrAt_in 2 rfl _).trans (A_eq1 (U2 m ρ) c 2))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := (W3_arr m ρ c 3).trans (((dat1 (U2 m ρ) c).arrAt_in 3 rfl _).trans (A_eq1 (U2 m ρ) c 3))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := (W3_arr m ρ c 4).trans (((dat1 (U2 m ρ) c).arrAt_in 4 rfl _).trans (A_eq1 (U2 m ρ) c 4))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := (W3_arr m ρ c 5).trans (((dat1 (U2 m ρ) c).arrAt_in 5 rfl _).trans (A_eq1 (U2 m ρ) c 5))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: its arrays split out of the unscoped buffers and put back at the exit contents; the generator
    register into the region invariant and out; nothing owed; no semaphore of the kernel's own. -/
def regH0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdatsH m ρ 0 c).Φ (Fin.last _) ⊢ Pipeline.ΦA spec0 c from hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents; the generator
    register into the region invariant and out; nothing owed; no semaphore of the kernel's own. -/
def regH1 : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m ρ 1 c).Φ (Fin.last _) ⊢ Pipeline.ΦA spec1 c from hout1 (U2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (U2 m ρ c) (U3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m ρ) () defs₀ 𝒱H LH lvH) :=
  [ .host (hsegH hostOps0 hostOps0_sub hostOps0_fresh (W0 m ρ)),
    .region (regH0 m ρ),
    .region (regH1 m ρ),
    .host (hsegH hostOps2 hostOps2_sub hostOps2_fresh (W3 m ρ)) ]
theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun c => by
      show (iprop(StableHlo.held (c : Thread nD τ) (Pipeline.ucRefs τ sig) (W4 m ρ c) ∗ RH c) : sProp 𝕄) ⊢ _
      iintro ⟨Hh, Hp, Ho⟩
      isplitl [Hh Hp]
      · isplitl [Hh]; · iexact Hh
        iexact Hp
      iexact Ho⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_ucH main_arg0 (by decide))).trans (W4_main_arg0 m ρ c),
     (h c _ (mem_ucH main_arg1 (by decide))).trans (W4_main_arg1 m ρ c),
     (h c _ (mem_ucH main_arg2 (by decide))).trans (W4_main_arg2 m ρ c),
     (h c _ (mem_ucH main_arg3 (by decide))).trans (W4_main_arg3 m ρ c),
     (h c _ (mem_ucH main_arg4 (by decide))).trans (W4_main_arg4 m ρ c),
     (h c _ (mem_ucH main_arg5 (by decide))).trans (W4_main_arg5 m ρ c),
     (h c _ (mem_ucH main_arg6 (by decide))).trans (W4_main_arg6 m ρ c)⟩) (run_all m ρ)

end Cert.KernelIdeal.Gen

end
-- ==== Proof.Mid.lean ====
/-
  THE KERNEL PROGRAM'S TWO STAGES AS WHOLE-ARRAY FUNCTIONS, over the padded and transposed arrays its host operations
  build. Stage one: the message array, features by edges, is the edge features plus, for every node row, that row's
  features times the indicator that the row's number is the edge's source word (a selection written as a sum: what a
  product with a one-hot matrix computes). Stage two: for every node row the messages of the edges whose destination
  word is the row's number are summed the same way, and the two-layer perceptron is applied to the sums.
-/
import Idealize.ShloMosaic.Lib.ValueIdx
import Idealize.ShloMosaic.PureOps.Ideal

noncomputable section

open scoped BigOperators

namespace Cert.Mid

open Idealize.ShloMosaic Idealize.ShloMosaic.ValueIdx

/-- The one-hot factor: 1 when the two words are equal, else 0. -/
def hot (w v : BitVec 32) : EReal := if w = v then 1 else 0

theorem hot_self (w : BitVec 32) : hot w w = 1 := if_pos rfl
theorem hot_ne {w v : BitVec 32} (h : w ≠ v) : hot w v = 0 := if_neg h

abbrev RowP : Shape := ⟨2, ![1, 1200128]⟩
abbrev EdgeT : Shape := ⟨2, ![64, 1200128]⟩
abbrev NodeT : Shape := ⟨2, ![64, 100352]⟩
abbrev OutP : Shape := ⟨2, ![100352, 64]⟩
abbrev W1S : Shape := ⟨2, ![64, 128]⟩
abbrev B1S : Shape := ⟨1, ![128]⟩
abbrev W2S : Shape := ⟨2, ![128, 64]⟩
abbrev B2S : Shape := ⟨1, ![64]⟩

/-- Stage one at feature `d`, edge column `E`. -/
def msgAt (srcP : IVec RowP 32) (edgeT : FVec Ideal EdgeT .f32) (nodeT : FVec Ideal NodeT .f32) (d : Fin 64) (E : Fin 1200128) : EReal :=
  edgeT (ix2 d E) + ∑ n : Fin 100352, nodeT (ix2 d n) * hot (BitVec.ofNat 32 n.val) (srcP (ix2 (0 : Fin 1) E))

/-- Stage one, the whole array. -/
def msgT (srcP : IVec RowP 32) (edgeT : FVec Ideal EdgeT .f32) (nodeT : FVec Ideal NodeT .f32) : FVec Ideal EdgeT .f32 :=
  fun j => msgAt srcP edgeT nodeT (j 0 : Fin 64) (j 1 : Fin 1200128)

theorem msgT_ix2 (srcP : IVec RowP 32) (edgeT : FVec Ideal EdgeT .f32) (nodeT : FVec Ideal NodeT .f32) (d : Fin 64) (E : Fin 1200128) :
    msgT srcP edgeT nodeT (ix2 d E) = msgAt srcP edgeT nodeT d E := rfl

/-- The aggregate of node row `n` at feature `d`: the messages whose destination word is the row's number. -/
def aggAt (dstP : IVec RowP 32) (msg : FVec Ideal EdgeT .f32) (d : Fin 64) (n : Fin 100352) : EReal :=
  ∑ E : Fin 1200128, msg (ix2 d E) * hot (BitVec.ofNat 32 n.val) (dstP (ix2 (0 : Fin 1) E))

/-- Stage two at node row `n`, output feature `d'`. -/
def outAt (dstP : IVec RowP 32) (msg : FVec Ideal EdgeT .f32) (W1 : FVec Ideal W1S .f32) (b1 : FVec Ideal B1S .f32)
    (W2 : FVec Ideal W2S .f32) (b2 : FVec Ideal B2S .f32) (n : Fin 100352) (d' : Fin 64) : EReal :=
  (∑ j : Fin 128, max ((∑ d : Fin 64, aggAt dstP msg d n * W1 (ix2 d j)) + b1 (ix1 j)) 0 * W2 (ix2 j d')) + b2 (ix1 d')

/-- Stage two, the whole array. -/
def outP (dstP : IVec RowP 32) (msg : FVec Ideal EdgeT .f32) (W1 : FVec Ideal W1S .f32) (b1 : FVec Ideal B1S .f32)
    (W2 : FVec Ideal W2S .f32) (b2 : FVec Ideal B2S .f32) : FVec Ideal OutP .f32 :=
  fun j => outAt dstP msg W1 b1 W2 b2 (j 0 : Fin 100352) (j 1 : Fin 64)

theorem outP_ix2 (dstP : IVec RowP 32) (msg : FVec Ideal EdgeT .f32) (W1 : FVec Ideal W1S .f32) (b1 : FVec Ideal B1S .f32)
    (W2 : FVec Ideal W2S .f32) (b2 : FVec Ideal B2S .f32) (n : Fin 100352) (d' : Fin 64) :
    outP dstP msg W1 b1 W2 b2 (ix2 n d') = outAt dstP msg W1 b1 W2 b2 n d' := rfl

end Cert.Mid

end
-- ==== Proof.PayIdx.lean ====
/-
  THE KERNEL BODIES' PAYLOADS READ AT AN INDEX, at the ideal values.

  Both kernels multiply a block by a ONE-HOT MATRIX built in place: entry (n, e) is the indicator that the word
  `c * 1024 + n` (the block's first row number plus the row) is the word at column `e` of an index row. A product with
  such a matrix is a selection written as a sum. Read at an index, the gather kernel's step adds to the accumulator at
  (d, e) the sum over the block's rows `n` of the node block at (d, n) times that indicator; the scatter kernel's step
  adds at (d, n) the sum over the columns `e` of the message block at (d, e) times the indicator; and the scatter
  kernel's last step is the two-layer perceptron of the transposed accumulator, row by row.

  What makes it so: a comparison's bit, widened and converted, is 1 or 0 (`hot_word`); words of naturals add and
  multiply as the naturals do (`row_word`); a contraction over one axis into a zero accumulator is the sum over that
  axis's coordinate (`matmul_single_apply`), once each operand index is named by its coordinates (the four records'
  index lemmas); a format change is the identity on extended reals; the rest is layout read at an index.
-/
import proofs.«425251_j55370718380132_2_alg».proof.Proof.Gen.KernelIdeal.Skeleton
import proofs.«425251_j55370718380132_2_alg».proof.Proof.Mid
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Cert.Mid Idealize.ShloMosaic Idealize.ShloMosaic.ValueIdx
open scoped BigOperators

variable [Cert.KernelIdeal.Facts]

/-! ## Words: a comparison's bit as a number, and a row's number as a word -/

/-- A one-bit word widened to 32 bits and read as a signed integer is 1 when the bit is set, else 0. -/
theorem bit_value (b : BitVec 1) : (((b.setWidth 32).toInt : ℝ) : EReal) = if b = 1#1 then 1 else 0 := by
  rcases BitVec.eq_zero_or_eq_one b with rfl | rfl
  · have h : ((0#1 : BitVec 1).setWidth 32).toInt = 0 := by decide
    rw [h, if_neg (by decide)]; simp
  · have h : ((1#1 : BitVec 1).setWidth 32).toInt = 1 := by decide
    rw [h, if_pos rfl]; simp

/-- The equality comparison's bit is set exactly when the two words are equal. -/
theorem cmpi_eq_one_iff (x y : BitVec 32) : IntOp.cmpi .eq x y = 1#1 ↔ x = y := by
  show BitVec.ofBool (x == y) = 1#1 ↔ x = y
  by_cases h : x = y
  · have hb : (x == y) = true := by simpa using h
    rw [hb]; exact ⟨fun _ => h, fun _ => rfl⟩
  · have hb : (x == y) = false := by simpa using h
    rw [hb]; exact ⟨fun h1 => absurd h1 (by decide), fun h2 => absurd h2 h⟩

/-- The comparison's bit, widened and converted to a float, is the one-hot factor of the two words. -/
theorem hot_word (x y : BitVec 32) :
    (FloatOps.sitofp (F := Ideal) FTy.f32 ((IntOp.cmpi .eq x y).setWidth 32)) = hot x y := by
  show ((((IntOp.cmpi .eq x y).setWidth 32).toInt : ℝ) : EReal) = hot x y
  rw [bit_value]
  unfold hot
  by_cases h : x = y
  · rw [if_pos ((cmpi_eq_one_iff x y).2 h), if_pos h]
  · rw [if_neg (fun h1 => h ((cmpi_eq_one_iff x y).1 h1)), if_neg h]

/-- Words of naturals multiply and add as the naturals do: block `a`'s row `n` has the word of `a * 1024 + n`. -/
theorem row_word (a n : ℕ) : BitVec.ofNat 32 a * 1024#32 + BitVec.ofNat 32 n = BitVec.ofNat 32 (a * 1024 + n) := by
  rw [BitVec.ofNat_add, BitVec.ofNat_mul]

/-! ## The one-hot matrix -/

/-- The matrix both kernels build from a block number's word `c` and an index row: rows numbered from `c * 1024`
    compared with the row of index words laid under every row, the bit widened, converted and narrowed. -/
def oneHot (c : BitVec 32) (row : Vec Ideal S1x4096 .i32) : FVec Ideal S1024x4096 .bf16 :=
  truncf .bf16 (sitofp .f32 (extui 32 (cmpi .eq
      (addi (broadcast S1024x4096 (Scalar.muli c 1024#32)) (iota .tc S1024x4096 32 [0] iota_S1024x4096_d0_w32))
      (broadcastTo S1024x4096 (shapeCast S1x4096 row shapeCasts_S1x4096_S1x4096) broadcasts_S1x4096_S1024x4096))
    natLt_1_32)) bitsLt_bf16_f32

/-- Its entry at row `n`, column `e`: the one-hot factor of the row's word and the index word at `e`. -/
theorem oneHot_apply (c : BitVec 32) (row : Vec Ideal S1x4096 .i32) (n : Fin 1024) (e : Fin 4096) :
    oneHot c row (ix2 n e) = hot (c * 1024#32 + BitVec.ofNat 32 n.val) (row (ix2 (0 : Fin 1) e)) := by
  show FloatOps.sitofp (F := Ideal) FTy.f32 ((IntOp.cmpi .eq
      (IntOp.addi (Scalar.muli c 1024#32) (iota .tc S1024x4096 32 [0] iota_S1024x4096_d0_w32 (ix2 n e)))
      (broadcastTo S1024x4096 (shapeCast S1x4096 row shapeCasts_S1x4096_S1x4096) broadcasts_S1x4096_S1024x4096
        (ix2 n e))).setWidth 32) = _
  rw [hot_word, iota_single_apply, shapeCast_self, broadcastTo_1b_ab_apply]
  rfl

/-! ## A contraction over one axis, read at an index -/

/-- A rank-2 index with known coordinates is the index built from them. -/
theorem idx2_eq {n0 n1 : ℕ} {x : (⟨2, ![n0, n1]⟩ : Shape).Idx} {a : Fin n0} {b : Fin n1}
    (h0 : (x 0).val = a.val) (h1 : (x 1).val = b.val) : x = ix2 a b :=
  funext fun c => Fin.ext <| match c with | ⟨0, _⟩ => h0 | ⟨1, _⟩ => h1

/-- A product contracting ONE axis of extent `K`, into the zero accumulator, read at `j`: the sum over the axis's
    coordinate `t` of the operands at the indices `L t` and `R t` the dimension numbers give them there. -/
theorem matmul_single_apply {sl sr so : Shape} {φ₁ φ₂ : FTy} (D : DotDims sl sr so) (K : ℕ)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ t, D.lhsIdx j ((contrEquiv1 D K hr hs).symm t) = L t)
    (hR : ∀ t, D.rhsIdx j ((contrEquiv1 D K hr hs).symm t) = R t) :
    matmul D none lhs rhs (constant so .f32 0x00000000#32) j = ∑ t : Fin K, lhs (L t) * rhs (R t) := by
  refine (Ideal.matmul_constant_zero_apply D none lhs rhs j).trans ?_
  rw [← Equiv.sum_comp (contrEquiv1 D K hr hs).symm]
  exact Finset.sum_congr rfl fun t _ => by rw [hL t, hR t]

/-! ### The gather kernel's product: [64, 1024] by [1024, 4096], the left's axis 1 with the right's axis 0 -/

theorem k0_lhs_axis0 (j : S64x4096.Idx) (k : dot_S64x1024_S1024x4096_S64x4096_1_0_0_1_n_n.contr.Idx) :
    (dot_S64x1024_S1024x4096_S64x4096_1_0_0_1_n_n.lhsIdx j k 0).val = (j 0).val := rfl
theorem k0_lhs_axis1 (j : S64x4096.Idx) (t : Fin 1024) :
    (dot_S64x1024_S1024x4096_S64x4096_1_0_0_1_n_n.lhsIdx j
      ((contrEquiv1 dot_S64x1024_S1024x4096_S64x4096_1_0_0_1_n_n 1024 rfl rfl).symm t) 1).val = t.val :=
  (dot_S64x1024_S1024x4096_S64x4096_1_0_0_1_n_n.lhsIdx_val_of_single (cl := 1) rfl j _).trans
    (contrEquiv1_symm_val dot_S64x1024_S1024x4096_S64x4096_1_0_0_1_n_n 1024 rfl rfl t)
theorem k0_rhs_axis0 (j : S64x4096.Idx) (t : Fin 1024) :
    (dot_S64x1024_S1024x4096_S64x4096_1_0_0_1_n_n.rhsIdx j
      ((contrEquiv1 dot_S64x1024_S1024x4096_S64x4096_1_0_0_1_n_n 1024 rfl rfl).symm t) 0).val = t.val :=
  (dot_S64x1024_S1024x4096_S64x4096_1_0_0_1_n_n.rhsIdx_val_of_single (cr := 0) rfl j _).trans
    (contrEquiv1_symm_val dot_S64x1024_S1024x4096_S64x4096_1_0_0_1_n_n 1024 rfl rfl t)
theorem k0_rhs_axis1 (j : S64x4096.Idx) (k : dot_S64x1024_S1024x4096_S64x4096_1_0_0_1_n_n.contr.Idx) :
    (dot_S64x1024_S1024x4096_S64x4096_1_0_0_1_n_n.rhsIdx j k 1).val = (j 1).val := rfl

/-- The product at (d, e): the sum over `n` of the left at (d, n) times the right at (n, e). -/
theorem k0_matmul_apply (lhs : FVec Ideal S64x1024 .bf16) (rhs : FVec Ideal S1024x4096 .bf16) (d : Fin 64) (e : Fin 4096) :
    matmul dot_S64x1024_S1024x4096_S64x4096_1_0_0_1_n_n none lhs rhs (constant S64x4096 .f32 0x00000000#32) (ix2 d e)
      = ∑ n : Fin 1024, lhs (ix2 d n) * rhs (ix2 n e) :=
  matmul_single_apply dot_S64x1024_S1024x4096_S64x4096_1_0_0_1_n_n 1024 rfl rfl lhs rhs (ix2 d e)
    (fun n => ix2 d n) (fun n => ix2 n e)
    (fun n => idx2_eq (k0_lhs_axis0 _ _) (k0_lhs_axis1 _ n))
    (fun n => idx2_eq (k0_rhs_axis0 _ n) (k0_rhs_axis1 _ _))

/-! ### The scatter kernel's product: [64, 4096] by [1024, 4096], the left's axis 1 with the right's axis 1 -/

theorem k1_lhs_axis0 (j : S64x1024.Idx) (k : dot_S64x4096_S1024x4096_S64x1024_1_1_0_0_n_n.contr.Idx) :
    (dot_S64x4096_S1024x4096_S64x1024_1_1_0_0_n_n.lhsIdx j k 0).val = (j 0).val := rfl
theorem k1_lhs_axis1 (j : S64x1024.Idx) (t : Fin 4096) :
    (dot_S64x4096_S1024x4096_S64x1024_1_1_0_0_n_n.lhsIdx j
      ((contrEquiv1 dot_S64x4096_S1024x4096_S64x1024_1_1_0_0_n_n 4096 rfl rfl).symm t) 1).val = t.val :=
  (dot_S64x4096_S1024x4096_S64x1024_1_1_0_0_n_n.lhsIdx_val_of_single (cl := 1) rfl j _).trans
    (contrEquiv1_symm_val dot_S64x4096_S1024x4096_S64x1024_1_1_0_0_n_n 4096 rfl rfl t)
theorem k1_rhs_axis0 (j : S64x1024.Idx) (k : dot_S64x4096_S1024x4096_S64x1024_1_1_0_0_n_n.contr.Idx) :
    (dot_S64x4096_S1024x4096_S64x1024_1_1_0_0_n_n.rhsIdx j k 0).val = (j 1).val := rfl
theorem k1_rhs_axis1 (j : S64x1024.Idx) (t : Fin 4096) :
    (dot_S64x4096_S1024x4096_S64x1024_1_1_0_0_n_n.rhsIdx j
      ((contrEquiv1 dot_S64x4096_S1024x4096_S64x1024_1_1_0_0_n_n 4096 rfl rfl).symm t) 1).val = t.val :=
  (dot_S64x4096_S1024x4096_S64x1024_1_1_0_0_n_n.rhsIdx_val_of_single (cr := 1) rfl j _).trans
    (contrEquiv1_symm_val dot_S64x4096_S1024x4096_S64x1024_1_1_0_0_n_n 4096 rfl rfl t)

/-- The product at (d, n): the sum over `e` of the left at (d, e) times the right at (n, e). -/
theorem k1_matmul_apply (lhs : FVec Ideal S64x4096 .bf16) (rhs : FVec Ideal S1024x4096 .bf16) (d : Fin 64) (n : Fin 1024) :
    matmul dot_S64x4096_S1024x4096_S64x1024_1_1_0_0_n_n none lhs rhs (constant S64x1024 .f32 0x00000000#32) (ix2 d n)
      = ∑ e : Fin 4096, lhs (ix2 d e) * rhs (ix2 n e) :=
  matmul_single_apply dot_S64x4096_S1024x4096_S64x1024_1_1_0_0_n_n 4096 rfl rfl lhs rhs (ix2 d n)
    (fun e => ix2 d e) (fun e => ix2 n e)
    (fun e => idx2_eq (k1_lhs_axis0 _ _) (k1_lhs_axis1 _ e))
    (fun e => idx2_eq (k1_rhs_axis0 _ _) (k1_rhs_axis1 _ e))

/-! ### The perceptron's first product: [1024, 64] by [64, 128] -/

theorem m1_lhs_axis0 (j : S1024x128.Idx) (k : dot_S1024x64_S64x128_S1024x128_1_0_0_1_n_n.contr.Idx) :
    (dot_S1024x64_S64x128_S1024x128_1_0_0_1_n_n.lhsIdx j k 0).val = (j 0).val := rfl
theorem m1_lhs_axis1 (j : S1024x128.Idx) (t : Fin 64) :
    (dot_S1024x64_S64x128_S1024x128_1_0_0_1_n_n.lhsIdx j
      ((contrEquiv1 dot_S1024x64_S64x128_S1024x128_1_0_0_1_n_n 64 rfl rfl).symm t) 1).val = t.val :=
  (dot_S1024x64_S64x128_S1024x128_1_0_0_1_n_n.lhsIdx_val_of_single (cl := 1) rfl j _).trans
    (contrEquiv1_symm_val dot_S1024x64_S64x128_S1024x128_1_0_0_1_n_n 64 rfl rfl t)
theorem m1_rhs_axis0 (j : S1024x128.Idx) (t : Fin 64) :
    (dot_S1024x64_S64x128_S1024x128_1_0_0_1_n_n.rhsIdx j
      ((contrEquiv1 dot_S1024x64_S64x128_S1024x128_1_0_0_1_n_n 64 rfl rfl).symm t) 0).val = t.val :=
  (dot_S1024x64_S64x128_S1024x128_1_0_0_1_n_n.rhsIdx_val_of_single (cr := 0) rfl j _).trans
    (contrEquiv1_symm_val dot_S1024x64_S64x128_S1024x128_1_0_0_1_n_n 64 rfl rfl t)
theorem m1_rhs_axis1 (j : S1024x128.Idx) (k : dot_S1024x64_S64x128_S1024x128_1_0_0_1_n_n.contr.Idx) :
    (dot_S1024x64_S64x128_S1024x128_1_0_0_1_n_n.rhsIdx j k 1).val = (j 1).val := rfl

/-- The product at (n, j): the sum over `d` of the left at (n, d) times the right at (d, j). -/
theorem m1_matmul_apply (lhs : FVec Ideal S1024x64 .bf16) (rhs : FVec Ideal S64x128 .bf16) (n : Fin 1024) (j : Fin 128) :
    matmul dot_S1024x64_S64x128_S1024x128_1_0_0_1_n_n none lhs rhs (constant S1024x128 .f32 0x00000000#32) (ix2 n j)
      = ∑ d : Fin 64, lhs (ix2 n d) * rhs (ix2 d j) :=
  matmul_single_apply dot_S1024x64_S64x128_S1024x128_1_0_0_1_n_n 64 rfl rfl lhs rhs (ix2 n j)
    (fun d => ix2 n d) (fun d => ix2 d j)
    (fun d => idx2_eq (m1_lhs_axis0 _ _) (m1_lhs_axis1 _ d))
    (fun d => idx2_eq (m1_rhs_axis0 _ d) (m1_rhs_axis1 _ _))

/-! ### The perceptron's second product: [1024, 128] by [128, 64] -/

theorem m2_lhs_axis0 (j : S1024x64.Idx) (k : dot_S1024x128_S128x64_S1024x64_1_0_0_1_n_n.contr.Idx) :
    (dot_S1024x128_S128x64_S1024x64_1_0_0_1_n_n.lhsIdx j k 0).val = (j 0).val := rfl
theorem m2_lhs_axis1 (j : S1024x64.Idx) (t : Fin 128) :
    (dot_S1024x128_S128x64_S1024x64_1_0_0_1_n_n.lhsIdx j
      ((contrEquiv1 dot_S1024x128_S128x64_S1024x64_1_0_0_1_n_n 128 rfl rfl).symm t) 1).val = t.val :=
  (dot_S1024x128_S128x64_S1024x64_1_0_0_1_n_n.lhsIdx_val_of_single (cl := 1) rfl j _).trans
    (contrEquiv1_symm_val dot_S1024x128_S128x64_S1024x64_1_0_0_1_n_n 128 rfl rfl t)
theorem m2_rhs_axis0 (j : S1024x64.Idx) (t : Fin 128) :
    (dot_S1024x128_S128x64_S1024x64_1_0_0_1_n_n.rhsIdx j
      ((contrEquiv1 dot_S1024x128_S128x64_S1024x64_1_0_0_1_n_n 128 rfl rfl).symm t) 0).val = t.val :=
  (dot_S1024x128_S128x64_S1024x64_1_0_0_1_n_n.rhsIdx_val_of_single (cr := 0) rfl j _).trans
    (contrEquiv1_symm_val dot_S1024x128_S128x64_S1024x64_1_0_0_1_n_n 128 rfl rfl t)
theorem m2_rhs_axis1 (j : S1024x64.Idx) (k : dot_S1024x128_S128x64_S1024x64_1_0_0_1_n_n.contr.Idx) :
    (dot_S1024x128_S128x64_S1024x64_1_0_0_1_n_n.rhsIdx j k 1).val = (j 1).val := rfl

/-- The product at (n, d'): the sum over `j` of the left at (n, j) times the right at (j, d'). -/
theorem m2_matmul_apply (lhs : FVec Ideal S1024x128 .bf16) (rhs : FVec Ideal S128x64 .bf16) (n : Fin 1024) (d' : Fin 64) :
    matmul dot_S1024x128_S128x64_S1024x64_1_0_0_1_n_n none lhs rhs (constant S1024x64 .f32 0x00000000#32) (ix2 n d')
      = ∑ j : Fin 128, lhs (ix2 n j) * rhs (ix2 j d') :=
  matmul_single_apply dot_S1024x128_S128x64_S1024x64_1_0_0_1_n_n 128 rfl rfl lhs rhs (ix2 n d')
    (fun j => ix2 n j) (fun j => ix2 j d')
    (fun j => idx2_eq (m2_lhs_axis0 _ _) (m2_lhs_axis1 _ j))
    (fun j => idx2_eq (m2_rhs_axis0 _ j) (m2_rhs_axis1 _ _))

/-! ## The gather kernel's payloads -/

/-- The first step's stored value is the loaded block: two casts to the same shape. -/
theorem pay1_0 (v : Vec Ideal S64x4096 .f32) : k0_pay1 (F := Ideal) v = v := by
  show shapeCast S64x4096 (shapeCast S64x4096 v shapeCasts_S64x4096_S64x4096) shapeCasts_S64x4096_S64x4096 = v
  rw [shapeCast_self, shapeCast_self]

/-- Every step's stored value at (d, e): the accumulator there plus the sum over the block's rows `n` of the node
    block at (d, n) times the indicator that row `n` of block `i 1` is the source word at `e`. -/
theorem pay2_0 (i : grid0.Coords) (srcb : Vec Ideal S1x4096 .i32) (nodeb : Vec Ideal S64x1024 .f32)
    (acc : Vec Ideal S64x4096 .f32) (d : Fin 64) (e : Fin 4096) :
    k0_pay2 (F := Ideal) i srcb nodeb acc (ix2 d e)
      = acc (ix2 d e) + ∑ n : Fin 1024, nodeb (ix2 d n)
          * hot (BitVec.ofNat 32 ((i 1).val * 1024 + n.val)) (srcb (ix2 (0 : Fin 1) e)) := by
  show shapeCast S64x4096 (addf acc (matmul dot_S64x1024_S1024x4096_S64x4096_1_0_0_1_n_n none
      (truncf .bf16 (shapeCast S64x1024 nodeb shapeCasts_S64x1024_S64x1024) bitsLt_bf16_f32 : FVec Ideal S64x1024 .bf16)
      (oneHot (BitVec.ofNat 32 (i 1).val) srcb) (constant S64x4096 .f32 0x00000000#32)))
    shapeCasts_S64x4096_S64x4096 (ix2 d e) = _
  rw [shapeCast_self, addf_apply, k0_matmul_apply]
  refine congrArg (acc (ix2 d e) + ·) (Finset.sum_congr rfl fun n _ => ?_)
  rw [truncf_apply, shapeCast_self, oneHot_apply, row_word]

/-! ## The scatter kernel's payloads -/

/-- The first step's stored value is zero everywhere. -/
theorem pay1_1 (d : Fin 64) (n : Fin 1024) : k1_pay1 (F := Ideal) (ix2 d n) = 0 := by
  show shapeCast S64x1024 (broadcast S64x1024 (Scalar.ofBits (F := Ideal) .f32 0x00000000#32))
    shapeCasts_S64x1024_S64x1024 (ix2 d n) = 0
  rw [shapeCast_self]
  exact Ideal.ofBits_zero_f32

/-- Every step's stored value at (d, n): the accumulator there plus the sum over the block's columns `e` of the
    message block at (d, e) times the indicator that row `n` of block `i 0` is the destination word at `e`. -/
theorem pay2_1 (i : grid1.Coords) (dstb : Vec Ideal S1x4096 .i32) (msgb : Vec Ideal S64x4096 .f32)
    (acc : Vec Ideal S64x1024 .f32) (d : Fin 64) (n : Fin 1024) :
    k1_pay2 (F := Ideal) i dstb msgb acc (ix2 d n)
      = acc (ix2 d n) + ∑ e : Fin 4096, msgb (ix2 d e)
          * hot (BitVec.ofNat 32 ((i 0).val * 1024 + n.val)) (dstb (ix2 (0 : Fin 1) e)) := by
  show shapeCast S64x1024 (addf acc (matmul dot_S64x4096_S1024x4096_S64x1024_1_1_0_0_n_n none
      (truncf .bf16 (shapeCast S64x4096 msgb shapeCasts_S64x4096_S64x4096) bitsLt_bf16_f32 : FVec Ideal S64x4096 .bf16)
      (oneHot (BitVec.ofNat 32 (i 0).val) dstb) (constant S64x1024 .f32 0x00000000#32)))
    shapeCasts_S64x1024_S64x1024 (ix2 d n) = _
  rw [shapeCast_self, addf_apply, k1_matmul_apply]
  refine congrArg (acc (ix2 d n) + ·) (Finset.sum_congr rfl fun e _ => ?_)
  rw [truncf_apply, shapeCast_self, oneHot_apply, row_word]

/-- The perceptron's hidden layer over the accumulator: the transposed accumulator times the first weights, plus the
    first bias laid under every row, cut off below at zero. -/
def hidden (acc : Vec Ideal S64x1024 .f32) (w1 : Vec Ideal S64x128 .f32) (b1 : Vec Ideal S128 .f32) :
    FVec Ideal S1024x128 .f32 :=
  maximumf
    (addf
      (matmul dot_S1024x64_S64x128_S1024x128_1_0_0_1_n_n none
        (truncf .bf16 (transpose S1024x64 [1, 0] acc transposes_S64x1024_p1_0_S1024x64) bitsLt_bf16_f32 : FVec Ideal S1024x64 .bf16)
        (truncf .bf16 w1 bitsLt_bf16_f32 : FVec Ideal S64x128 .bf16) (constant S1024x128 .f32 0x00000000#32))
      (broadcastTo S1024x128 (shapeCast S1x128 b1 shapeCasts_S128_S1x128) broadcasts_S1x128_S1024x128))
    (broadcast S1024x128 (Scalar.ofBits (F := Ideal) .f32 0x00000000#32))

/-- The hidden layer at node row `n`, unit `j`. -/
theorem hidden_apply (acc : Vec Ideal S64x1024 .f32) (w1 : Vec Ideal S64x128 .f32) (b1 : Vec Ideal S128 .f32)
    (n : Fin 1024) (j : Fin 128) :
    hidden acc w1 b1 (ix2 n j) = max ((∑ d : Fin 64, acc (ix2 d n) * w1 (ix2 d j)) + b1 (ix1 j)) 0 := by
  show max (matmul dot_S1024x64_S64x128_S1024x128_1_0_0_1_n_n none
        (truncf .bf16 (transpose S1024x64 [1, 0] acc transposes_S64x1024_p1_0_S1024x64) bitsLt_bf16_f32 : FVec Ideal S1024x64 .bf16)
        (truncf .bf16 w1 bitsLt_bf16_f32 : FVec Ideal S64x128 .bf16) (constant S1024x128 .f32 0x00000000#32) (ix2 n j)
      + broadcastTo S1024x128 (shapeCast S1x128 b1 shapeCasts_S128_S1x128) broadcasts_S1x128_S1024x128 (ix2 n j))
    (Ideal.ofBits .f32 0x00000000#32) = _
  rw [m1_matmul_apply, broadcastTo_1b_ab_apply, shapeCast_a_1a_apply, Ideal.ofBits_zero_f32]
  refine congrArg (fun s => max (s + b1 (ix1 j)) 0) (Finset.sum_congr rfl fun d _ => ?_)
  rw [truncf_apply, truncf_apply, transpose_ix2_apply]

/-- The last step's stored value at node row `n`, output feature `d'`: the two-layer perceptron of the accumulator's
    column `n`. -/
theorem pay3_1 (acc : Vec Ideal S64x1024 .f32) (w1 : Vec Ideal S64x128 .f32) (b1 : Vec Ideal S128 .f32)
    (w2 : Vec Ideal S128x64 .f32) (b2 : Vec Ideal S64 .f32) (n : Fin 1024) (d' : Fin 64) :
    k1_pay3 (F := Ideal) acc w1 b1 w2 b2 (ix2 n d')
      = (∑ j : Fin 128, max ((∑ d : Fin 64, acc (ix2 d n) * w1 (ix2 d j)) + b1 (ix1 j)) 0 * w2 (ix2 j d'))
          + b2 (ix1 d') := by
  show matmul dot_S1024x128_S128x64_S1024x64_1_0_0_1_n_n none
        (truncf .bf16 (hidden acc w1 b1) bitsLt_bf16_f32 : FVec Ideal S1024x128 .bf16)
        (truncf .bf16 w2 bitsLt_bf16_f32 : FVec Ideal S128x64 .bf16) (constant S1024x64 .f32 0x00000000#32) (ix2 n d')
      + broadcastTo S1024x64 (shapeCast S1x64 b2 shapeCasts_S64_S1x64) broadcasts_S1x64_S1024x64 (ix2 n d') = _
  rw [m2_matmul_apply, broadcastTo_1b_ab_apply, shapeCast_a_1a_apply]
  refine congrArg (· + b2 (ix1 d')) (Finset.sum_congr rfl fun j _ => ?_)
  rw [truncf_apply, truncf_apply, hidden_apply]

end Cert.KernelIdeal.PayIdx

end
-- ==== Proof.SumBlocks.lean ====
/-
  A SUM OVER CONSECUTIVE BLOCKS IS THE SUM OVER ALL TERMS. For a family g on the naturals, adding up K consecutive
  blocks of B terms each (block k holds the terms numbered B * k, ..., B * k + B - 1) is adding up the first K * B
  terms. By induction on the number of blocks: the first K + 1 blocks are the first K blocks and then B more terms
  starting at K * B. Only the commutative-monoid structure of the extended reals' addition is used.
-/
import Mathlib.Algebra.BigOperators.Fin
import Mathlib.Algebra.BigOperators.Intervals
import Mathlib.Data.EReal.Basic

open scoped BigOperators

namespace Cert.SumBlocks

/-- The statement over initial segments of the naturals. -/
theorem sum_blocks_range (K B : ℕ) (g : ℕ → EReal) :
    ∑ k ∈ Finset.range K, ∑ x ∈ Finset.range B, g (B * k + x) = ∑ n ∈ Finset.range (K * B), g n := by
  induction K with
  | zero => simp
  | succ K ih =>
    rw [Finset.sum_range_succ, ih, Nat.succ_mul, Finset.sum_range_add, Nat.mul_comm B K]

/-- K consecutive blocks of B terms add up to the first K * B terms. -/
theorem sum_blocks (K B : ℕ) (g : ℕ → EReal) :
    ∑ k ∈ Finset.range K, ∑ n' : Fin B, g (B * k + n'.val) = ∑ n : Fin (K * B), g n.val := by
  rw [Fin.sum_univ_eq_sum_range (fun n => g n) (K * B), ← sum_blocks_range]
  apply Finset.sum_congr rfl
  intro k _
  exact Fin.sum_univ_eq_sum_range (fun x => g (B * k + x)) B

/-- The same with the total count given by an equation, so that a literal total can be used. -/
theorem sum_blocks_of_eq (K B N : ℕ) (hN : K * B = N) (g : ℕ → EReal) :
    ∑ k ∈ Finset.range K, ∑ n' : Fin B, g (B * k + n'.val) = ∑ n : Fin N, g n.val := by
  subst hN
  exact sum_blocks K B g

/-- 98 blocks of 1024 terms are 100352 terms. -/
theorem sum_blocks_node (g : ℕ → EReal) :
    ∑ k ∈ Finset.range 98, ∑ n' : Fin 1024, g (1024 * k + n'.val) = ∑ n : Fin 100352, g n.val :=
  sum_blocks_of_eq 98 1024 100352 (by norm_num) g

/-- 293 blocks of 4096 terms are 1200128 terms. -/
theorem sum_blocks_edge (g : ℕ → EReal) :
    ∑ k ∈ Finset.range 293, ∑ e' : Fin 4096, g (4096 * k + e'.val) = ∑ E : Fin 1200128, g E.val :=
  sum_blocks_of_eq 293 4096 1200128 (by norm_num) g

end Cert.SumBlocks
-- ==== Proof.Val0.lean ====
/-
  WHAT REGION 0 LEAVES IN THE MESSAGE ARRAY. Each way through the body leaves its stores' payloads: the accumulator is the
  update (add this node block's selected rows) of the edge block at a resetting point and of what the point before left
  elsewhere, and the output's staging buffer takes the accumulator at a handing-out point. The blocks the body finds sit at
  block index times block size in their arrays: the source row, the edge features and the output by the first grid
  coordinate, the node features by the second. By induction on the point the accumulator holds the edge feature plus the
  selected rows of the node blocks met so far in this edge block; at the last node block the double sum over blocks is the sum
  over all node rows, so the flushing point writes back its block of the message array, the flushing points' blocks cover
  the array, and the array ends at stage one of the program.
-/
import proofs.«425251_j55370718380132_2_alg».proof.Proof.KernelIdealReg0
import proofs.«425251_j55370718380132_2_alg».proof.Proof.PayIdx
import proofs.«425251_j55370718380132_2_alg».proof.Proof.Mid
import proofs.«425251_j55370718380132_2_alg».proof.Proof.SumBlocks
import Idealize.ShloMosaic.Lib.Pipeline.Value

set_option maxRecDepth 16384

noncomputable section

open scoped BigOperators

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Mid Cert.KernelIdeal.PayIdx

/-- The all-zero offset of a rank-2 rectangle. -/
theorem hzR2 : (![0, 0] : Fin 2 → Nat) = fun _ => 0 := funext fun a => by fin_cases a <;> rfl

section Pieces
variable {F : FTy → Type} [FloatOps F]

/-! ## What each way through region 0's body leaves, as the body's payloads of what it loaded -/

theorem sout0_A_eq (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : cond0_0 i) (hc1 : ¬cond0_1 i)
    (x0 : Vec F S1x4096 .i32) (x1 : Vec F S64x4096 .f32) (x2 : Vec F S64x1024 .f32) :
    sout0_A (F := F) c i arg2 harg2 arg3 harg3 arg4 harg4 arg5 harg5 arg6 harg6 hc0 hc1 x0 x1 x2 = k0_pay2 i x0 x2 (k0_pay1 x1) := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S64x4096) hzR2, View.readCov_unit_zero (S := S64x4096) _ hzR2]
  simp only [View.readAt_eq_ld, harg2.read_unread, harg3.read_unread, harg4.read_unread,
    View.ld_unit_zero (S := S1x4096) hzR2, View.ld_unit_zero (S := S64x4096) hzR2, View.ld_unit_zero (S := S64x1024) hzR2]

theorem sout0_B_eq (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : ¬cond0_1 i)
    (x0 : Vec F S1x4096 .i32) (x1 : Vec F S64x4096 .f32) (x2 : Vec F S64x1024 .f32) (xs0 : Vec F S64x4096 .f32) :
    sout0_B (F := F) c i arg2 harg2 arg3 harg3 arg4 harg4 arg5 harg5 arg6 harg6 hc0 hc1 x0 x1 x2 xs0 = k0_pay2 i x0 x2 xs0 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero (S := S64x4096) hzR2]
  simp only [View.readAt_eq_ld, harg2.read_unread, harg4.read_unread, harg6.read_unread,
    View.ld_unit_zero (S := S1x4096) hzR2, View.ld_unit_zero (S := S64x4096) hzR2, View.ld_unit_zero (S := S64x1024) hzR2]

theorem sout0_C_eq (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) :
    sout0_C (F := F) c i arg2 harg2 arg3 harg3 arg4 harg4 arg5 harg5 arg6 harg6 hc0 hc1 x0 x1 x2 xs0 = k0_pay2 i x0 x2 xs0 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero (S := S64x4096) hzR2]
  simp only [View.readAt_eq_ld, harg2.read_unread, harg4.read_unread, harg6.read_unread,
    View.ld_unit_zero (S := S1x4096) hzR2, View.ld_unit_zero (S := S64x4096) hzR2, View.ld_unit_zero (S := S64x1024) hzR2]

theorem out0_C_eq (c : Dev nD) (i : grid0.Coords) (arg2 : Memref sig .tc .vmem S1x4096 .i32) (harg2 : arg2.IsWhole) (arg3 : Memref sig .tc .vmem S64x4096 .f32) (harg3 : arg3.IsWhole) (arg4 : Memref sig .tc .vmem S64x1024 .f32) (harg4 : arg4.IsWhole) (arg5 : Memref sig .tc .vmem S64x4096 .f32) (harg5 : arg5.IsWhole) (arg6 : Memref sig .tc .vmem S64x4096 .f32) (harg6 : arg6.IsWhole) (hc0 : ¬cond0_0 i) (hc1 : cond0_1 i)
    (x0 : Vec F S1x4096 .i32) (x1 : Vec F S64x4096 .f32) (x2 : Vec F S64x1024 .f32) (xs0 : Vec F S64x4096 .f32) :
    out0_C (F := F) c i arg2 harg2 arg3 harg3 arg4 harg4 arg5 harg5 arg6 harg6 hc0 hc1 x0 x1 x2 xs0 = k0_pay2 i x0 x2 xs0 := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero (S := S64x4096) hzR2, View.readCov_unit_zero (S := S64x4096) _ hzR2]
  simp only [View.readAt_eq_ld, harg2.read_unread, harg4.read_unread, harg6.read_unread,
    View.ld_unit_zero (S := S1x4096) hzR2, View.ld_unit_zero (S := S64x4096) hzR2, View.ld_unit_zero (S := S64x1024) hzR2]

end Pieces

/-! ## Region 0 at the Ideal instance -/

section Value0

variable (V : (c : Dev nD) → (b : Ref sig .tc) → Buf (Elt Ideal) ((c : Thread nD τ).loc b))

theorem tlt0 (t : Fin cfg0.N) : t.val < 28714 := lt_of_lt_of_eq t.isLt (show cfg0.N = 28714 from N_0)

/-! ### Where the windows' blocks sit: the source row, the edge features and the output by the first grid coordinate, the
    node features by the second -/

theorem idx0_0 (t : Fin cfg0.N) : win0_0.index t = ![0, t.val / 98 % 293] := by
  show (![(0#32 : BitVec 32).toNat, (BitVec.ofNat 32 ((grid0.coords t) 0).val).toNat] : Fin 2 → Nat) = _
  rw [coord0_0]
  funext a
  match a with
  | ⟨0, _⟩ => rfl
  | ⟨1, _⟩ =>
    show (BitVec.ofNat 32 (t.val / 98 % 293)).toNat = t.val / 98 % 293
    have := tlt0 t
    rw [BitVec.toNat_ofNat]; omega

theorem idx0_1 (t : Fin cfg0.N) : win0_1.index t = ![0, t.val / 98 % 293] := by
  show (![(0#32 : BitVec 32).toNat, (BitVec.ofNat 32 ((grid0.coords t) 0).val).toNat] : Fin 2 → Nat) = _
  rw [coord0_0]
  funext a
  match a with
  | ⟨0, _⟩ => rfl
  | ⟨1, _⟩ =>
    show (BitVec.ofNat 32 (t.val / 98 % 293)).toNat = t.val / 98 % 293
    have := tlt0 t
    rw [BitVec.toNat_ofNat]; omega

theorem idx0_2 (t : Fin cfg0.N) : win0_2.index t = ![0, t.val % 98] := by
  show (![(0#32 : BitVec 32).toNat, (BitVec.ofNat 32 ((grid0.coords t) 1).val).toNat] : Fin 2 → Nat) = _
  rw [coord0_1]
  funext a
  match a with
  | ⟨0, _⟩ => rfl
  | ⟨1, _⟩ =>
    show (BitVec.ofNat 32 (t.val % 98)).toNat = t.val % 98
    have := tlt0 t
    rw [BitVec.toNat_ofNat]; omega

theorem idx0_3 (t : Fin cfg0.N) : win0_3.index t = ![0, t.val / 98 % 293] := by
  show (![(0#32 : BitVec 32).toNat, (BitVec.ofNat 32 ((grid0.coords t) 0).val).toNat] : Fin 2 → Nat) = _
  rw [coord0_0]
  funext a
  match a with
  | ⟨0, _⟩ => rfl
  | ⟨1, _⟩ =>
    show (BitVec.ofNat 32 (t.val / 98 % 293)).toNat = t.val / 98 % 293
    have := tlt0 t
    rw [BitVec.toNat_ofNat]; omega

set_option maxHeartbeats 400000 in
theorem srcB_apply (c : Dev nD) (t : Fin cfg0.N) (e' : Fin 4096) (E : Fin 1200128) (hE : E.val = 4096 * (t.val / 98) + e'.val) :
    (iblk0 V c 0 t) (ix2 (0 : Fin 1) e') = V c main_v13 (ix2 (0 : Fin 1) E) := by
  show V c main_v13 (((cfg0.win 0).blk t).view.emb (ix2 (0 : Fin 1) e')) = _
  refine congrArg _ ?_
  funext a; apply Fin.ext
  have hi := idx0_0 t
  have h0 : win0_0.index t (0 : Fin 2) = 0 := by rw [hi]; rfl
  have h1 : win0_0.index t (1 : Fin 2) = t.val / 98 % 293 := by rw [hi]; rfl
  have := tlt0 t
  match a with
  | ⟨0, _⟩ => show win0_0.index t (0 : Fin 2) * 1 + 1 * 0 = 0; omega
  | ⟨1, _⟩ => show win0_0.index t (1 : Fin 2) * 4096 + 1 * e'.val = E.val; omega

set_option maxHeartbeats 400000 in
theorem edgeB_apply (c : Dev nD) (t : Fin cfg0.N) (d : Fin 64) (e' : Fin 4096) (E : Fin 1200128) (hE : E.val = 4096 * (t.val / 98) + e'.val) :
    (iblk0 V c 1 t) (ix2 d e') = V c main_v12 (ix2 d E) := by
  show V c main_v12 (((cfg0.win 1).blk t).view.emb (ix2 d e')) = _
  refine congrArg _ ?_
  funext a; apply Fin.ext
  have hi := idx0_1 t
  have h0 : win0_1.index t (0 : Fin 2) = 0 := by rw [hi]; rfl
  have h1 : win0_1.index t (1 : Fin 2) = t.val / 98 % 293 := by rw [hi]; rfl
  have := tlt0 t
  match a with
  | ⟨0, _⟩ => show win0_1.index t (0 : Fin 2) * 64 + 1 * d.val = d.val; omega
  | ⟨1, _⟩ => show win0_1.index t (1 : Fin 2) * 4096 + 1 * e'.val = E.val; omega

set_option maxHeartbeats 400000 in
theorem nodeB_apply (c : Dev nD) (t : Fin cfg0.N) (d : Fin 64) (e' : Fin 1024) (E : Fin 100352) (hE : E.val = 1024 * (t.val % 98) + e'.val) :
    (iblk0 V c 2 t) (ix2 d e') = V c main_v11 (ix2 d E) := by
  show V c main_v11 (((cfg0.win 2).blk t).view.emb (ix2 d e')) = _
  refine congrArg _ ?_
  funext a; apply Fin.ext
  have hi := idx0_2 t
  have h0 : win0_2.index t (0 : Fin 2) = 0 := by rw [hi]; rfl
  have h1 : win0_2.index t (1 : Fin 2) = t.val % 98 := by rw [hi]; rfl
  have := tlt0 t
  match a with
  | ⟨0, _⟩ => show win0_2.index t (0 : Fin 2) * 64 + 1 * d.val = d.val; omega
  | ⟨1, _⟩ => show win0_2.index t (1 : Fin 2) * 1024 + 1 * e'.val = E.val; omega

/-- The three arrays region 0 reads, at a natural-number column (a default past the end). -/
def srcN (c : Dev nD) (x : ℕ) : BitVec 32 := if h : x < 1200128 then V c main_v13 (ix2 (0 : Fin 1) (⟨x, h⟩ : Fin 1200128)) else 0#32
def edgeN (c : Dev nD) (d : Fin 64) (x : ℕ) : EReal := if h : x < 1200128 then V c main_v12 (ix2 d (⟨x, h⟩ : Fin 1200128)) else 0
def nodeN (c : Dev nD) (d : Fin 64) (x : ℕ) : EReal := if h : x < 100352 then V c main_v11 (ix2 d (⟨x, h⟩ : Fin 100352)) else 0

theorem srcB_N (c : Dev nD) (t : Fin cfg0.N) (e' : Fin 4096) :
    (iblk0 V c 0 t) (ix2 (0 : Fin 1) e') = srcN V c (4096 * (t.val / 98) + e'.val) := by
  have := tlt0 t
  have hb : 4096 * (t.val / 98) + e'.val < 1200128 := by omega
  rw [srcN, dif_pos hb]
  exact srcB_apply V c t e' ⟨_, hb⟩ rfl
theorem edgeB_N (c : Dev nD) (t : Fin cfg0.N) (d : Fin 64) (e' : Fin 4096) :
    (iblk0 V c 1 t) (ix2 d e') = edgeN V c d (4096 * (t.val / 98) + e'.val) := by
  have := tlt0 t
  have hb : 4096 * (t.val / 98) + e'.val < 1200128 := by omega
  rw [edgeN, dif_pos hb]
  exact edgeB_apply V c t d e' ⟨_, hb⟩ rfl
theorem nodeB_N (c : Dev nD) (t : Fin cfg0.N) (d : Fin 64) (n' : Fin 1024) :
    (iblk0 V c 2 t) (ix2 d n') = nodeN V c d (1024 * (t.val % 98) + n'.val) := by
  have hb : 1024 * (t.val % 98) + n'.val < 100352 := by omega
  rw [nodeN, dif_pos hb]
  exact nodeB_apply V c t d n' ⟨_, hb⟩ rfl

/-! ### The accumulator after each point -/

/-- At a point that resets, the accumulator ends at the update of the edge block. -/
theorem acc_reset0 (c : Dev nD) (t : Fin cfg0.N) (h0 : cond0_0 (grid0.coords t)) :
    (outsAt0 V c t.val t.isLt).2 = k0_pay2 (grid0.coords t) (iblk0 V c 0 t) (iblk0 V c 2 t) (k0_pay1 (iblk0 V c 1 t)) := by
  have h1 : ¬cond0_1 (grid0.coords t) := fun h1 => by
    have := (hcond0_0 t).mp h0; have := (hcond0_1 t).mp h1; omega
  rw [outsAt0_A V c t h0 h1]; dsimp only
  exact sout0_A_eq (F := Ideal) c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t)

/-- At any other point, at the update of what the point before left. -/
theorem acc_step0 (c : Dev nD) (t : Fin cfg0.N) (h0 : ¬cond0_0 (grid0.coords t)) :
    (outsAt0 V c t.val t.isLt).2 = k0_pay2 (grid0.coords t) (iblk0 V c 0 t) (iblk0 V c 2 t) (prev0 V c t.val t.isLt) := by
  by_cases h1 : cond0_1 (grid0.coords t)
  · rw [outsAt0_C V c t h0 h1]; dsimp only
    exact sout0_C_eq (F := Ideal) c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt)
  · rw [outsAt0_B V c t h0 h1]; dsimp only
    exact sout0_B_eq (F := Ideal) c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt)

/-- At a point that hands the accumulator out, the output's staging buffer ends at the accumulator's contents. -/
theorem out_last0 (c : Dev nD) (t : Fin cfg0.N) (h1 : cond0_1 (grid0.coords t)) :
    (outsAt0 V c t.val t.isLt).1 = (outsAt0 V c t.val t.isLt).2 := by
  have h0 : ¬cond0_0 (grid0.coords t) := fun h0 => by
    have := (hcond0_0 t).mp h0; have := (hcond0_1 t).mp h1; omega
  rw [outsAt0_C V c t h0 h1]; dsimp only
  exact (out0_C_eq (F := Ideal) c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt)).trans
    (sout0_C_eq (F := Ideal) c (grid0.coords t) (ms0_0 t) (hs0_0 t) (ms0_1 t) (hs0_1 t) (ms0_2 t) (hs0_2 t) (ms0_3 t) (hs0_3 t) scM0 (Memref.isWhole_whole _) h0 h1 (iblk0 V c 0 t) (iblk0 V c 1 t) (iblk0 V c 2 t) (prev0 V c t.val t.isLt)).symm

/-- One point's update of the accumulator, read at an index: the node block's selected rows are added. -/
theorem upd0 (c : Dev nD) (t : Fin cfg0.N) (acc : Vec Ideal S64x4096 .f32) (d : Fin 64) (e' : Fin 4096) :
    k0_pay2 (F := Ideal) (grid0.coords t) (iblk0 V c 0 t) (iblk0 V c 2 t) acc (ix2 d e')
      = acc (ix2 d e') + ∑ n' : Fin 1024, nodeN V c d (1024 * (t.val % 98) + n'.val)
          * hot (BitVec.ofNat 32 (1024 * (t.val % 98) + n'.val)) (srcN V c (4096 * (t.val / 98) + e'.val)) := by
  rw [pay2_0]
  congr 1
  refine Finset.sum_congr rfl fun n' _ => ?_
  rw [nodeB_N, srcB_N, coord0_1, Nat.mul_comm (t.val % 98) 1024]

/-! ### The closed form of the accumulation -/

theorem upd0n (c : Dev nD) (n : ℕ) (hn : n < cfg0.N) (acc : Vec Ideal S64x4096 .f32) (d : Fin 64) (e' : Fin 4096) :
    k0_pay2 (F := Ideal) (grid0.coords ⟨n, hn⟩) (iblk0 V c 0 ⟨n, hn⟩) (iblk0 V c 2 ⟨n, hn⟩) acc (ix2 d e')
      = acc (ix2 d e') + ∑ n' : Fin 1024, nodeN V c d (1024 * (n % 98) + n'.val)
          * hot (BitVec.ofNat 32 (1024 * (n % 98) + n'.val)) (srcN V c (4096 * (n / 98) + e'.val)) :=
  upd0 V c ⟨n, hn⟩ acc d e'

/-- THE ACCUMULATION, in closed form: after point `n` the accumulator holds, at feature `d` and column `e'` of the point's
    edge block, the edge feature plus the selected node rows of the node blocks met so far in this edge block. -/
theorem acc_closed0 (c : Dev nD) : ∀ (n : ℕ) (hn : n < cfg0.N) (d : Fin 64) (e' : Fin 4096),
    (outsAt0 V c n hn).2 (ix2 d e')
      = edgeN V c d (4096 * (n / 98) + e'.val)
        + ∑ k' ∈ Finset.range (n % 98 + 1), ∑ n' : Fin 1024,
            nodeN V c d (1024 * k' + n'.val) * hot (BitVec.ofNat 32 (1024 * k' + n'.val)) (srcN V c (4096 * (n / 98) + e'.val)) := by
  intro n
  induction n with
  | zero =>
    intro hn d e'
    have h0 : cond0_0 (grid0.coords ⟨0, hn⟩) := (hcond0_0 ⟨0, hn⟩).mpr (Nat.zero_mod 98)
    rw [show (outsAt0 V c 0 hn).2 = _ from acc_reset0 V c ⟨0, hn⟩ h0, upd0n, pay1_0,
      show (iblk0 V c 1 ⟨0, hn⟩) (ix2 d e') = _ from edgeB_N V c ⟨0, hn⟩ d e']
    rw [show 0 % 98 + 1 = 1 from rfl, Finset.sum_range_one]
  | succ n ih =>
    intro hn d e'
    have hlt := tlt0 ⟨n + 1, hn⟩
    by_cases h0 : cond0_0 (grid0.coords ⟨n + 1, hn⟩)
    · have hk : (n + 1) % 98 = 0 := (hcond0_0 ⟨n + 1, hn⟩).mp h0
      rw [show (outsAt0 V c (n + 1) hn).2 = _ from acc_reset0 V c ⟨n + 1, hn⟩ h0, upd0n, pay1_0,
        show (iblk0 V c 1 ⟨n + 1, hn⟩) (ix2 d e') = _ from edgeB_N V c ⟨n + 1, hn⟩ d e']
      show edgeN V c d (4096 * ((n + 1) / 98) + e'.val) + _ = _
      rw [hk, Nat.zero_add, Finset.sum_range_one]
    · have hk : (n + 1) % 98 ≠ 0 := fun h => h0 ((hcond0_0 ⟨n + 1, hn⟩).mpr h)
      have hq : (n + 1) / 98 = n / 98 := by omega
      have hr : (n + 1) % 98 = n % 98 + 1 := by omega
      rw [show (outsAt0 V c (n + 1) hn).2 = _ from acc_step0 V c ⟨n + 1, hn⟩ h0, upd0n,
        show prev0 V c (n + 1) hn = (outsAt0 V c n (Nat.lt_of_succ_lt hn)).2 from rfl, ih _ d e', hq, hr,
        Finset.sum_range_succ _ (n % 98 + 1), add_assoc]

/-! ### What the flushing points write back, the cover, the final array -/

/-- Where an element of the output block at point `t` sits in the message array. -/
theorem outB_emb (c : Dev nD) (t : Fin cfg0.N) (d : Fin 64) (e' : Fin 4096) (E : Fin 1200128) (hE : E.val = 4096 * (t.val / 98) + e'.val) :
    ((cfg0.win 3).blk t).view.emb (ix2 d e') = ix2 d E := by
  funext a; apply Fin.ext
  have hi := idx0_3 t
  have h0 : win0_3.index t (0 : Fin 2) = 0 := by rw [hi]; rfl
  have h1 : win0_3.index t (1 : Fin 2) = t.val / 98 % 293 := by rw [hi]; rfl
  have := tlt0 t
  match a with
  | ⟨0, _⟩ => show win0_3.index t (0 : Fin 2) * 64 + 1 * d.val = d.val; omega
  | ⟨1, _⟩ => show win0_3.index t (1 : Fin 2) * 4096 + 1 * e'.val = E.val; omega

/-- At a point that hands the accumulator out, its contents are the messages of the point's edge block. -/
theorem acc_last0 (c : Dev nD) (t : Fin cfg0.N) (hk : t.val % 98 = 97) (d : Fin 64) (e' : Fin 4096) (E : Fin 1200128)
    (hE : E.val = 4096 * (t.val / 98) + e'.val) :
    (outsAt0 V c t.val t.isLt).2 (ix2 d e') = msgAt (V c main_v13) (V c main_v12) (V c main_v11) d E := by
  have h := acc_closed0 V c t.val t.isLt d e'
  rw [hk, ← hE, show (97 : ℕ) + 1 = 98 from rfl] at h
  have hs := Cert.SumBlocks.sum_blocks_node (fun x => nodeN V c d x * hot (BitVec.ofNat 32 x) (srcN V c E.val))
  beta_reduce at hs
  have e1 : edgeN V c d E.val = V c main_v12 (ix2 d E) := by rw [edgeN, dif_pos E.isLt]
  have e2 : srcN V c E.val = V c main_v13 (ix2 (0 : Fin 1) E) := by rw [srcN, dif_pos E.isLt]
  have e3 : ∀ n : Fin 100352, nodeN V c d n.val = V c main_v11 (ix2 d n) := fun n => by rw [nodeN, dif_pos n.isLt]
  rw [h, hs, e1, e2]
  simp only [e3, msgAt]

/-- The message array: stage one of the program over the arrays the region finds. -/
abbrev M0 (c : Dev nD) : FVec Ideal S64x1200128 .f32 := msgT (V c main_v13) (V c main_v12) (V c main_v11)

theorem flush_pt0 (c : Dev nD) (t : Fin cfg0.N) (hk : t.val % 98 = 97) (y : S64x4096.Idx) :
    (outsAt0 V c t.val t.isLt).2 y = M0 V c (((cfg0.win 3).blk t).view.emb y) := by
  obtain ⟨d, e', rfl⟩ : ∃ (d : Fin 64) (e' : Fin 4096), y = ix2 d e' := ⟨y 0, y 1, eq_ix2 y⟩
  have := tlt0 t
  have hb : 4096 * (t.val / 98) + e'.val < 1200128 := by omega
  rw [outB_emb c t d e' ⟨_, hb⟩ rfl, acc_last0 V c t hk d e' ⟨_, hb⟩ rfl]
  rfl

/-- WHAT A FLUSHING POINT WRITES BACK is its block of the message array. -/
theorem flushed0_eq (c : Dev nD) (t : Fin cfg0.N) (hf : (cfg0.win 3).flush t = true) :
    (dat0 V c).flushed 3 t = ((cfg0.win 3).blk t).view.read (Elt Ideal) (M0 V c) := by
  have hk : t.val % 98 = 97 := (flushOut0 t).mp hf
  have h1 : cond0_1 (grid0.coords t) := (hcond0_1 t).mpr hk
  show (cfg0.win 3).cut (grid0.coords t) ((dat0 V c).after 3 t) = _
  rw [after0_3, out_last0 V c t h1]
  funext j
  exact flush_pt0 V c t hk j

theorem mem_blk0 (t : Fin cfg0.N) (i : S64x1200128.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v15).slice (win0_3.rect t)).set ↔ _
  rw [View.set_slice_whole, Rect.mem_set_unit]
  exact Iff.rfl

/-- Every element of the message array is in the block of the flushing point of its edge block. -/
theorem cover0 (i : S64x1200128.Idx) : ∃ t : Fin cfg0.N, (cfg0.win 3).flush t = true ∧ i ∈ ((cfg0.win 3).blk t).view.set := by
  have hi0 : (i 0).val < 64 := (i 0).isLt
  have hi1 : (i 1).val < 1200128 := (i 1).isLt
  have hN : cfg0.N = 28714 := N_0
  let t : Fin cfg0.N := ⟨98 * ((i 1).val / 4096) + 97, by rw [hN]; omega⟩
  have htv : t.val = 98 * ((i 1).val / 4096) + 97 := rfl
  refine ⟨t, (flushOut0 t).mpr (by rw [htv]; omega), ?_⟩
  rw [mem_blk0]
  have hi := idx0_3 t
  have h0 : win0_3.index t (0 : Fin 2) = 0 := by rw [hi]; rfl
  have h1 : win0_3.index t (1 : Fin 2) = t.val / 98 % 293 := by rw [hi]; rfl
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 4096 ≤ (i 1).val ∧ (i 1).val < win0_3.index t (1 : Fin 2) * 4096 + 4096; omega

/-- THE MESSAGE ARRAY after region 0. -/
theorem final0 (c : Dev nD) : (dat0 V c).arrAt 3 cfg0.N = M0 V c :=
  (dat0 V c).arrAt_eq_of_cover 3 (M0 V c) (fun t ht => flushed0_eq V c t ht) cover0

end Value0

end Cert.KernelIdeal.Gen

end
-- ==== Proof.Val1.lean ====
/-
  THE VALUE OF KERNEL REGION 1 at the ideal values: after the scatter kernel's grid has run, the output array holds,
  at node row n and output feature d', the two-layer perceptron of the sums over ALL edges of the messages whose
  destination word is n.
-/
import proofs.«425251_j55370718380132_2_alg».proof.Proof.KernelIdealReg1
import proofs.«425251_j55370718380132_2_alg».proof.Proof.PayIdx
import proofs.«425251_j55370718380132_2_alg».proof.Proof.Mid
import proofs.«425251_j55370718380132_2_alg».proof.Proof.SumBlocks
import Idealize.ShloMosaic.Lib.Pipeline.Value

set_option maxRecDepth 16384

noncomputable section

open scoped BigOperators

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Mid Cert.KernelIdeal.PayIdx

/-- The all-zero offset of a rank-2 rectangle, and of a rank-1 one. -/
theorem hz1R2 : (![0, 0] : Fin 2 → Nat) = fun _ => 0 := funext fun a => by fin_cases a <;> rfl
theorem hz1R1 : (![0] : Fin 1 → Nat) = fun _ => 0 := funext fun a => by fin_cases a; rfl

section Pieces
variable {F : FTy → Type} [FloatOps F]

/-! ## What each way through region 1's body leaves, as the body's payloads of what it loaded -/

/-- The resetting way leaves in the accumulator the step's payload of the zero accumulator. -/
theorem sout1_A_eq (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) :
    sout1_A (F := F) c i arg2 harg2 arg3 harg3 arg4 harg4 arg5 harg5 arg6 harg6 arg7 harg7 arg8 harg8 arg9 harg9 hc0 hc1 x0 x1 x2 x3 x4 x5 = k1_pay2 i x0 x1 (k1_pay1 (F := F)) := by
  unfold sout1_A
  rw [View.read_writes_eq_canon _ _ _ (scover1_A c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S64x1024) hz1R2, View.readCov_unit_zero (S := S64x1024) _ hz1R2]
  simp only [View.readAt_eq_ld, harg2.read_unread, harg3.read_unread,
    View.ld_unit_zero (S := S1x4096) hz1R2, View.ld_unit_zero (S := S64x4096) hz1R2]

/-- A middle way leaves in the accumulator the step's payload of the accumulator it found. -/
theorem sout1_B_eq (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : ¬cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) :
    sout1_B (F := F) c i arg2 harg2 arg3 harg3 arg4 harg4 arg5 harg5 arg6 harg6 arg7 harg7 arg8 harg8 arg9 harg9 hc0 hc1 x0 x1 x2 x3 x4 x5 xs0 = k1_pay2 i x0 x1 xs0 := by
  unfold sout1_B
  rw [View.read_writes_eq_canon _ _ _ (scover1_B c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero (S := S64x1024) hz1R2]
  simp only [View.readAt_eq_ld, harg2.read_unread, harg3.read_unread, harg9.read_unread,
    View.ld_unit_zero (S := S1x4096) hz1R2, View.ld_unit_zero (S := S64x4096) hz1R2, View.ld_unit_zero (S := S64x1024) hz1R2]

/-- The handing-out way leaves in the accumulator the same. -/
theorem sout1_C_eq (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) :
    sout1_C (F := F) c i arg2 harg2 arg3 harg3 arg4 harg4 arg5 harg5 arg6 harg6 arg7 harg7 arg8 harg8 arg9 harg9 hc0 hc1 x0 x1 x2 x3 x4 x5 xs0 = k1_pay2 i x0 x1 xs0 := by
  unfold sout1_C
  rw [View.read_writes_eq_canon _ _ _ (scover1_C c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S64x1024) hz1R2]
  simp only [View.readAt_eq_ld, harg2.read_unread, harg3.read_unread, harg9.read_unread,
    View.ld_unit_zero (S := S1x4096) hz1R2, View.ld_unit_zero (S := S64x4096) hz1R2, View.ld_unit_zero (S := S64x1024) hz1R2]

/-- The handing-out way leaves in the output's staging buffer the perceptron's payload of that accumulator. -/
theorem out1_C_eq (c : Dev nD) (i : grid1.Coords) (arg2 : Memref sig .tc .vmem S1x4096 .i32) (harg2 : arg2.IsWhole) (arg3 : Memref sig .tc .vmem S64x4096 .f32) (harg3 : arg3.IsWhole) (arg4 : Memref sig .tc .vmem S64x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S64x1024 .f32) (harg9 : arg9.IsWhole) (hc0 : ¬cond1_0 i) (hc1 : cond1_1 i)
    (x0 : Vec F S1x4096 .i32) (x1 : Vec F S64x4096 .f32) (x2 : Vec F S64x128 .f32) (x3 : Vec F S128 .f32) (x4 : Vec F S128x64 .f32) (x5 : Vec F S64 .f32) (xs0 : Vec F S64x1024 .f32) :
    out1_C (F := F) c i arg2 harg2 arg3 harg3 arg4 harg4 arg5 harg5 arg6 harg6 arg7 harg7 arg8 harg8 arg9 harg9 hc0 hc1 x0 x1 x2 x3 x4 x5 xs0 = k1_pay3 (k1_pay2 i x0 x1 xs0) x2 x3 x4 x5 := by
  unfold out1_C
  rw [View.read_writes_eq_canon _ _ _ (cover1_C c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S1024x64) hz1R2, View.readCov_unit_zero (S := S64x1024) _ hz1R2]
  simp only [View.readAt_eq_ld, harg2.read_unread, harg3.read_unread, harg4.read_unread, harg5.read_unread,
    harg6.read_unread, harg7.read_unread, harg9.read_unread,
    View.ld_unit_zero (S := S1x4096) hz1R2, View.ld_unit_zero (S := S64x4096) hz1R2,
    View.ld_unit_zero (S := S64x1024) hz1R2, View.ld_unit_zero (S := S64x128) hz1R2,
    View.ld_unit_zero (S := S128x64) hz1R2, View.ld_unit_zero (S := S128) hz1R1, View.ld_unit_zero (S := S64) hz1R1]

end Pieces

section Value
variable (V : (c : Dev nD) → (b : Ref sig .tc) → Buf (Elt Ideal) ((c : Thread nD τ).loc b))

/-! ## The blocks the windows read, by coordinates -/

/-- The destination row at a natural-number column (the zero word past the end). -/
def dstN (c : Dev nD) (x : ℕ) : BitVec 32 :=
  if h : x < 1200128 then (V c main_v14 : IVec RowP 32) (ix2 (0 : Fin 1) ⟨x, h⟩) else 0
/-- The message array at feature `d` and a natural-number column (zero past the end). -/
def msgN (c : Dev nD) (d : Fin 64) (x : ℕ) : EReal :=
  if h : x < 1200128 then (V c main_v15 : FVec Ideal EdgeT .f32) (ix2 d ⟨x, h⟩) else 0

/-- A point's number is below the grid's 98 * 293 points. -/
theorem t_lt1 (t : Fin cfg1.N) : t.val < 28714 := lt_of_lt_of_eq t.isLt N_1

/-- A number below 2 ^ 32 is its word's value. -/
theorem word_toNat (x : ℕ) (h : x < 4294967296) : (BitVec.ofNat 32 x).toNat = x := by
  rw [BitVec.toNat_ofNat]; exact Nat.mod_eq_of_lt h

/-- The first coordinate of point `t` is `t / 293`. -/
theorem coord1_0_val (t : Fin cfg1.N) : ((grid1.coords t) 0).val = t.val / 293 := by
  rw [coord1_0]; have := t_lt1 t; omega

/-- Window 0's block at point `t`, column `e`: the destination row at column `4096 * (t % 293) + e`. -/
theorem dstB_apply (c : Dev nD) (t : Fin cfg1.N) (e : Fin 4096) :
    (iblk1 V c 0 t : Vec Ideal S1x4096 .i32) (ix2 (0 : Fin 1) e) = dstN V c (4096 * (t.val % 293) + e.val) := by
  have ht := t_lt1 t
  have hlt : 4096 * (t.val % 293) + e.val < 1200128 := by have := e.isLt; omega
  unfold dstN; rw [dif_pos hlt]
  show V c main_v14 (((cfg1.win 0).blk t).view.emb (ix2 (0 : Fin 1) e)) = _
  refine congrArg (V c main_v14) ?_
  funext a; apply Fin.ext
  match a with
  | ⟨0, _⟩ => rfl
  | ⟨1, _⟩ =>
    show (BitVec.ofNat 32 ((grid1.coords t) 1).val).toNat * 4096 + 1 * e.val = 4096 * (t.val % 293) + e.val
    rw [coord1_1, word_toNat _ (by omega)]; omega

/-- Window 1's block at point `t`, feature `d`, column `e`: the messages at column `4096 * (t % 293) + e`. -/
theorem msgB_apply (c : Dev nD) (t : Fin cfg1.N) (d : Fin 64) (e : Fin 4096) :
    (iblk1 V c 1 t : Vec Ideal S64x4096 .f32) (ix2 d e) = msgN V c d (4096 * (t.val % 293) + e.val) := by
  have ht := t_lt1 t
  have hlt : 4096 * (t.val % 293) + e.val < 1200128 := by have := e.isLt; omega
  unfold msgN; rw [dif_pos hlt]
  show V c main_v15 (((cfg1.win 1).blk t).view.emb (ix2 d e)) = _
  refine congrArg (V c main_v15) ?_
  funext a; apply Fin.ext
  match a with
  | ⟨0, _⟩ =>
    show (0#32 : BitVec 32).toNat * 64 + 1 * d.val = d.val
    rw [show (0#32 : BitVec 32).toNat = 0 from rfl]; omega
  | ⟨1, _⟩ =>
    show (BitVec.ofNat 32 ((grid1.coords t) 1).val).toNat * 4096 + 1 * e.val = 4096 * (t.val % 293) + e.val
    rw [coord1_1, word_toNat _ (by omega)]; omega

/-- Windows 2 to 5 read whole arrays: the weights and biases. -/
theorem w1B_eq (c : Dev nD) (t : Fin cfg1.N) : (iblk1 V c 2 t : Vec Ideal S64x128 .f32) = V c main_arg3 := by
  funext y
  show V c main_arg3 (((cfg1.win 2).blk t).view.emb y) = V c main_arg3 y
  refine congrArg (V c main_arg3) ?_
  funext a; apply Fin.ext
  match a with
  | ⟨0, _⟩ =>
    show (0#32 : BitVec 32).toNat * 64 + 1 * (y 0).val = (y 0).val
    rw [show (0#32 : BitVec 32).toNat = 0 from rfl]; omega
  | ⟨1, _⟩ =>
    show (0#32 : BitVec 32).toNat * 128 + 1 * (y 1).val = (y 1).val
    rw [show (0#32 : BitVec 32).toNat = 0 from rfl]; omega
theorem b1B_eq (c : Dev nD) (t : Fin cfg1.N) : (iblk1 V c 3 t : Vec Ideal S128 .f32) = V c main_arg4 := by
  funext y
  show V c main_arg4 (((cfg1.win 3).blk t).view.emb y) = V c main_arg4 y
  refine congrArg (V c main_arg4) ?_
  funext a; apply Fin.ext
  match a with
  | ⟨0, _⟩ =>
    show (0#32 : BitVec 32).toNat * 128 + 1 * (y 0).val = (y 0).val
    rw [show (0#32 : BitVec 32).toNat = 0 from rfl]; omega
theorem w2B_eq (c : Dev nD) (t : Fin cfg1.N) : (iblk1 V c 4 t : Vec Ideal S128x64 .f32) = V c main_arg5 := by
  funext y
  show V c main_arg5 (((cfg1.win 4).blk t).view.emb y) = V c main_arg5 y
  refine congrArg (V c main_arg5) ?_
  funext a; apply Fin.ext
  match a with
  | ⟨0, _⟩ =>
    show (0#32 : BitVec 32).toNat * 128 + 1 * (y 0).val = (y 0).val
    rw [show (0#32 : BitVec 32).toNat = 0 from rfl]; omega
  | ⟨1, _⟩ =>
    show (0#32 : BitVec 32).toNat * 64 + 1 * (y 1).val = (y 1).val
    rw [show (0#32 : BitVec 32).toNat = 0 from rfl]; omega
theorem b2B_eq (c : Dev nD) (t : Fin cfg1.N) : (iblk1 V c 5 t : Vec Ideal S64 .f32) = V c main_arg6 := by
  funext y
  show V c main_arg6 (((cfg1.win 5).blk t).view.emb y) = V c main_arg6 y
  refine congrArg (V c main_arg6) ?_
  funext a; apply Fin.ext
  match a with
  | ⟨0, _⟩ =>
    show (0#32 : BitVec 32).toNat * 64 + 1 * (y 0).val = (y 0).val
    rw [show (0#32 : BitVec 32).toNat = 0 from rfl]; omega

/-! ## One step, and the accumulation over an output block's points -/

/-- The body's step at point `t` over an accumulator `acc`, at (d, n'): `acc` there plus the block's columns' messages
    whose destination word is the number of row `n'` of node block `t / 293`. -/
theorem step1_apply (c : Dev nD) (t : Fin cfg1.N) (acc : Vec Ideal S64x1024 .f32) (d : Fin 64) (n' : Fin 1024) :
    k1_pay2 (F := Ideal) (grid1.coords t) (iblk1 V c 0 t) (iblk1 V c 1 t) acc (ix2 d n')
      = acc (ix2 d n') + ∑ e' : Fin 4096, msgN V c d (4096 * (t.val % 293) + e'.val)
          * hot (BitVec.ofNat 32 (t.val / 293 * 1024 + n'.val)) (dstN V c (4096 * (t.val % 293) + e'.val)) := by
  rw [pay2_1, coord1_0_val]
  refine congrArg (acc (ix2 d n') + ·) (Finset.sum_congr rfl fun e' _ => ?_)
  rw [msgB_apply, dstB_apply]

/-- The sum over the first `K` edge blocks of the messages at feature `d` whose destination word is the number of row
    `n'` of node block `m`. -/
def accN (c : Dev nD) (m K : ℕ) (d : Fin 64) (n' : Fin 1024) : EReal :=
  ∑ k' ∈ Finset.range K, ∑ e' : Fin 4096, msgN V c d (4096 * k' + e'.val)
    * hot (BitVec.ofNat 32 (m * 1024 + n'.val)) (dstN V c (4096 * k' + e'.val))

/-- At the first point of an output block the accumulator is the step over the zero accumulator. -/
theorem snd_first (c : Dev nD) (t : Fin cfg1.N) (hk : t.val % 293 = 0) :
    (outsAt1 V c t.val t.isLt).2 = k1_pay2 (grid1.coords t) (iblk1 V c 0 t) (iblk1 V c 1 t) (k1_pay1 (F := Ideal)) := by
  have h0 : cond1_0 (grid1.coords t) := (hcond1_0 t).mpr hk
  have h1 : ¬cond1_1 (grid1.coords t) := fun hc => by have := (hcond1_1 t).mp hc; omega
  rw [outsAt1_A V c t h0 h1, sout1_A_eq (F := Ideal)]

/-- At every later point it is the step over what the point before left. -/
theorem snd_later (c : Dev nD) (t : Fin cfg1.N) (hk : t.val % 293 ≠ 0) :
    (outsAt1 V c t.val t.isLt).2
      = k1_pay2 (grid1.coords t) (iblk1 V c 0 t) (iblk1 V c 1 t) (prev1 V c t.val t.isLt) := by
  have h0 : ¬cond1_0 (grid1.coords t) := fun h => hk ((hcond1_0 t).mp h)
  by_cases h1 : cond1_1 (grid1.coords t)
  · rw [outsAt1_C V c t h0 h1, sout1_C_eq (F := Ideal)]
  · rw [outsAt1_B V c t h0 h1, sout1_B_eq (F := Ideal)]

/-- The accumulator after the first point of an output block: the first edge block's sum. -/
theorem acc_first (c : Dev nD) (t : Fin cfg1.N) (hk : t.val % 293 = 0) (d : Fin 64) (n' : Fin 1024) :
    (outsAt1 V c t.val t.isLt).2 (ix2 d n') = accN V c (t.val / 293) 1 d n' := by
  rw [snd_first V c t hk, step1_apply, pay1_1, zero_add, hk]
  unfold accN
  rw [Finset.sum_range_one]

/-- The accumulator after a later point: what the point before left plus this point's edge block's sum. -/
theorem acc_later (c : Dev nD) (t : Fin cfg1.N) (hk : t.val % 293 ≠ 0) (d : Fin 64) (n' : Fin 1024) :
    (outsAt1 V c t.val t.isLt).2 (ix2 d n')
      = prev1 V c t.val t.isLt (ix2 d n') + ∑ e' : Fin 4096, msgN V c d (4096 * (t.val % 293) + e'.val)
          * hot (BitVec.ofNat 32 (t.val / 293 * 1024 + n'.val)) (dstN V c (4096 * (t.val % 293) + e'.val)) := by
  rw [snd_later V c t hk, step1_apply]

/-- THE ACCUMULATOR after point `n`: the sum over the edge blocks up to `n`'s own. -/
theorem acc_eq (c : Dev nD) : ∀ (n : ℕ) (hn : n < cfg1.N) (d : Fin 64) (n' : Fin 1024),
    (outsAt1 V c n hn).2 (ix2 d n') = accN V c (n / 293) (n % 293 + 1) d n' := by
  intro n
  induction n with
  | zero =>
    intro hn d n'
    exact acc_first V c ⟨0, hn⟩ rfl d n'
  | succ m ih =>
    intro hn d n'
    have hm : m < cfg1.N := Nat.lt_of_succ_lt hn
    by_cases hk : (m + 1) % 293 = 0
    · have h := acc_first V c ⟨m + 1, hn⟩ hk d n'
      rw [hk]; exact h
    · have e1 : (m + 1) / 293 = m / 293 := by omega
      have e2 : (m + 1) % 293 = m % 293 + 1 := by omega
      have h := acc_later V c ⟨m + 1, hn⟩ hk d n'
      have h' : (outsAt1 V c (m + 1) hn).2 (ix2 d n')
          = (outsAt1 V c m hm).2 (ix2 d n') + ∑ e' : Fin 4096, msgN V c d (4096 * ((m + 1) % 293) + e'.val)
            * hot (BitVec.ofNat 32 ((m + 1) / 293 * 1024 + n'.val)) (dstN V c (4096 * ((m + 1) % 293) + e'.val)) := h
      rw [h', ih hm d n', e1, e2]
      unfold accN
      rw [Finset.sum_range_succ (n := m % 293 + 1)]

/-! ## The last point of an output block: all edges summed, the perceptron applied -/

/-- Over all 293 edge blocks the accumulated sum is the sum over every edge: the aggregate of node row
    `m * 1024 + n'`. -/
theorem accN_full (c : Dev nD) (m : ℕ) (hm : m < 98) (d : Fin 64) (n' : Fin 1024) :
    accN V c m 293 d n'
      = aggAt (V c main_v14) (V c main_v15) d ⟨m * 1024 + n'.val, by have := n'.isLt; omega⟩ := by
  unfold accN aggAt
  rw [Cert.SumBlocks.sum_blocks_edge
    (fun x => msgN V c d x * hot (BitVec.ofNat 32 (m * 1024 + n'.val)) (dstN V c x))]
  refine Finset.sum_congr rfl fun E _ => ?_
  show msgN V c d E.val * hot (BitVec.ofNat 32 (m * 1024 + n'.val)) (dstN V c E.val) = _
  unfold msgN dstN
  rw [dif_pos E.isLt, dif_pos E.isLt]

/-- What the last point of an output block leaves in the output's staging buffer, at row `n'` and feature `d'`: the
    perceptron of the aggregates of node row `(t / 293) * 1024 + n'`. -/
theorem out_last_apply (c : Dev nD) (t : Fin cfg1.N) (hk : t.val % 293 = 292) (n' : Fin 1024) (d' : Fin 64) :
    (outsAt1 V c t.val t.isLt).1 (ix2 n' d')
      = outAt (V c main_v14) (V c main_v15) (V c main_arg3) (V c main_arg4) (V c main_arg5) (V c main_arg6)
          ⟨t.val / 293 * 1024 + n'.val, by have := t_lt1 t; have := n'.isLt; omega⟩ d' := by
  have h0 : ¬cond1_0 (grid1.coords t) := fun h => by have := (hcond1_0 t).mp h; omega
  have h1 : cond1_1 (grid1.coords t) := (hcond1_1 t).mpr hk
  have hfst : (outsAt1 V c t.val t.isLt).1
      = k1_pay3 (k1_pay2 (grid1.coords t) (iblk1 V c 0 t) (iblk1 V c 1 t) (prev1 V c t.val t.isLt))
          (iblk1 V c 2 t) (iblk1 V c 3 t) (iblk1 V c 4 t) (iblk1 V c 5 t) := by
    rw [outsAt1_C V c t h0 h1, out1_C_eq (F := Ideal)]
  have hacc : ∀ d : Fin 64,
      k1_pay2 (F := Ideal) (grid1.coords t) (iblk1 V c 0 t) (iblk1 V c 1 t) (prev1 V c t.val t.isLt) (ix2 d n')
        = aggAt (V c main_v14) (V c main_v15) d
            ⟨t.val / 293 * 1024 + n'.val, by have := t_lt1 t; have := n'.isLt; omega⟩ := fun d => by
    rw [← snd_later V c t (by omega), acc_eq V c t.val t.isLt d n', hk]
    exact accN_full V c (t.val / 293) (by have := t_lt1 t; omega) d n'
  rw [hfst, pay3_1, w1B_eq, b1B_eq, w2B_eq, b2B_eq]
  unfold outAt
  simp only [hacc]

/-! ## What the flushing points write back, and the array they fill -/

/-- The output window's block index at point `t`: node block `t / 293`, column block 0. -/
theorem idx6_0 (t : Fin cfg1.N) : win1_6.index t (0 : Fin 2) = t.val / 293 := by
  show (BitVec.ofNat 32 ((grid1.coords t) 0).val).toNat = _
  rw [coord1_0_val, word_toNat _ (by have := t_lt1 t; omega)]
theorem idx6_1 (t : Fin cfg1.N) : win1_6.index t (1 : Fin 2) = 0 := rfl

/-- Where an element of point `t`'s output block sits in the output array: row `(t / 293) * 1024 + n'`, column `d'`. -/
theorem emb6 (t : Fin cfg1.N) (n' : Fin 1024) (d' : Fin 64) :
    ((cfg1.win 6).blk t).view.emb (ix2 n' d')
      = (ix2 (⟨t.val / 293 * 1024 + n'.val, by have := t_lt1 t; have := n'.isLt; omega⟩ : Fin 100352) d' : OutP.Idx) := by
  funext a; apply Fin.ext
  match a with
  | ⟨0, _⟩ =>
    show win1_6.index t (0 : Fin 2) * 1024 + 1 * n'.val = t.val / 293 * 1024 + n'.val
    rw [idx6_0]; omega
  | ⟨1, _⟩ =>
    show win1_6.index t (1 : Fin 2) * 64 + 1 * d'.val = d'.val
    rw [idx6_1]; omega

/-- Staging contents `X` written back at point `t` are block `t` of an array `G`, once `X` at (n', d') is `G` at the
    element's place in the array. -/
theorem cut6_eq_read (t : Fin cfg1.N) (X : S1024x64.Idx → EReal) (G : OutP.Idx → EReal)
    (h : ∀ (n' : Fin 1024) (d' : Fin 64), X (ix2 n' d')
      = G (ix2 (⟨t.val / 293 * 1024 + n'.val, by have := t_lt1 t; have := n'.isLt; omega⟩ : Fin 100352) d')) :
    (cfg1.win 6).cut (grid1.coords t) X = ((cfg1.win 6).blk t).view.read (Elt Ideal) G := by
  funext y
  show X y = G (((cfg1.win 6).blk t).view.emb y)
  obtain ⟨n', d', rfl⟩ : ∃ (n' : Fin 1024) (d' : Fin 64), y = ix2 n' d' := ⟨y 0, y 1, eq_ix2 y⟩
  rw [emb6, h]

/-- WHAT A FLUSHING POINT WRITES BACK is its block of the whole-array function. -/
theorem flushed6_eq (c : Dev nD) (t : Fin cfg1.N) (hf : (cfg1.win 6).flush t = true) :
    (dat1 V c).flushed 6 t = ((cfg1.win 6).blk t).view.read (Elt Ideal)
      (outP (V c main_v14) (V c main_v15) (V c main_arg3) (V c main_arg4) (V c main_arg5) (V c main_arg6)) := by
  have hk : t.val % 293 = 292 := (flushOut1 t).mp hf
  show (cfg1.win 6).cut (grid1.coords t) ((dat1 V c).after 6 t) = _
  rw [after1_6]
  exact cut6_eq_read t _ _ fun n' d' => (out_last_apply V c t hk n' d').trans (outP_ix2 _ _ _ _ _ _ _ _).symm

/-- An index of the output array is in point `t`'s block iff each coordinate is in the block's range on its axis. -/
theorem mem_blk6 (t : Fin cfg1.N) (i : S100352x64.Idx) :
    i ∈ ((cfg1.win 6).blk t).view.set ↔ ∀ a : Fin 2, win1_6.index t a * S1024x64.size a ≤ (i a).val
      ∧ (i a).val < win1_6.index t a * S1024x64.size a + S1024x64.size a := by
  show i ∈ ((View.whole main_v16).slice (win1_6.rect t)).set ↔ _
  rw [View.set_slice_whole, Rect.mem_set_unit]
  exact Iff.rfl

/-- Every index of the output array is in the block of a flushing point: the last point of its node block. -/
theorem cover6 (i : S100352x64.Idx) :
    ∃ t : Fin cfg1.N, (cfg1.win 6).flush t = true ∧ i ∈ ((cfg1.win 6).blk t).view.set := by
  have hi0 : (i 0).val < 100352 := (i 0).isLt
  have hi1 : (i 1).val < 64 := (i 1).isLt
  have hN : cfg1.N = 28714 := N_1
  have hlt : 293 * ((i 0).val / 1024) + 292 < cfg1.N := by rw [hN]; omega
  refine ⟨⟨293 * ((i 0).val / 1024) + 292, hlt⟩, (flushOut1 _).mpr ?_, ?_⟩
  · show (293 * ((i 0).val / 1024) + 292) % 293 = 292
    omega
  · rw [mem_blk6]
    intro a
    match a with
    | ⟨0, _⟩ =>
      show win1_6.index ⟨293 * ((i 0).val / 1024) + 292, hlt⟩ (0 : Fin 2) * 1024 ≤ (i 0).val
        ∧ (i 0).val < win1_6.index ⟨293 * ((i 0).val / 1024) + 292, hlt⟩ (0 : Fin 2) * 1024 + 1024
      rw [idx6_0]
      show (293 * ((i 0).val / 1024) + 292) / 293 * 1024 ≤ (i 0).val
        ∧ (i 0).val < (293 * ((i 0).val / 1024) + 292) / 293 * 1024 + 1024
      omega
    | ⟨1, _⟩ =>
      show win1_6.index ⟨293 * ((i 0).val / 1024) + 292, hlt⟩ (1 : Fin 2) * 64 ≤ (i 1).val
        ∧ (i 1).val < win1_6.index ⟨293 * ((i 0).val / 1024) + 292, hlt⟩ (1 : Fin 2) * 64 + 64
      rw [idx6_1]; omega

/-- THE OUTPUT ARRAY after the region: at node row `n` and feature `d'`, the perceptron of the aggregates of `n`. -/
theorem final1 (c : Dev nD) : (dat1 V c).arrAt 6 cfg1.N
    = Cert.Mid.outP (V c main_v14) (V c main_v15) (V c main_arg3) (V c main_arg4) (V c main_arg5) (V c main_arg6) :=
  (dat1 V c).arrAt_eq_of_cover 6 _ (fun t ht => flushed6_eq V c t ht) cover6

end Value

end Cert.KernelIdeal.Gen

end
-- ==== Proof.HostVal.lean ====
/-
  What the host operations of the program leave in the buffers the two kernels read, and what the
  closing slice leaves, each read at one index.

  The index array [2, 1200000] is cut into its two rows; each row is flattened, extended by 128
  copies of the word 100351 and viewed as [1, 1200128]. The edge features [1200000, 64] are extended
  by 128 zero rows and transposed to [64, 1200128]; the node features [100000, 64] by 352 zero rows,
  transposed to [64, 100352]. The result [100000, 64] is the leading rows of a [100352, 64] array.
-/
import proofs.«425251_j55370718380132_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostVal

open Cert.KernelIdeal Cert.KernelIdeal.Gen Idealize.ShloMosaic Idealize.ShloMosaic.ValueIdx
open Idealize.ShloMosaic.TcCoe

/-! ## The composed layout terms, read at an index (any element type) -/

section Pure
variable {α : Type}

/-- Row o of a [2, 1200000] array, flattened, followed by 128 copies of a scalar, viewed as
    [1, 1200128]: a column below 1200000 reads the row there. -/
theorem padRow_lo (o : Nat) (ho : o < 2) (x : S2x1200000.Idx → α) (z : S_.Idx → α)
    (h1 : S2x1200000.Slices ![o, 0] S1x1200000) (h2 : S1x1200000.ShapeCasts S1200000)
    (h3 : S_.BroadcastsInDim S128 (![] : Fin 0 → Fin S128.rank))
    (h4 : Shape.Concatenates [S1200000, S128] S1200128 0) (h5 : S1200128.ShapeCasts S1x1200128)
    (e : Fin 1200128) (h : e.val < 1200000) :
    shapeCast S1x1200128
        (concatenate S1200128 0
          [⟨S1200000, shapeCast S1200000 (extractStridedSlice S1x1200000 ![o, 0] x h1) h2⟩,
           ⟨S128, broadcastInDim S128 ![] h3 z⟩] h4) h5 (ix2 (0 : Fin 1) e)
      = x (ix2 (⟨o, ho⟩ : Fin 2) ⟨e.val, h⟩) := by
  -- position (0, e) of the [1, 1200128] view is position e of the flat array
  refine (shapeCast_apply _ h5 _ (ix1 e) (by
    rw [Shape.rowMajor_val_one, Shape.rowMajor_val_two]
    show e.val = 0 * 1200128 + e.val
    omega)).trans ?_
  -- e lies in the first piece
  refine (concatenate_pair_apply_left (t := S1200128) (s₁ := S1200000) (s₂ := S128) 0 _ _ h4 (ix1 e) rfl
    (ix1 ⟨e.val, h⟩) (fun b => match b with | ⟨0, _⟩ => rfl)).trans ?_
  -- position e of the flattened row is position (0, e) of the row
  refine (shapeCast_apply _ h2 _ (ix2 (0 : Fin 1) (⟨e.val, h⟩ : Fin 1200000)) (by
    rw [Shape.rowMajor_val_one, Shape.rowMajor_val_two]
    show 0 * 1200000 + e.val = e.val
    omega)).trans ?_
  -- the row is the array at row offset o
  exact extractStridedSlice_apply _ x h1 _ (ix2 (⟨o, ho⟩ : Fin 2) (⟨e.val, h⟩ : Fin 1200000)) (fun a => match a with
    | ⟨0, _⟩ => by show o = o + 0; omega
    | ⟨1, _⟩ => by show e.val = 0 + e.val; omega)

/-- The same term at a column from 1200000 on reads the scalar. -/
theorem padRow_hi (o : Nat) (x : S2x1200000.Idx → α) (z : S_.Idx → α)
    (h1 : S2x1200000.Slices ![o, 0] S1x1200000) (h2 : S1x1200000.ShapeCasts S1200000)
    (h3 : S_.BroadcastsInDim S128 (![] : Fin 0 → Fin S128.rank))
    (h4 : Shape.Concatenates [S1200000, S128] S1200128 0) (h5 : S1200128.ShapeCasts S1x1200128)
    (e : Fin 1200128) (h : ¬ e.val < 1200000) :
    shapeCast S1x1200128
        (concatenate S1200128 0
          [⟨S1200000, shapeCast S1200000 (extractStridedSlice S1x1200000 ![o, 0] x h1) h2⟩,
           ⟨S128, broadcastInDim S128 ![] h3 z⟩] h4) h5 (ix2 (0 : Fin 1) e)
      = z ix0 := by
  -- e lies in the second piece, k places in, where k + 1200000 = e
  obtain ⟨k, hk⟩ : ∃ k : Fin 128, k.val + 1200000 = e.val :=
    ⟨⟨e.val - 1200000, by have := e.isLt; omega⟩, by show e.val - 1200000 + 1200000 = e.val; omega⟩
  refine (shapeCast_apply _ h5 _ (ix1 e) (by
    rw [Shape.rowMajor_val_one, Shape.rowMajor_val_two]
    show e.val = 0 * 1200128 + e.val
    omega)).trans ?_
  refine (concatenate_pair_apply_right (t := S1200128) (s₁ := S1200000) (s₂ := S128) 0 _ _ h4 (ix1 e) rfl rfl
    (ix1 k) (fun b hb => match b with | ⟨0, _⟩ => absurd rfl hb) hk).trans ?_
  exact broadcastInDim_apply _ h3 z _ ix0 (fun a => a.elim0)

/-- An [n, 64] array followed by p rows of a scalar, transposed to [64, N]: column e below n of row d
    reads the array at (e, d). -/
theorem padT_lo (n p N : Nat) (x : (⟨2, ![n, 64]⟩ : Shape).Idx → α) (z : S_.Idx → α)
    (h3 : S_.BroadcastsInDim ⟨2, ![p, 64]⟩ (![] : Fin 0 → Fin 2))
    (h4 : Shape.Concatenates [⟨2, ![n, 64]⟩, ⟨2, ![p, 64]⟩] ⟨2, ![N, 64]⟩ 0)
    (h5 : (⟨2, ![N, 64]⟩ : Shape).Transposes [1, 0] ⟨2, ![64, N]⟩)
    (d : Fin 64) (e : Fin N) (h : e.val < n) :
    transpose ⟨2, ![64, N]⟩ [1, 0]
        (concatenate ⟨2, ![N, 64]⟩ 0
          [⟨⟨2, ![n, 64]⟩, x⟩, ⟨⟨2, ![p, 64]⟩, broadcastInDim ⟨2, ![p, 64]⟩ ![] h3 z⟩] h4) h5 (ix2 d e)
      = x (ix2 ⟨e.val, h⟩ d) := by
  -- the transpose swaps the two coordinates
  refine (transpose_apply _ _ h5 _ (ix2 e d) (fun b => match b with | ⟨0, _⟩ => rfl | ⟨1, _⟩ => rfl)).trans ?_
  exact concatenate_pair_apply_left (t := ⟨2, ![N, 64]⟩) (s₁ := ⟨2, ![n, 64]⟩) (s₂ := ⟨2, ![p, 64]⟩) 0 x _ h4 (ix2 e d) rfl
    (ix2 ⟨e.val, h⟩ d) (fun b => match b with | ⟨0, _⟩ => rfl | ⟨1, _⟩ => rfl)

/-- The same term at a column from n on reads the scalar. -/
theorem padT_hi (n p N : Nat) (hN : N = n + p) (x : (⟨2, ![n, 64]⟩ : Shape).Idx → α) (z : S_.Idx → α)
    (h3 : S_.BroadcastsInDim ⟨2, ![p, 64]⟩ (![] : Fin 0 → Fin 2))
    (h4 : Shape.Concatenates [⟨2, ![n, 64]⟩, ⟨2, ![p, 64]⟩] ⟨2, ![N, 64]⟩ 0)
    (h5 : (⟨2, ![N, 64]⟩ : Shape).Transposes [1, 0] ⟨2, ![64, N]⟩)
    (d : Fin 64) (e : Fin N) (h : ¬ e.val < n) :
    transpose ⟨2, ![64, N]⟩ [1, 0]
        (concatenate ⟨2, ![N, 64]⟩ 0
          [⟨⟨2, ![n, 64]⟩, x⟩, ⟨⟨2, ![p, 64]⟩, broadcastInDim ⟨2, ![p, 64]⟩ ![] h3 z⟩] h4) h5 (ix2 d e)
      = z ix0 := by
  have h' : e.val - n < p := by have := e.isLt; omega
  refine (transpose_apply _ _ h5 _ (ix2 e d) (fun b => match b with | ⟨0, _⟩ => rfl | ⟨1, _⟩ => rfl)).trans ?_
  refine (concatenate_pair_apply_right (t := ⟨2, ![N, 64]⟩) (s₁ := ⟨2, ![n, 64]⟩) (s₂ := ⟨2, ![p, 64]⟩) 0 x _ h4 (ix2 e d) rfl rfl
    (ix2 (⟨e.val - n, h'⟩ : Fin p) d) (fun b hb => match b with | ⟨0, _⟩ => absurd rfl hb | ⟨1, _⟩ => rfl)
    (by show e.val - n + n = e.val; omega)).trans ?_
  exact broadcastInDim_apply _ h3 z _ ix0 (fun a => a.elim0)

end Pure

variable [Cert.KernelIdeal.Facts]

/-! ## The buffers after the leading host operations, as terms of the argument buffers -/

section After
variable (X : Valuation τ sig (Elt Ideal))

set_option maxHeartbeats 400000 in
theorem after0_v13 :
    (StableHlo.after (hostOps0 (F := Ideal)) X (Proc.devRef .tc main_v13) : IVec S1x1200128 32)
      = shapeCast S1x1200128
          (concatenate S1200128 0
            [⟨S1200000, shapeCast S1200000
                (extractStridedSlice S1x1200000 ![0, 0] (X (Proc.devRef .tc main_arg2) : IVec S2x1200000 32)
                  Facts₀.slices_S2x1200000_S1x1200000_0_0) Facts₀.shapeCasts_S1x1200000_S1200000⟩,
             ⟨S128, broadcastInDim S128 ![] Facts₀.bcast_S_S128 (constantI S_ 32 100351#32)⟩]
            Facts₀.concatenates_S1200000_S128_S1200128_d0) Facts₀.shapeCasts_S1200128_S1x1200128 := by
  dsimp only [hostOps0]
  after_results <;> rfl

set_option maxHeartbeats 400000 in
theorem after0_v14 :
    (StableHlo.after (hostOps0 (F := Ideal)) X (Proc.devRef .tc main_v14) : IVec S1x1200128 32)
      = shapeCast S1x1200128
          (concatenate S1200128 0
            [⟨S1200000, shapeCast S1200000
                (extractStridedSlice S1x1200000 ![1, 0] (X (Proc.devRef .tc main_arg2) : IVec S2x1200000 32)
                  Facts₀.slices_S2x1200000_S1x1200000_1_0) Facts₀.shapeCasts_S1x1200000_S1200000⟩,
             ⟨S128, broadcastInDim S128 ![] Facts₀.bcast_S_S128 (constantI S_ 32 100351#32)⟩]
            Facts₀.concatenates_S1200000_S128_S1200128_d0) Facts₀.shapeCasts_S1200128_S1x1200128 := by
  dsimp only [hostOps0]
  after_results <;> rfl

set_option maxHeartbeats 400000 in
theorem after0_v12 :
    (StableHlo.after (hostOps0 (F := Ideal)) X (Proc.devRef .tc main_v12) : FVec Ideal S64x1200128 .f32)
      = transpose S64x1200128 [1, 0]
          (concatenate S1200128x64 0
            [⟨S1200000x64, (X (Proc.devRef .tc main_arg1) : FVec Ideal S1200000x64 .f32)⟩,
             ⟨S128x64, broadcastInDim S128x64 ![] Facts₀.bcast_S_S128x64 (constant (F := Ideal) S_ .f32 0x00000000#32)⟩]
            Facts₀.concatenates_S1200000x64_S128x64_S1200128x64_d0) Facts₀.transposes_S1200128x64_S64x1200128_1_0 := by
  dsimp only [hostOps0]
  after_results <;> rfl

set_option maxHeartbeats 400000 in
theorem after0_v11 :
    (StableHlo.after (hostOps0 (F := Ideal)) X (Proc.devRef .tc main_v11) : FVec Ideal S64x100352 .f32)
      = transpose S64x100352 [1, 0]
          (concatenate S100352x64 0
            [⟨S100000x64, (X (Proc.devRef .tc main_arg0) : FVec Ideal S100000x64 .f32)⟩,
             ⟨S352x64, broadcastInDim S352x64 ![] Facts₀.bcast_S_S352x64 (constant (F := Ideal) S_ .f32 0x00000000#32)⟩]
            Facts₀.concatenates_S100000x64_S352x64_S100352x64_d0) Facts₀.transposes_S100352x64_S64x100352_1_0 := by
  dsimp only [hostOps0]
  after_results <;> rfl

theorem after2_v17 :
    (StableHlo.after (hostOps2 (F := Ideal)) X (Proc.devRef .tc main_v17) : FVec Ideal S100000x64 .f32)
      = extractStridedSlice S100000x64 ![0, 0] (X (Proc.devRef .tc main_v16) : FVec Ideal S100352x64 .f32)
          Facts₀.slices_S100352x64_S100000x64_0_0 := by
  dsimp only [hostOps2]
  after_results <;> rfl

end After

/-! ## The statements -/

variable (m : (ℓ : Loc nD τ sig) → Buf (Elt Ideal) ℓ) (c : Dev nD)

/-- The first kernel's index operand: row 0 of the index array, 100351 past its end. -/
theorem v13_apply (e : Fin 1200128) :
    (V1 m c (Proc.devRef .tc main_v13) : IVec S1x1200128 32) (ix2 (0 : Fin 1) e)
      = if h : e.val < 1200000 then
          (m ((c : Thread nD τ).loc main_arg2) : IVec S2x1200000 32) (ix2 (0 : Fin 2) ⟨e.val, h⟩)
        else 100351#32 := by
  by_cases h : e.val < 1200000
  · rw [dif_pos h]
    exact (congrFun (after0_v13 (V0 m c)) _).trans (padRow_lo 0 (by decide) _ _ _ _ _ _ _ e h)
  · rw [dif_neg h]
    exact (congrFun (after0_v13 (V0 m c)) _).trans (padRow_hi 0 _ _ _ _ _ _ _ e h)

/-- The second kernel's index operand: row 1 of the index array, 100351 past its end. -/
theorem v14_apply (e : Fin 1200128) :
    (V1 m c (Proc.devRef .tc main_v14) : IVec S1x1200128 32) (ix2 (0 : Fin 1) e)
      = if h : e.val < 1200000 then
          (m ((c : Thread nD τ).loc main_arg2) : IVec S2x1200000 32) (ix2 (1 : Fin 2) ⟨e.val, h⟩)
        else 100351#32 := by
  by_cases h : e.val < 1200000
  · rw [dif_pos h]
    exact (congrFun (after0_v14 (V0 m c)) _).trans (padRow_lo 1 (by decide) _ _ _ _ _ _ _ e h)
  · rw [dif_neg h]
    exact (congrFun (after0_v14 (V0 m c)) _).trans (padRow_hi 1 _ _ _ _ _ _ _ e h)

/-- The edge features, transposed, zero past the last edge. -/
theorem v12_apply (d : Fin 64) (e : Fin 1200128) :
    (V1 m c (Proc.devRef .tc main_v12) : FVec Ideal S64x1200128 .f32) (ix2 d e)
      = if h : e.val < 1200000 then
          (m ((c : Thread nD τ).loc main_arg1) : FVec Ideal S1200000x64 .f32) (ix2 ⟨e.val, h⟩ d)
        else (0 : EReal) := by
  by_cases h : e.val < 1200000
  · rw [dif_pos h]
    exact (congrFun (after0_v12 (V0 m c)) _).trans (padT_lo 1200000 128 1200128 _ _ _ _ _ d e h)
  · rw [dif_neg h]
    exact ((congrFun (after0_v12 (V0 m c)) _).trans
      (padT_hi 1200000 128 1200128 rfl _ _ _ _ _ d e h)).trans Ideal.ofBits_zero_f32

/-- The node features, transposed, zero past the last node. -/
theorem v11_apply (d : Fin 64) (n : Fin 100352) :
    (V1 m c (Proc.devRef .tc main_v11) : FVec Ideal S64x100352 .f32) (ix2 d n)
      = if h : n.val < 100000 then
          (m ((c : Thread nD τ).loc main_arg0) : FVec Ideal S100000x64 .f32) (ix2 ⟨n.val, h⟩ d)
        else (0 : EReal) := by
  by_cases h : n.val < 100000
  · rw [dif_pos h]
    exact (congrFun (after0_v11 (V0 m c)) _).trans (padT_lo 100000 352 100352 _ _ _ _ _ d n h)
  · rw [dif_neg h]
    exact ((congrFun (after0_v11 (V0 m c)) _).trans
      (padT_hi 100000 352 100352 rfl _ _ _ _ _ d n h)).trans Ideal.ofBits_zero_f32

/-- The program's result: the leading 100000 rows of what the second kernel leaves. -/
theorem v17_apply (outs : Outs (F := Ideal)) (n : Fin 100000) (d : Fin 64) :
    (V4 m outs c (Proc.devRef .tc main_v17) : FVec Ideal S100000x64 .f32) (ix2 n d)
      = (V3 m outs c (Proc.devRef .tc main_v16) : FVec Ideal S100352x64 .f32)
          (ix2 (⟨n.val, by have := n.isLt; omega⟩ : Fin 100352) d) := by
  refine (congrFun (after2_v17 (V3 m outs c)) _).trans ?_
  exact extractStridedSlice_apply _ _ _ _ _ (fun a => match a with
    | ⟨0, _⟩ => by show n.val = 0 + n.val; omega
    | ⟨1, _⟩ => by show d.val = 0 + d.val; omega)

end Cert.KernelIdeal.HostVal

end
-- ==== Proof.Spec.lean ====
/-
  THE FUNCTION BOTH PROGRAMS COMPUTE. One round of sum-aggregation message passing followed by a two-layer
  perceptron, over the extended reals, index by index:
    * the message on edge `e` is the feature row of its source node plus the edge's own feature row;
    * node `n` aggregates the messages of the edges whose destination word reads, signed, as `n`
      (an edge whose destination is negative or past the last node lands nowhere);
    * the aggregate goes through `x ↦ max (x · W1 + b1) 0` and then `h ↦ h · W2 + b2`.
  The source row of an edge is its source word read signed, a negative word moved up by the node count,
  the result clamped into the node range: for a source word in `[0, 100000)` that is the word itself.
-/
import Idealize.ShloMosaic.Lib.ValueIdx
import Idealize.ShloMosaic.PureOps.Ideal

noncomputable section

open scoped BigOperators

namespace Cert.Spec

open Idealize.ShloMosaic Idealize.ShloMosaic.ValueIdx

abbrev NodeS : Shape := ⟨2, ![100000, 64]⟩
abbrev EdgeS : Shape := ⟨2, ![1200000, 64]⟩
abbrev IdxS : Shape := ⟨2, ![2, 1200000]⟩
abbrev W1S : Shape := ⟨2, ![64, 128]⟩
abbrev B1S : Shape := ⟨1, ![128]⟩
abbrev W2S : Shape := ⟨2, ![128, 64]⟩
abbrev B2S : Shape := ⟨1, ![64]⟩

/-- Edge `e`'s source word and destination word. -/
def srcW (ei : IVec IdxS 32) (e : Fin 1200000) : BitVec 32 := ei (ix2 (0 : Fin 2) e)
def dstW (ei : IVec IdxS 32) (e : Fin 1200000) : BitVec 32 := ei (ix2 (1 : Fin 2) e)

/-- The source word with a negative value moved up by the node count (numpy's reading of a negative index). -/
def wrapW (ei : IVec IdxS 32) (e : Fin 1200000) : BitVec 32 :=
  if (srcW ei e).slt 0#32 then srcW ei e + 100000#32 else srcW ei e

/-- The node row edge `e` reads: the wrapped source word, signed, clamped into the node range. -/
def srcRow (ei : IVec IdxS 32) (e : Fin 1200000) : Fin 100000 :=
  ⟨min (wrapW ei e).toInt.toNat 99999, by omega⟩

/-- A source word in the node range is its own row. -/
theorem srcRow_of_range (ei : IVec IdxS 32) (e : Fin 1200000) (h0 : 0 ≤ (srcW ei e).toInt)
    (h1 : (srcW ei e).toInt < 100000) : (srcRow ei e).val = (srcW ei e).toInt.toNat := by
  have hs : (srcW ei e).slt 0#32 = false := by
    rw [BitVec.slt_eq_decide]
    simp only [BitVec.toInt_zero, decide_eq_false_iff_not, not_lt]; exact h0
  show min (wrapW ei e).toInt.toNat 99999 = _
  unfold wrapW; rw [hs]; simp only [Bool.false_eq_true, if_false]
  omega

/-- The message on edge `e`, feature `d`. -/
def msg (node : FVec Ideal NodeS .f32) (edge : FVec Ideal EdgeS .f32) (ei : IVec IdxS 32) (e : Fin 1200000) (d : Fin 64) : EReal :=
  node (ix2 (srcRow ei e) d) + edge (ix2 e d)

/-- Node `n`'s aggregate, feature `d`: the messages of the edges whose destination word reads signed as `n`. -/
def agg (node : FVec Ideal NodeS .f32) (edge : FVec Ideal EdgeS .f32) (ei : IVec IdxS 32) (n : Fin 100000) (d : Fin 64) : EReal :=
  ∑ e ∈ Finset.univ.filter (fun e : Fin 1200000 => (dstW ei e).toInt = (n.val : Int)), msg node edge ei e d

/-- The hidden layer. -/
def hid (node : FVec Ideal NodeS .f32) (edge : FVec Ideal EdgeS .f32) (ei : IVec IdxS 32)
    (W1 : FVec Ideal W1S .f32) (b1 : FVec Ideal B1S .f32) (n : Fin 100000) (j : Fin 128) : EReal :=
  max ((∑ d : Fin 64, agg node edge ei n d * W1 (ix2 d j)) + b1 (ix1 j)) 0

/-- The result at node `n`, feature `d'`. -/
def out (node : FVec Ideal NodeS .f32) (edge : FVec Ideal EdgeS .f32) (ei : IVec IdxS 32)
    (W1 : FVec Ideal W1S .f32) (b1 : FVec Ideal B1S .f32) (W2 : FVec Ideal W2S .f32) (b2 : FVec Ideal B2S .f32)
    (n : Fin 100000) (d' : Fin 64) : EReal :=
  (∑ j : Fin 128, hid node edge ei W1 b1 n j * W2 (ix2 j d')) + b2 (ix1 d')

/-- The whole result array. -/
def G (node : FVec Ideal NodeS .f32) (edge : FVec Ideal EdgeS .f32) (ei : IVec IdxS 32)
    (W1 : FVec Ideal W1S .f32) (b1 : FVec Ideal B1S .f32) (W2 : FVec Ideal W2S .f32) (b2 : FVec Ideal B2S .f32) :
    FVec Ideal NodeS .f32 :=
  fun i => out node edge ei W1 b1 W2 b2 (i 0 : Fin 100000) (i 1 : Fin 64)

theorem G_ix2 (node : FVec Ideal NodeS .f32) (edge : FVec Ideal EdgeS .f32) (ei : IVec IdxS 32)
    (W1 : FVec Ideal W1S .f32) (b1 : FVec Ideal B1S .f32) (W2 : FVec Ideal W2S .f32) (b2 : FVec Ideal B2S .f32)
    (n : Fin 100000) (d' : Fin 64) :
    G node edge ei W1 b1 W2 b2 (ix2 n d') = out node edge ei W1 b1 W2 b2 n d' := rfl

end Cert.Spec

end
-- ==== Proof.Bridge.lean ====
/-
  THE TWO WHOLE-ARRAY STAGES OVER THE PADDED, TRANSPOSED ARRAYS ARE THE SPECIFICATION. Pure mathematics over the
  extended reals. A sum of terms each multiplied by the indicator "this row's number is the word v" keeps exactly the
  term of the row numbered v (every other term is multiplied by 0, and x * 0 = 0, x * 1 = x hold for every extended
  real). So at a real edge column the message is the edge's features plus its source node's features, and at a padded
  column it is 0 + 0; the aggregate of a node row keeps the real columns whose destination word is the row's number
  (a padded column contributes 0); for a row number below 2^31 "the word is the row's number" and "the word reads,
  signed, as the row's number" are the same condition. The perceptron on top is the same expression on both sides.
-/
import proofs.«425251_j55370718380132_2_alg».proof.Proof.Mid
import proofs.«425251_j55370718380132_2_alg».proof.Proof.Spec
import Idealize.ShloMosaic.Lib.ValueIdx
import Mathlib.Algebra.BigOperators.Fin
import Mathlib.Data.EReal.Basic

noncomputable section

open scoped BigOperators

namespace Cert.Bridge

open Idealize.ShloMosaic Idealize.ShloMosaic.ValueIdx

/-! ## Words: signed and unsigned readings -/

/-- A 32-bit word reads signed as its unsigned value when that is below 2^31, and as that minus 2^32 otherwise. -/
theorem toInt_cases (w : BitVec 32) :
    (w.toInt = (w.toNat : Int) ∧ w.toNat < 2147483648)
      ∨ (w.toInt = (w.toNat : Int) - 4294967296 ∧ 2147483648 ≤ w.toNat) := by
  have hlt : w.toNat < 4294967296 := w.isLt
  rw [BitVec.toInt_eq_toNat_cond]
  split <;> omega

/-- The word of a number below 2^32 reads unsigned as that number. -/
theorem toNat_ofNat_small (k : Nat) (hk : k < 4294967296) : (BitVec.ofNat 32 k).toNat = k := by
  rw [BitVec.toNat_ofNat]; exact Nat.mod_eq_of_lt hk

/-- Every word is the word of its unsigned reading. -/
theorem ofNat_toNat_self (v : BitVec 32) : BitVec.ofNat 32 v.toNat = v :=
  BitVec.eq_of_toNat_eq (toNat_ofNat_small v.toNat v.isLt)

/-- For a number below 2^31: a word is that number's word exactly when it reads, signed, as the number. -/
theorem word_eq_iff (k : Nat) (hk : k < 2147483648) (w : BitVec 32) :
    BitVec.ofNat 32 k = w ↔ w.toInt = (k : Int) := by
  have hc := toInt_cases w
  have hlt : w.toNat < 4294967296 := w.isLt
  constructor
  · intro h
    have h2 : w.toNat = k := by rw [← h]; exact toNat_ofNat_small k (by omega)
    omega
  · intro h
    have h2 : w.toNat = k := by omega
    rw [← h2]; exact ofNat_toNat_self w

/-! ## The one-hot collapse -/

/-- A sum of terms times the indicator "the row's number is the word v" is the term of row v. -/
theorem sum_hot {N : Nat} (hN : N ≤ 4294967296) (f : Fin N → EReal) (v : BitVec 32) (hv : v.toNat < N) :
    ∑ n : Fin N, f n * Mid.hot (BitVec.ofNat 32 n.val) v = f ⟨v.toNat, hv⟩ := by
  refine (Finset.sum_eq_single (⟨v.toNat, hv⟩ : Fin N) ?_ ?_).trans ?_
  · intro b _ hb
    have hne : BitVec.ofNat 32 b.val ≠ v := by
      intro h
      apply hb
      apply Fin.ext
      have hb' := b.isLt
      have h2 : (BitVec.ofNat 32 b.val).toNat = b.val := toNat_ofNat_small b.val (by omega)
      rw [h] at h2
      exact h2.symm
    rw [Mid.hot_ne hne, mul_zero]
  · intro h; exact absurd (Finset.mem_univ _) h
  · show f ⟨v.toNat, hv⟩ * Mid.hot (BitVec.ofNat 32 v.toNat) v = _
    rw [ofNat_toNat_self v, Mid.hot_self, mul_one]

/-! ## Dropping a padding of zeros from a sum -/

/-- A sum over N columns of a family that is F on the first a columns and 0 on the rest is the sum of F. -/
theorem sum_pad {N a : Nat} (hle : a ≤ N) (F : Fin a → EReal) :
    ∑ E : Fin N, (if h : E.val < a then F ⟨E.val, h⟩ else 0) = ∑ e : Fin a, F e := by
  obtain ⟨b, rfl⟩ := Nat.exists_eq_add_of_le hle
  rw [Fin.sum_univ_add]
  have hpad : ∑ i : Fin b, (if h : (Fin.natAdd a i).val < a then F ⟨(Fin.natAdd a i).val, h⟩ else 0) = 0 := by
    apply Finset.sum_eq_zero
    intro i _
    have hi : ¬ (Fin.natAdd a i).val < a := by rw [Fin.coe_natAdd]; omega
    rw [dif_neg hi]
  rw [hpad, add_zero]
  apply Finset.sum_congr rfl
  intro i _
  have hi : (Fin.castAdd b i).val < a := by rw [Fin.coe_castAdd]; exact i.isLt
  rw [dif_pos hi]
  exact congrArg F (Fin.ext (Fin.coe_castAdd b i))

/-! ## Stage one -/

section stages

variable (node : FVec Ideal Cert.Spec.NodeS .f32) (edge : FVec Ideal Cert.Spec.EdgeS .f32) (ei : IVec Cert.Spec.IdxS 32)
  (srcP dstP : IVec Cert.Mid.RowP 32) (edgeT : FVec Ideal Cert.Mid.EdgeT .f32) (nodeT : FVec Ideal Cert.Mid.NodeT .f32)

/-- At a real edge column the message is the specification's message of that edge. -/
theorem msgAt_real
    (hsrc : ∀ E : Fin 1200128, srcP (ix2 (0 : Fin 1) E) = if h : E.val < 1200000 then ei (ix2 (0 : Fin 2) ⟨E.val, h⟩) else 100351#32)
    (hedge : ∀ (d : Fin 64) (E : Fin 1200128), edgeT (ix2 d E) = if h : E.val < 1200000 then edge (ix2 ⟨E.val, h⟩ d) else 0)
    (hnode : ∀ (d : Fin 64) (n : Fin 100352), nodeT (ix2 d n) = if h : n.val < 100000 then node (ix2 ⟨n.val, h⟩ d) else 0)
    (hrange : ∀ e : Fin 1200000, 0 ≤ (ei (ix2 (0 : Fin 2) e)).toInt ∧ (ei (ix2 (0 : Fin 2) e)).toInt < 100000)
    (d : Fin 64) (E : Fin 1200128) (h : E.val < 1200000) :
    Mid.msgAt srcP edgeT nodeT d E = Spec.msg node edge ei ⟨E.val, h⟩ d := by
  have hr := hrange ⟨E.val, h⟩
  have hc := toInt_cases (ei (ix2 (0 : Fin 2) (⟨E.val, h⟩ : Fin 1200000)))
  have hv : (ei (ix2 (0 : Fin 2) (⟨E.val, h⟩ : Fin 1200000))).toNat < 100352 := by omega
  have hv' : (ei (ix2 (0 : Fin 2) (⟨E.val, h⟩ : Fin 1200000))).toNat < 100000 := by omega
  have hsum : ∑ n : Fin 100352, nodeT (ix2 d n) * Mid.hot (BitVec.ofNat 32 n.val) (srcP (ix2 (0 : Fin 1) E))
      = node (ix2 (Spec.srcRow ei ⟨E.val, h⟩) d) := by
    rw [hsrc E, dif_pos h]
    refine (sum_hot (by norm_num) (fun n : Fin 100352 => nodeT (ix2 d n)) _ hv).trans ?_
    show nodeT (ix2 d ⟨_, hv⟩) = _
    rw [hnode d ⟨_, hv⟩, dif_pos hv']
    have hrow : (⟨_, hv'⟩ : Fin 100000) = Spec.srcRow ei ⟨E.val, h⟩ := by
      apply Fin.ext
      rw [Spec.srcRow_of_range ei _ hr.1 hr.2]
      show (ei (ix2 (0 : Fin 2) (⟨E.val, h⟩ : Fin 1200000))).toNat
        = (ei (ix2 (0 : Fin 2) (⟨E.val, h⟩ : Fin 1200000))).toInt.toNat
      omega
    rw [hrow]
  unfold Mid.msgAt Spec.msg
  rw [hsum, hedge d E, dif_pos h, add_comm]

/-- At a padded column the message is 0. -/
theorem msgAt_pad
    (hsrc : ∀ E : Fin 1200128, srcP (ix2 (0 : Fin 1) E) = if h : E.val < 1200000 then ei (ix2 (0 : Fin 2) ⟨E.val, h⟩) else 100351#32)
    (hedge : ∀ (d : Fin 64) (E : Fin 1200128), edgeT (ix2 d E) = if h : E.val < 1200000 then edge (ix2 ⟨E.val, h⟩ d) else 0)
    (hnode : ∀ (d : Fin 64) (n : Fin 100352), nodeT (ix2 d n) = if h : n.val < 100000 then node (ix2 ⟨n.val, h⟩ d) else 0)
    (d : Fin 64) (E : Fin 1200128) (h : ¬ E.val < 1200000) :
    Mid.msgAt srcP edgeT nodeT d E = 0 := by
  have hv : (100351#32).toNat < 100352 := by decide
  have hv' : ¬ (100351#32).toNat < 100000 := by decide
  have hsum : ∑ n : Fin 100352, nodeT (ix2 d n) * Mid.hot (BitVec.ofNat 32 n.val) (srcP (ix2 (0 : Fin 1) E)) = 0 := by
    rw [hsrc E, dif_neg h]
    refine (sum_hot (by norm_num) (fun n : Fin 100352 => nodeT (ix2 d n)) _ hv).trans ?_
    show nodeT (ix2 d ⟨_, hv⟩) = _
    rw [hnode d ⟨_, hv⟩, dif_neg hv']
  unfold Mid.msgAt
  rw [hsum, hedge d E, dif_neg h, add_zero]

/-! ## Stage two -/

/-- The aggregate of a real node row is the specification's aggregate. -/
theorem aggAt_eq
    (hsrc : ∀ E : Fin 1200128, srcP (ix2 (0 : Fin 1) E) = if h : E.val < 1200000 then ei (ix2 (0 : Fin 2) ⟨E.val, h⟩) else 100351#32)
    (hdst : ∀ E : Fin 1200128, dstP (ix2 (0 : Fin 1) E) = if h : E.val < 1200000 then ei (ix2 (1 : Fin 2) ⟨E.val, h⟩) else 100351#32)
    (hedge : ∀ (d : Fin 64) (E : Fin 1200128), edgeT (ix2 d E) = if h : E.val < 1200000 then edge (ix2 ⟨E.val, h⟩ d) else 0)
    (hnode : ∀ (d : Fin 64) (n : Fin 100352), nodeT (ix2 d n) = if h : n.val < 100000 then node (ix2 ⟨n.val, h⟩ d) else 0)
    (hrange : ∀ e : Fin 1200000, 0 ≤ (ei (ix2 (0 : Fin 2) e)).toInt ∧ (ei (ix2 (0 : Fin 2) e)).toInt < 100000)
    (n : Fin 100000) (hn : n.val < 100352) (d : Fin 64) :
    Mid.aggAt dstP (Mid.msgT srcP edgeT nodeT) d (⟨n.val, hn⟩ : Fin 100352) = Spec.agg node edge ei n d := by
  have hn' := n.isLt
  unfold Mid.aggAt Spec.agg
  rw [Finset.sum_filter]
  refine Eq.trans ?_ (sum_pad (N := 1200128) (a := 1200000) (by norm_num) _)
  apply Finset.sum_congr rfl
  intro E _
  rw [Mid.msgT_ix2]
  by_cases h : E.val < 1200000
  · rw [dif_pos h, msgAt_real node edge ei srcP edgeT nodeT hsrc hedge hnode hrange d E h, hdst E, dif_pos h]
    show _ * Mid.hot (BitVec.ofNat 32 n.val) (Spec.dstW ei ⟨E.val, h⟩) = _
    by_cases hw : (Spec.dstW ei ⟨E.val, h⟩).toInt = (n.val : Int)
    · rw [if_pos hw, (word_eq_iff n.val (by omega) _).2 hw, Mid.hot_self, mul_one]
    · rw [if_neg hw, Mid.hot_ne (fun hh => hw ((word_eq_iff n.val (by omega) _).1 hh)), mul_zero]
  · rw [dif_neg h, msgAt_pad node edge ei srcP edgeT nodeT hsrc hedge hnode d E h, zero_mul]

end stages

/-! ## The whole composition -/

/-- The two stages composed over the padded arrays give, at every real node row, the specification's result. -/
theorem out_eq
    (node : FVec Ideal Cert.Spec.NodeS .f32) (edge : FVec Ideal Cert.Spec.EdgeS .f32) (ei : IVec Cert.Spec.IdxS 32)
    (W1 : FVec Ideal Cert.Spec.W1S .f32) (b1 : FVec Ideal Cert.Spec.B1S .f32) (W2 : FVec Ideal Cert.Spec.W2S .f32) (b2 : FVec Ideal Cert.Spec.B2S .f32)
    (srcP dstP : IVec Cert.Mid.RowP 32) (edgeT : FVec Ideal Cert.Mid.EdgeT .f32) (nodeT : FVec Ideal Cert.Mid.NodeT .f32)
    (hsrc : ∀ E : Fin 1200128, srcP (ix2 (0 : Fin 1) E) = if h : E.val < 1200000 then ei (ix2 (0 : Fin 2) ⟨E.val, h⟩) else 100351#32)
    (hdst : ∀ E : Fin 1200128, dstP (ix2 (0 : Fin 1) E) = if h : E.val < 1200000 then ei (ix2 (1 : Fin 2) ⟨E.val, h⟩) else 100351#32)
    (hedge : ∀ (d : Fin 64) (E : Fin 1200128), edgeT (ix2 d E) = if h : E.val < 1200000 then edge (ix2 ⟨E.val, h⟩ d) else 0)
    (hnode : ∀ (d : Fin 64) (n : Fin 100352), nodeT (ix2 d n) = if h : n.val < 100000 then node (ix2 ⟨n.val, h⟩ d) else 0)
    (hrange : ∀ e : Fin 1200000, 0 ≤ (ei (ix2 (0 : Fin 2) e)).toInt ∧ (ei (ix2 (0 : Fin 2) e)).toInt < 100000)
    (n : Fin 100000) (d' : Fin 64) :
    Cert.Mid.outP dstP (Cert.Mid.msgT srcP edgeT nodeT) W1 b1 W2 b2 (ix2 (⟨n.val, by omega⟩ : Fin 100352) d')
      = Cert.Spec.out node edge ei W1 b1 W2 b2 n d' := by
  have hn : n.val < 100352 := by omega
  have hagg : ∀ d : Fin 64,
      Mid.aggAt dstP (Mid.msgT srcP edgeT nodeT) d (⟨n.val, hn⟩ : Fin 100352) = Spec.agg node edge ei n d :=
    fun d => aggAt_eq node edge ei srcP dstP edgeT nodeT hsrc hdst hedge hnode hrange n hn d
  show Mid.outAt dstP (Mid.msgT srcP edgeT nodeT) W1 b1 W2 b2 (⟨n.val, hn⟩ : Fin 100352) d' = _
  unfold Mid.outAt Spec.out Spec.hid
  refine congrArg (fun x => x + b2 (ix1 d')) (Finset.sum_congr rfl fun j _ => ?_)
  refine congrArg (fun x => max (x + b1 (ix1 j)) 0 * W2 (ix2 j d')) (Finset.sum_congr rfl fun d _ => ?_)
  rw [hagg d]

end Cert.Bridge

end
-- ==== Proof.KernelVal.lean ====
/-
  THE KERNEL PROGRAM'S RESULT IS THE SPECIFICATION. The last boundary's contents at the result buffer: the leading rows of
  what the second region leaves, which is the perceptron of the aggregated messages over the padded arrays the host operations
  build, the messages being what the first region leaves; over arrays padded with a spare zero node row and zero edge columns
  whose words name that row, with the source words in range, that is the specification's function of the argument arrays.
-/
import proofs.«425251_j55370718380132_2_alg».proof.Proof.KernelIdealRun
import proofs.«425251_j55370718380132_2_alg».proof.Proof.Val0
import proofs.«425251_j55370718380132_2_alg».proof.Proof.Val1
import proofs.«425251_j55370718380132_2_alg».proof.Proof.HostVal
import proofs.«425251_j55370718380132_2_alg».proof.Proof.Bridge
import proofs.«425251_j55370718380132_2_alg».proof.Proof.Spec

set_option maxRecDepth 16384

noncomputable section

namespace Cert.KernelIdeal.Gen

open Idealize.ShloMosaic Idealize.ShloMosaic.TcCoe Idealize.ShloMosaic.ValueIdx
open Idealize.SL Idealize.SL.Sem
open Cert.KernelIdeal.HostVal

variable (m : (ℓ : Loc nD τ sig) → Buf (Elt Ideal) ℓ) (ρ : Dev nD → PrngReg)

/-- The contents after the first host stretch are the host operations applied to the launch memory. -/
theorem W1_eq_V1 (c : Dev nD) : W1 m ρ c = V1 m c := rfl

/-- An argument array is what it was at launch when region 0 is entered, -/
theorem U1_arg (c : Dev nD) (r : Ref sig .tc) (h : r ∉ hostOps0_W) : U1 m ρ c r = m ((c : Thread nD τ).loc r) :=
  V1_of m c r h
/-- and when region 1 is entered, if it is no array of region 0. -/
theorem U2_of (c : Dev nD) (r : Ref sig .tc) (h : ∀ w, Pipeline.arrRef spec0 w ≠ r) : U2 m ρ c r = U1 m ρ c r :=
  W2_of_ne m ρ c r h

/-- THE RESULT: the result buffer's last contents are the specification's function of the argument arrays, when every source
    word is in the node range. -/
theorem result_G (c : Dev nD)
    (hrange : ∀ e : Fin 1200000, 0 ≤ ((m ((c : Thread nD τ).loc main_arg2) : IVec S2x1200000 32) (ix2 (0 : Fin 2) e)).toInt
      ∧ ((m ((c : Thread nD τ).loc main_arg2) : IVec S2x1200000 32) (ix2 (0 : Fin 2) e)).toInt < 100000) :
    (W4 m ρ c (Proc.devRef .tc main_v17) : FVec Ideal S100000x64 .f32)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨n, d', rfl⟩ : ∃ (n : Fin 100000) (d' : Fin 64), i = ix2 n d' := ⟨i 0, i 1, eq_ix2 i⟩
  rw [Cert.Spec.G_ix2]
  have hs : (W4 m ρ c (Proc.devRef .tc main_v17) : FVec Ideal S100000x64 .f32) (ix2 n d')
      = (W3 m ρ c (Proc.devRef .tc main_v16) : FVec Ideal S100352x64 .f32) (ix2 (⟨n.val, by have := n.isLt; omega⟩ : Fin 100352) d') := by
    refine (congrFun (after2_v17 (W3 m ρ c)) _).trans ?_
    exact extractStridedSlice_apply _ _ _ _ _ (fun a => match a with
      | ⟨0, _⟩ => by show n.val = 0 + n.val; omega
      | ⟨1, _⟩ => by show d'.val = 0 + d'.val; omega)
  have h3 : W3 m ρ c (Proc.devRef .tc main_v16) = (dat1 (U2 m ρ) c).arrAt 6 cfg1.N := W3_arr m ρ c 6
  have e15 : U2 m ρ c main_v15 = M0 (U1 m ρ) c := (W2_arr m ρ c 3).trans (final0 (U1 m ρ) c)
  have e14 : U2 m ρ c main_v14 = U1 m ρ c main_v14 := U2_of m ρ c main_v14 (by decide)
  have ea3 : U2 m ρ c main_arg3 = m ((c : Thread nD τ).loc main_arg3) := (U2_of m ρ c main_arg3 (by decide)).trans (U1_arg m ρ c main_arg3 (by decide))
  have ea4 : U2 m ρ c main_arg4 = m ((c : Thread nD τ).loc main_arg4) := (U2_of m ρ c main_arg4 (by decide)).trans (U1_arg m ρ c main_arg4 (by decide))
  have ea5 : U2 m ρ c main_arg5 = m ((c : Thread nD τ).loc main_arg5) := (U2_of m ρ c main_arg5 (by decide)).trans (U1_arg m ρ c main_arg5 (by decide))
  have ea6 : U2 m ρ c main_arg6 = m ((c : Thread nD τ).loc main_arg6) := (U2_of m ρ c main_arg6 (by decide)).trans (U1_arg m ρ c main_arg6 (by decide))
  rw [hs, h3, final1 (U2 m ρ) c, e15, e14, ea3, ea4, ea5, ea6]
  exact Cert.Bridge.out_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (U1 m ρ c main_v13) (U1 m ρ c main_v14) (U1 m ρ c main_v12) (U1 m ρ c main_v11)
    (fun E => v13_apply m c E) (fun E => v14_apply m c E) (fun d E => v12_apply m c d E) (fun d n => v11_apply m c d n)
    hrange n d'

end Cert.KernelIdeal.Gen

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefVal.lean ====
/-
  THE REFERENCE PROGRAM COMPUTES THE SPECIFICATION FUNCTION. Stage by stage, at the extended reals, each value of
  the reference is read at an index and named by the mathematics it holds:
    * the two rows of the index array, flattened, are the source words and the destination words of the edges;
    * the select of "the source word is negative" between "the word plus the node count" and the word is the
      wrapped source word; as a one-column table it names, clamped, the source row of each edge;
    * the gather reads, for edge e, the node row of its source; adding the edge's own row gives the message;
    * the scatter-add into zeros sums, at node n, the messages of the edges whose destination word reads signed as n;
    * the two contractions, the two bias rows and the maximum with zero are the two-layer perceptron.
  The composed term of a run is therefore the specification function G of the seven arguments.
-/
import proofs.«425251_j55370718380132_2_alg».proof.Proof.Gen.ReferenceIdeal.Read
import proofs.«425251_j55370718380132_2_alg».proof.Proof.LibGatherScatter
import proofs.«425251_j55370718380132_2_alg».proof.Proof.Spec
import Idealize.ShloMosaic.Lib.StableHlo.Predicate
import Idealize.ShloMosaic.Lib.Pipeline.Value
import Idealize.ShloMosaic.Lib.ValueIdx
import Idealize.ShloMosaic.PureOps.Ideal.Laws

noncomputable section

open scoped BigOperators

namespace Cert.ReferenceIdeal.RefVal

open Cert.ReferenceIdeal Cert.ReferenceIdeal.Gen Idealize.ShloMosaic Idealize.ShloMosaic.TcCoe Idealize.SL.Sem
open Idealize.ShloMosaic.ValueIdx Idealize.ShloMosaic.StableHlo.Predicate Idealize.ShloMosaic.RowOps

/-- The seven arguments' types at the extended reals. -/
abbrev A0 := (⟨S100000x64, .f32⟩ : BufTy).Contents (Elt Ideal)
abbrev A1 := (⟨S1200000x64, .f32⟩ : BufTy).Contents (Elt Ideal)
abbrev A2 := (⟨S2x1200000, .i32⟩ : BufTy).Contents (Elt Ideal)
abbrev A3 := (⟨S64x128, .f32⟩ : BufTy).Contents (Elt Ideal)
abbrev A4 := (⟨S128, .f32⟩ : BufTy).Contents (Elt Ideal)
abbrev A5 := (⟨S128x64, .f32⟩ : BufTy).Contents (Elt Ideal)
abbrev A6 := (⟨S64, .f32⟩ : BufTy).Contents (Elt Ideal)

/-! ## The index words -/

/-- The select of one source word: negative words move up by the node count. -/
theorem wrap_word (s : BitVec 32) :
    Scalar.select (IntOp.cmpi .slt s 0#32) (IntOp.addi s 100000#32) s
      = if s.slt 0#32 then s + 100000#32 else s := by
  unfold Scalar.select IntOp.cmpi IntOp.addi
  cases h : s.slt 0#32
  · simp
  · simp

/-- Row 0 of the index array, flattened: the source words. -/
theorem v1_at (x2 : A2) (e : Fin 1200000) : Read.val_main_v1 (F := Ideal) x2 (ix1 e) = Cert.Spec.srcW x2 e := by
  rw [Read.val_main_v1_apply, Read.val_main_v0_apply]
  show x2 _ = x2 _
  congr 1
  funext a
  match a with
  | ⟨0, _⟩ => exact Fin.ext rfl
  | ⟨1, _⟩ => exact Fin.ext (Nat.mod_eq_of_lt e.isLt)

/-- Row 1 of the index array, flattened: the destination words. -/
theorem v3_at (x2 : A2) (e : Fin 1200000) : Read.val_main_v3 (F := Ideal) x2 (ix1 e) = Cert.Spec.dstW x2 e := by
  rw [Read.val_main_v3_apply, Read.val_main_v2_apply]
  show x2 _ = x2 _
  congr 1
  funext a
  match a with
  | ⟨0, _⟩ => exact Fin.ext rfl
  | ⟨1, _⟩ => exact Fin.ext (Nat.mod_eq_of_lt e.isLt)

/-- The selected word is the wrapped source word. -/
theorem v8_at (x2 : A2) (e : Fin 1200000) : Read.val_main_v8 (F := Ideal) x2 (ix1 e) = Cert.Spec.wrapW x2 e := by
  rw [Read.val_main_v8_apply, Read.val_main_v5_apply, Read.val_main_v7_apply, Read.val_main_v4_apply,
    Read.val_main_v6_apply, Read.val_main_c_apply, Read.val_main_c_0_apply, v1_at]
  exact wrap_word _

/-- A position of a one-column table is read at the position of the vector it was made from. -/
theorem idx_v9_col (e : Fin 1200000) : Read.idx_main_v9 (ixP e) = ix1 e := by
  funext a
  match a with
  | ⟨0, _⟩ => rfl

theorem idx_v13_col (e : Fin 1200000) : Read.idx_main_v13 (ixP e) = ix1 e := by
  funext a
  match a with
  | ⟨0, _⟩ => rfl

/-- The start-index column of the gather holds the wrapped source words. -/
theorem v9_at (x2 : A2) (e : Fin 1200000) : Read.val_main_v9 (F := Ideal) x2 (ixP e) = Cert.Spec.wrapW x2 e := by
  rw [Read.val_main_v9_apply, idx_v9_col, v8_at]

/-- The index column of the scatter holds the destination words. -/
theorem v13_at (x2 : A2) (e : Fin 1200000) : Read.val_main_v13 (F := Ideal) x2 (ixP e) = Cert.Spec.dstW x2 e := by
  rw [Read.val_main_v13_apply, idx_v13_col, v3_at]

theorem clamp_v9 (x2 : A2) (e : Fin 1200000) :
    clampRow 100000 (by omega) (Read.val_main_v9 (F := Ideal) x2) e = Cert.Spec.srcRow x2 e := by
  apply Fin.ext
  show min (Read.val_main_v9 (F := Ideal) x2 (ixP e)).toInt.toNat (100000 - 1) = min (Cert.Spec.wrapW x2 e).toInt.toNat 99999
  rw [v9_at]

theorem v10_at (x0 : A0) (x2 : A2) (e : Fin 1200000) (d : Fin 64) :
    Read.val_main_v10 (F := Ideal) x0 x2 (ix2 e d) = x0 (ix2 (Cert.Spec.srcRow x2 e) d) := by
  unfold Read.val_main_v10
  generalize hy : Read.val_main_v9 (F := Ideal) x2 = y
  have hg := gather_rows gather_S100000x64_S1200000x1_S1200000x64_1_0_n_n_0_1_164 rfl rfl rfl rfl rfl rfl x0
    y e d (by omega)
  have hc : clampRow 100000 (by omega) y e = Cert.Spec.srcRow x2 e := by
    rw [← hy]; exact clamp_v9 x2 e
  exact hg.trans (congrArg (fun r => x0 (ix2 r d)) hc)

/-- The gathered row plus the edge's own row is the message. -/
theorem v11_at (x0 : A0) (x1 : A1) (x2 : A2) (e : Fin 1200000) (d : Fin 64) :
    Read.val_main_v11 (F := Ideal) x0 x1 x2 (ix2 e d) = Cert.Spec.msg x0 x1 x2 e d := by
  rw [Read.val_main_v11_apply, v10_at]
  rfl

/-- The scatter's operand is zero everywhere. -/
theorem v12_at (i : S100000x64.Idx) : Read.val_main_v12 (F := Ideal) i = (0 : EReal) := by
  rw [Read.val_main_v12_apply, Read.val_main_cst_apply]
  exact Ideal.ofBits_zero_f32

/-- At the extended reals the host's accumulating scatter is the exact one, whatever the shapes. -/
theorem scatterAdd_at_ideal {s si su : Shape} {w : Nat} (d : ScatterDims s si su) (x : s.Idx → EReal) (idx : IVec si w)
    (upd : su.Idx → EReal) (i : s.Idx) :
    Host.scatterAdd (F := Ideal) (φ := .f32) d x idx upd i = Ideal.hostScatterAdd d x idx upd i := rfl

/-- The aggregate, written out. -/
theorem agg_eq (x0 : A0) (x1 : A1) (x2 : A2) (n : Fin 100000) (d : Fin 64) :
    Cert.Spec.agg x0 x1 x2 n d
      = ∑ e ∈ Finset.univ.filter (fun e : Fin 1200000 => (Cert.Spec.dstW x2 e).toInt = (n.val : Int)), Cert.Spec.msg x0 x1 x2 e d := rfl

/-- The scatter-add into zeros sums, at node n, the messages landing on n. -/
theorem v14_at (x0 : A0) (x1 : A1) (x2 : A2) (n : Fin 100000) (d : Fin 64) :
    Read.val_main_v14 (F := Ideal) x0 x1 x2 (ix2 n d) = Cert.Spec.agg x0 x1 x2 n d := by
  unfold Read.val_main_v14
  generalize hz : Read.val_main_v12 (F := Ideal) = z
  generalize hy : Read.val_main_v13 (F := Ideal) x2 = y
  generalize hu : Read.val_main_v11 (F := Ideal) x0 x1 x2 = u
  have hs := scatterAdd_rows scatter_S100000x64_S1200000x1_S1200000x64_1_0_0_1 rfl rfl rfl rfl z y u n d
  have hz0 : z (ix2 n d) = 0 := by rw [← hz]; exact v12_at _
  have hl : ∀ e : Fin 1200000, lands y e n.val ↔ (Cert.Spec.dstW x2 e).toInt = (n.val : Int) := fun e => by
    unfold lands
    rw [← hy, v13_at]
  have hm : ∀ e : Fin 1200000, u (ix2 e d) = Cert.Spec.msg x0 x1 x2 e d := fun e => by
    rw [← hu]; exact v11_at x0 x1 x2 e d
  refine (scatterAdd_at_ideal _ z y u (ix2 n d)).trans (hs.trans ?_)
  rw [hz0, zero_add]
  refine Eq.trans ?_ (agg_eq x0 x1 x2 n d).symm
  exact Finset.sum_congr (Finset.filter_congr fun e _ => hl e) (fun e _ => hm e)

/-! ## The perceptron -/

theorem lidx15 (n : Fin 100000) (j : Fin 128) (k : Fin 64) : Read.lidx_main_v15 (ix2 n j) k = ix2 n k := by
  funext a
  match a with
  | ⟨0, _⟩ => rfl
  | ⟨1, _⟩ => rfl

theorem ridx15 (n : Fin 100000) (j : Fin 128) (k : Fin 64) : Read.ridx_main_v15 (ix2 n j) k = ix2 k j := by
  funext a
  match a with
  | ⟨0, _⟩ => rfl
  | ⟨1, _⟩ => rfl

/-- The first contraction: the aggregate times the first weight matrix. -/
theorem v15_at (x0 : A0) (x1 : A1) (x2 : A2) (x3 : A3) (n : Fin 100000) (j : Fin 128) :
    Read.val_main_v15 (F := Ideal) x0 x1 x2 x3 (ix2 n j)
      = ∑ d : Fin 64, Cert.Spec.agg x0 x1 x2 n d * x3 (ix2 d j) := by
  rw [Read.val_main_v15_apply]
  refine Finset.sum_congr rfl fun k _ => ?_
  rw [lidx15, ridx15, v14_at]

/-- The first bias, a row repeated down the nodes. -/
theorem v17_at (x4 : A4) (n : Fin 100000) (j : Fin 128) : Read.val_main_v17 (F := Ideal) x4 (ix2 n j) = x4 (ix1 j) := by
  rw [Read.val_main_v17_apply, Read.val_main_v16_apply]
  congr 1
  funext a
  match a with
  | ⟨0, _⟩ => rfl

theorem v18_at (x0 : A0) (x1 : A1) (x2 : A2) (x3 : A3) (x4 : A4) (n : Fin 100000) (j : Fin 128) :
    Read.val_main_v18 (F := Ideal) x0 x1 x2 x3 x4 (ix2 n j)
      = (∑ d : Fin 64, Cert.Spec.agg x0 x1 x2 n d * x3 (ix2 d j)) + x4 (ix1 j) := by
  rw [Read.val_main_v18_apply, v15_at, v17_at]
  rfl

/-- The zero the maximum is taken with. -/
theorem relu_zero (i : S100000x128.Idx) : Read.val_main_call0_v0 (F := Ideal) i = (0 : EReal) := by
  rw [Read.val_main_call0_v0_apply, Read.val_main_call0_cst_apply]
  exact Ideal.ofBits_zero_f32

/-- The hidden layer. -/
theorem v19_at (x0 : A0) (x1 : A1) (x2 : A2) (x3 : A3) (x4 : A4) (n : Fin 100000) (j : Fin 128) :
    Read.val_main_v19 (F := Ideal) x0 x1 x2 x3 x4 (ix2 n j) = Cert.Spec.hid x0 x1 x2 x3 x4 n j := by
  rw [Read.val_main_v19_apply, v18_at, relu_zero]
  rfl

theorem lidx20 (n : Fin 100000) (d' : Fin 64) (k : Fin 128) : Read.lidx_main_v20 (ix2 n d') k = ix2 n k := by
  funext a
  match a with
  | ⟨0, _⟩ => rfl
  | ⟨1, _⟩ => rfl

theorem ridx20 (n : Fin 100000) (d' : Fin 64) (k : Fin 128) : Read.ridx_main_v20 (ix2 n d') k = ix2 k d' := by
  funext a
  match a with
  | ⟨0, _⟩ => rfl
  | ⟨1, _⟩ => rfl

/-- The second contraction: the hidden layer times the second weight matrix. -/
theorem v20_at (x0 : A0) (x1 : A1) (x2 : A2) (x3 : A3) (x4 : A4) (x5 : A5) (n : Fin 100000) (d' : Fin 64) :
    Read.val_main_v20 (F := Ideal) x0 x1 x2 x3 x4 x5 (ix2 n d')
      = ∑ j : Fin 128, Cert.Spec.hid x0 x1 x2 x3 x4 n j * x5 (ix2 j d') := by
  rw [Read.val_main_v20_apply]
  refine Finset.sum_congr rfl fun k _ => ?_
  rw [lidx20, ridx20, v19_at]

/-- The second bias, a row repeated down the nodes. -/
theorem v22_at (x6 : A6) (n : Fin 100000) (d' : Fin 64) : Read.val_main_v22 (F := Ideal) x6 (ix2 n d') = x6 (ix1 d') := by
  rw [Read.val_main_v22_apply, Read.val_main_v21_apply]
  congr 1
  funext a
  match a with
  | ⟨0, _⟩ => rfl

/-- The last stage at a node and a feature is the specification's result there. -/
theorem v23_at (x0 : A0) (x1 : A1) (x2 : A2) (x3 : A3) (x4 : A4) (x5 : A5) (x6 : A6) (n : Fin 100000) (d' : Fin 64) :
    Read.val_main_v23 (F := Ideal) x0 x1 x2 x3 x4 x5 x6 (ix2 n d') = Cert.Spec.out x0 x1 x2 x3 x4 x5 x6 n d' := by
  rw [Read.val_main_v23_apply, v20_at, v22_at]
  rfl

/-- The last stage is the specification function. -/
theorem stage_eq (x0 : A0) (x1 : A1) (x2 : A2) (x3 : A3) (x4 : A4) (x5 : A5) (x6 : A6) :
    Read.val_main_v23 (F := Ideal) x0 x1 x2 x3 x4 x5 x6 = Cert.Spec.G x0 x1 x2 x3 x4 x5 x6 := by
  funext i
  obtain ⟨n, d', rfl⟩ : ∃ (n : Fin 100000) (d' : Fin 64), i = ix2 n d' := ⟨i 0, i 1, eq_ix2 i⟩
  rw [Cert.Spec.G_ix2]
  exact v23_at x0 x1 x2 x3 x4 x5 x6 n d'

/-! ## The run -/

open Idealize.ShloMosaic.StableHlo in
/-- The composed term a run of the reference ends with is the specification function of the seven arguments. -/
theorem result_eq (x0 : FVec Ideal S100000x64 .f32) (x1 : FVec Ideal S1200000x64 .f32) (x2 : IVec S2x1200000 32)
    (x3 : FVec Ideal S64x128 .f32) (x4 : FVec Ideal S128 .f32) (x5 : FVec Ideal S128x64 .f32) (x6 : FVec Ideal S64 .f32) :
    addf (Host.dotGeneral dot_S100000x128_S128x64_S100000x64_1_0_0_1_n_n none (maximumf (addf (Host.dotGeneral dot_S100000x64_S64x128_S100000x128_1_0_0_1_n_n none (Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 (shapeCast _ (extractStridedSlice S1x1200000 ![1, 0] (x2) slices_S2x1200000_S1x1200000_1_0) shapeCasts_S1x1200000_S1200000)) (addf (Host.gather gather_S100000x64_S1200000x1_S1200000x64_1_0_n_n_0_1_164 (x0) (broadcastInDim S1200000x1 ![0] bcast_S1200000_S1200000x1_0 (select (cmpi .slt (shapeCast _ (extractStridedSlice S1x1200000 ![0, 0] (x2) slices_S2x1200000_S1x1200000_0_0) shapeCasts_S1x1200000_S1200000) (broadcastInDim S1200000 ![] bcast_S_S1200000 (constantI S_ 32 0#32))) (addi (shapeCast _ (extractStridedSlice S1x1200000 ![0, 0] (x2) slices_S2x1200000_S1x1200000_0_0) shapeCasts_S1x1200000_S1200000) (broadcastInDim S1200000 ![] bcast_S_S1200000 (constantI S_ 32 100000#32))) (shapeCast _ (extractStridedSlice S1x1200000 ![0, 0] (x2) slices_S2x1200000_S1x1200000_0_0) shapeCasts_S1x1200000_S1200000)))) (x1))) (x3)) (broadcastInDim S100000x128 ![0, 1] bcast_S1x128_S100000x128_0_1 (broadcastInDim S1x128 ![1] bcast_S128_S1x128_1 (x4)))) (broadcastInDim S100000x128 ![] bcast_S_S100000x128 (constant S_ .f32 0x00000000#32))) (x5)) (broadcastInDim S100000x64 ![0, 1] bcast_S1x64_S100000x64_0_1 (broadcastInDim S1x64 ![1] bcast_S64_S1x64_1 (x6)))
      = Cert.Spec.G x0 x1 x2 x3 x4 x5 x6 :=
  (Read.val_main_v23_eq (F := Ideal) x0 x1 x2 x3 x4 x5 x6).trans (stage_eq x0 x1 x2 x3 x4 x5 x6)

/-- Every weakly fair execution of the reference ends with the specification function of the launch contents of the
    seven arguments in the result buffer, the arguments unchanged. -/
theorem run_G (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread nD τ).loc main_v23) = Cert.Spec.G (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)) :=
  (θ_run _ _ _).mono (fun _ h c => ⟨(h c).1.trans (result_eq _ _ _ _ _ _ _), (h c).2⟩)
    (Cert.ReferenceIdeal.Value.run (F := Ideal) m' ρ')

end Cert.ReferenceIdeal.RefVal

end
-- ==== Proof.PreIdx.lean ====
/-
  THE PRECONDITION READ BACK AT ONE EDGE. The printed precondition `finite_inputs` is a chain of eight
  `jnp.all` claims joined by one-bit `and`s; its last two say that row 0 of the int32 [2, 1200000] edge table, cut
  out as the [1, 1200000] slice at offset (0, 0) and flattened to [1200000], is everywhere ≥ 0 and everywhere < 100000
  (signed compares against a broadcast scalar, each reduced by `and` from 1). When the whole predicate is 1, every
  entry (0, e) of the table therefore lies in [0, 100000) as a signed integer: `src_range`.

  The road: a one-bit `and` that is 1 has both operands 1; an all-axes `and`-reduce that is 1 has a 1 at every
  element; the element of the compare at position e is the word compare of the table's entry (0, e) (the slice keeps
  the column and adds offset 0 to the row, the flattening of a one-row rectangle keeps the column) with the constant;
  a signed compare that is 1 is the order of the signed values.
-/
import proofs.«425251_j55370718380132_2_alg».proof.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.PreIdx

open Idealize.ShloMosaic Idealize.ShloMosaic.ValueIdx Cert.Pre_finite_inputs

/-- The scalar shape has one index. -/
instance : Subsingleton S_.Idx := ⟨fun a b => funext fun d => d.elim0⟩

/-! ## Words: a signed compare that came out 1 orders the signed values -/

/-- `x ≥ 0` signed, as a one-bit word equal to 1, says the signed value of `x` is non-negative. -/
theorem nonneg_of_sge {x : BitVec 32} (h : IntOp.cmpi .sge x 0#32 = 1#1) : 0 ≤ x.toInt := by
  have hb : (0#32 : BitVec 32).sle x = true := (StableHlo.Predicate.ofBool_eq_one_iff _).1 h
  have hd : (0#32 : BitVec 32).toInt ≤ x.toInt := of_decide_eq_true hb
  have h0 : (0#32 : BitVec 32).toInt = 0 := by decide
  rw [h0] at hd
  exact hd

/-- `x < 100000` signed, as a one-bit word equal to 1, says the signed value of `x` is below 100000. -/
theorem lt_of_slt {x : BitVec 32} (h : IntOp.cmpi .slt x 100000#32 = 1#1) : x.toInt < 100000 := by
  have hb : x.slt (100000#32 : BitVec 32) = true := (StableHlo.Predicate.ofBool_eq_one_iff _).1 h
  have hd : x.toInt < (100000#32 : BitVec 32).toInt := of_decide_eq_true hb
  have h1 : (100000#32 : BitVec 32).toInt = 100000 := by decide
  rw [h1] at hd
  exact hd

/-! ## The read: row 0 of the table, sliced and flattened, at position e -/

/-- The [1, 1200000] slice at offset (0, 0) of a [2, 1200000] table, flattened to [1200000], reads at `e` the table's
    entry (0, e): the flattening keeps the row-major position 0 · 1200000 + e, the slice adds 0 to each coordinate. -/
theorem row0_read {α : Type} (t : S2x1200000.Idx → α) (hs : S2x1200000.Slices ![0, 0] S1x1200000)
    (hc : S1x1200000.ShapeCasts S1200000) (e : Fin 1200000) :
    shapeCast S1200000 (extractStridedSlice S1x1200000 ![0, 0] t hs) hc (ix1 e) = t (ix2 (0 : Fin 2) e) := by
  refine (shapeCast_apply _ hc (ix1 e) (ix2 (0 : Fin 1) e) ?_).trans ?_
  · rw [Shape.rowMajor_val_two, Shape.rowMajor_val_one]
    show (0 : Nat) * _ + e.val = e.val
    omega
  · refine extractStridedSlice_apply _ t hs _ (ix2 (0 : Fin 2) e) fun a => ?_
    match a with
    | ⟨0, _⟩ => rfl
    | ⟨1, _⟩ => exact (Nat.zero_add e.val).symm

/-! ## The chain, from its tail -/

/-- The tail of the chain (its last `and`): when it is 1, the seventh conjunct it was handed is 1 and every entry
    (0, e) is below 100000. -/
theorem tail_decode {F : FTy → Type} [FloatOps F] [Facts] (a2 : IVec S2x1200000 32) (v28 v33 : IVec S_ 1)
    (h : fn_part2 (F := F) a2 v28 v33 ix0 = 1#1) (e : Fin 1200000) :
    v33 ix0 = 1#1 ∧ (a2 (ix2 (0 : Fin 2) e)).toInt < 100000 := by
  obtain ⟨h34, h39⟩ := IntOp.andi_eq_one.1 h
  obtain ⟨-, h33⟩ := IntOp.andi_eq_one.1 h34
  refine ⟨h33, ?_⟩
  have hel : IntOp.cmpi .slt
      (shapeCast S1200000 (extractStridedSlice S1x1200000 ![0, 0] a2 Facts.slices_S2x1200000_S1x1200000_0_0)
        Facts.shapeCasts_S1x1200000_S1200000 (ix1 e)) 100000#32 = 1#1 :=
    Host.reduce_andi_all _ _ _ _ ix0 h39 (ix1 e)
  rw [row0_read] at hel
  exact lt_of_slt hel

/-- The middle of the chain: when it is 1, every entry (0, e) is in [0, 100000). -/
theorem mid_decode {F : FTy → Type} [FloatOps F] [Facts] (a2 : IVec S2x1200000 32) (a5 : FVec F S128x64 .f32)
    (a6 : FVec F S64 .f32) (v13 : IVec S_ 1) (v16 : IVec S128 1)
    (h : fn_part1 (F := F) a2 a5 a6 v13 v16 ix0 = 1#1) (e : Fin 1200000) :
    0 ≤ (a2 (ix2 (0 : Fin 2) e)).toInt ∧ (a2 (ix2 (0 : Fin 2) e)).toInt < 100000 := by
  obtain ⟨h33, hlt⟩ := tail_decode (F := F) a2 _ _ h e
  refine ⟨?_, hlt⟩
  have hel : IntOp.cmpi .sge
      (shapeCast S1200000 (extractStridedSlice S1x1200000 ![0, 0] a2 Facts.slices_S2x1200000_S1x1200000_0_0)
        Facts.shapeCasts_S1x1200000_S1200000 (ix1 e)) 0#32 = 1#1 :=
    Host.reduce_andi_all _ _ _ _ ix0 h33 (ix1 e)
  rw [row0_read] at hel
  exact nonneg_of_sge hel

/-- THE PRECONDITION DECODED, in any float family: under `finite_inputs`, every entry of row 0 of the edge table is a
    signed integer in [0, 100000). -/
theorem src_range_gen {F : FTy → Type} [FloatOps F] [Facts] (a0 : FVec F S100000x64 .f32) (a1 : FVec F S1200000x64 .f32)
    (a2 : IVec S2x1200000 32) (a3 : FVec F S64x128 .f32) (a4 : FVec F S128 .f32) (a5 : FVec F S128x64 .f32)
    (a6 : FVec F S64 .f32) (h : fn (F := F) a0 a1 a2 a3 a4 a5 a6 = fun _ => 1#1) (e : Fin 1200000) :
    0 ≤ (a2 (ix2 (0 : Fin 2) e)).toInt ∧ (a2 (ix2 (0 : Fin 2) e)).toInt < 100000 := by
  have h0 : fn (F := F) a0 a1 a2 a3 a4 a5 a6 ix0 = 1#1 := congrFun h ix0
  exact mid_decode (F := F) a2 a5 a6 _ _ h0 e

/-- THE PRECONDITION DECODED at the ideal instance. -/
theorem src_range [Cert.Pre_finite_inputs.Facts] (a0 : FVec Ideal Cert.Pre_finite_inputs.S100000x64 .f32)
    (a1 : FVec Ideal Cert.Pre_finite_inputs.S1200000x64 .f32) (a2 : IVec Cert.Pre_finite_inputs.S2x1200000 32)
    (a3 : FVec Ideal Cert.Pre_finite_inputs.S64x128 .f32) (a4 : FVec Ideal Cert.Pre_finite_inputs.S128 .f32)
    (a5 : FVec Ideal Cert.Pre_finite_inputs.S128x64 .f32) (a6 : FVec Ideal Cert.Pre_finite_inputs.S64 .f32)
    (h : Cert.Pre_finite_inputs.fn (F := Ideal) a0 a1 a2 a3 a4 a5 a6 = fun _ => 1#1) (e : Fin 1200000) :
    0 ≤ (a2 (Idealize.ShloMosaic.ValueIdx.ix2 (0 : Fin 2) e)).toInt
      ∧ (a2 (Idealize.ShloMosaic.ValueIdx.ix2 (0 : Fin 2) e)).toInt < 100000 :=
  src_range_gen a0 a1 a2 a3 a4 a5 a6 h e

end Cert.PreIdx

end
-- ==== Proof.lean ====
/-
  THE CERTIFICATE. The kernel program computes one round of sum-aggregation message passing followed by a two-layer
  perceptron by two pipelined regions: the first builds the message of every edge as a product of the transposed node
  features with a one-hot matrix of the edges' source words, accumulated over node blocks onto the edge features; the
  second sums the messages into their destination rows the same way, accumulated over edge blocks, and applies the
  perceptron at the last edge block. Over the extended reals a product with a one-hot matrix selects, sums may be taken in
  any order and grouping, and a change of float format is the identity, so when every source word is a node number the
  program's result is the reference's: gather the source rows, add the edge features, scatter-add by destination, apply the
  perceptron. Destination words outside the node range land nowhere in both programs (the kernel's padded rows are sliced
  off); a source word outside it reads a zero row in the kernel and a clamped row in the reference, which is why the
  precondition bounds the source words.
  Each program's frame (it terminates, faults nowhere, leaves its arguments as launched) is the launch theorem for a list of
  segments applied to the two regions' records; the idealized kernel is the printed kernel read at the extended reals (the
  ideal pass rewrote nothing).
-/
import proofs.«425251_j55370718380132_2_alg».proof.Defs
import proofs.«425251_j55370718380132_2_alg».proof.Proof.Gen.Kernel
import proofs.«425251_j55370718380132_2_alg».proof.Proof.Gen.KernelIdeal
import proofs.«425251_j55370718380132_2_alg».proof.Proof.Gen.ReferenceIdeal
import proofs.«425251_j55370718380132_2_alg».proof.Proof.Gen.Pre_finite_inputs
import proofs.«425251_j55370718380132_2_alg».proof.Proof.KernelRun
import proofs.«425251_j55370718380132_2_alg».proof.Proof.KernelIdealRun
import proofs.«425251_j55370718380132_2_alg».proof.Proof.KernelVal
import proofs.«425251_j55370718380132_2_alg».proof.Proof.RefVal
import proofs.«425251_j55370718380132_2_alg».proof.Proof.PreIdx

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frameH m ρ

theorem frame_ki : Cert.frame_KernelIdeal (hKernelIdeal := Cert.KernelIdeal.Gen.facts) (hPre_finite_inputs := Cert.Pre_finite_inputs.Gen.facts) :=
  fun m ρ _ => Cert.KernelIdeal.Gen.frameH m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefVal.run_G m ρ)

/-- Both idealized programs, from memories agreeing on the arguments, end with the specification's function of the argument
    arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Gen.run_all m ρ)
    have hr := fun e => Cert.PreIdx.src_range _ _ _ _ _ _ _ (hpre c) e
    refine ⟨(h c _ (Cert.KernelIdeal.Gen.mem_ucH Cert.KernelIdeal.main_v17 (by decide))).trans (Cert.KernelIdeal.Gen.result_G m ρ c hr),
      (h c _ (Cert.KernelIdeal.Gen.mem_ucH Cert.KernelIdeal.main_arg0 (by decide))).trans (Cert.KernelIdeal.Gen.W4_main_arg0 m ρ c),
      (h c _ (Cert.KernelIdeal.Gen.mem_ucH Cert.KernelIdeal.main_arg1 (by decide))).trans (Cert.KernelIdeal.Gen.W4_main_arg1 m ρ c),
      (h c _ (Cert.KernelIdeal.Gen.mem_ucH Cert.KernelIdeal.main_arg2 (by decide))).trans (Cert.KernelIdeal.Gen.W4_main_arg2 m ρ c),
      (h c _ (Cert.KernelIdeal.Gen.mem_ucH Cert.KernelIdeal.main_arg3 (by decide))).trans (Cert.KernelIdeal.Gen.W4_main_arg3 m ρ c),
      (h c _ (Cert.KernelIdeal.Gen.mem_ucH Cert.KernelIdeal.main_arg4 (by decide))).trans (Cert.KernelIdeal.Gen.W4_main_arg4 m ρ c),
      (h c _ (Cert.KernelIdeal.Gen.mem_ucH Cert.KernelIdeal.main_arg5 (by decide))).trans (Cert.KernelIdeal.Gen.W4_main_arg5 m ρ c),
      (h c _ (Cert.KernelIdeal.Gen.mem_ucH Cert.KernelIdeal.main_arg6 (by decide))).trans (Cert.KernelIdeal.Gen.W4_main_arg6 m ρ c)⟩
  · refine (θ_run Cert.ReferenceIdeal.defs _ _).mono (fun _ h c => ⟨?_, (h c).2⟩) (Cert.ReferenceIdeal.RefVal.run_G m' ρ')
    rw [(h c).1, (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
